-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.named_const.Statement Cert.KernelIdeal.κ "inv_scale" .f32 0x3CB504F3#32 ((262144 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x1024 : Shape := ⟨3, ![2, 4096, 1024]⟩
abbrev S1024x2048 : Shape := ⟨2, ![1024, 2048]⟩
abbrev S2048 : Shape := ⟨1, ![2048]⟩
abbrev S1024x128 : Shape := ⟨2, ![1024, 128]⟩
abbrev S128 : Shape := ⟨1, ![128]⟩
abbrev S2048x1024 : Shape := ⟨2, ![2048, 1024]⟩
abbrev S1024 : Shape := ⟨1, ![1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S2048x1024 .f32) (main_arg12 : FVec F S1024 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S2048x1024 .f32 := Host.absf main_arg11
  let main_cst_20 : FVec F S_ .f32 := constant S_ .f32 0x7F800000#32
  let main_v55 : FVec F S2048x1024 .f32 := broadcastInDim S2048x1024 ![] bcast_S_S2048x1024 main_cst_20
  let main_v56 : IVec S2048x1024 1 := cmpf .olt main_v54 main_v55
  let main_c_21 : IVec S_ 1 := constantI S_ 1 1#1
  let main_v57 : IVec S_ 1 := (fun x v => Host.reduce IntOp.andi x v reducesTo_S2048x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S128 .f32) (main_arg8 : FVec F S128 .f32) (main_arg9 : FVec F S128 .f32) (main_arg10 : FVec F S128 .f32) (main_arg11 : FVec F S2048x1024 .f32) (main_arg12 : FVec F S1024 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S2048 .f32) (main_arg5 : FVec F S1024x128 .f32) (main_arg6 : FVec F S128 .f32) (main_arg7 : FVec F S128 .f32) (main_arg8 : FVec F S128 .f32) (main_arg9 : FVec F S128 .f32) (main_arg10 : FVec F S128 .f32) (main_arg11 : FVec F S2048x1024 .f32) (main_arg12 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S1024x128 .f32 := Host.absf main_arg5
  let main_cst_8 : FVec F S_ .f32 := constant S_ .f32 0x7F800000#32
  let main_v25 : FVec F S1024x128 .f32 := broadcastInDim S1024x128 ![] bcast_S_S1024x128 main_cst_8
  let main_v26 : IVec S1024x128 1 := cmpf .olt main_v24 main_v25
  let main_c_9 : IVec S_ 1 := constantI S_ 1 1#1
  let main_v27 : IVec S_ 1 := (fun x v => Host.reduce IntOp.andi x v reducesTo_S1024x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2x4096x1024 .f32) (main_arg1 : FVec F S1024x2048 .f32) (main_arg2 : FVec F S2048 .f32) (main_arg3 : FVec F S1024x2048 .f32) (main_arg4 : FVec F S2048 .f32) (main_arg5 : FVec F S1024x128 .f32) (main_arg6 : FVec F S128 .f32) (main_arg7 : FVec F S128 .f32) (main_arg8 : FVec F S128 .f32) (main_arg9 : FVec F S128 .f32) (main_arg10 : FVec F S128 .f32) (main_arg11 : FVec F S2048x1024 .f32) (main_arg12 : FVec F S1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_arg11 main_arg12 main_v13 main_v16
-- ==== Kernel.lean ====
abbrev S2x4096x1024 : Shape := ⟨3, ![2, 4096, 1024]⟩
abbrev S1024x2048 : Shape := ⟨2, ![1024, 2048]⟩
abbrev S2048 : Shape := ⟨1, ![2048]⟩
abbrev S1024x128 : Shape := ⟨2, ![1024, 128]⟩
abbrev S128 : Shape := ⟨1, ![128]⟩
abbrev S2048x1024 : Shape := ⟨2, ![2048, 1024]⟩
abbrev S1024 : Shape := ⟨1, ![1024]⟩
abbrev S1x2048 : Shape := ⟨2, ![1, 2048]⟩
abbrev S1x128 : Shape := ⟨2, ![1, 128]⟩
abbrev S1x1024 : Shape := ⟨2, ![1, 1024]⟩
abbrev S2x4096x2048 : Shape := ⟨3, ![2, 4096, 2048]⟩
abbrev S2x4096x128 : Shape := ⟨3, ![2, 4096, 128]⟩
abbrev S1x512x1024 : Shape := ⟨3, ![1, 512, 1024]⟩
abbrev S1x512x2048 : Shape := ⟨3, ![1, 512, 2048]⟩
abbrev S1x512x128 : Shape := ⟨3, ![1, 512, 128]⟩
abbrev S512x1024 : Shape := ⟨2, ![512, 1024]⟩
abbrev S512x2048 : Shape := ⟨2, ![512, 2048]⟩
abbrev S512x128 : Shape := ⟨2, ![512, 128]⟩
abbrev S128x512 : Shape := ⟨2, ![128, 512]⟩
abbrev S512x512 : Shape := ⟨2, ![512, 512]⟩

abbrev nBuf : Space → Nat
  | .hbm => 30
  | .vmem => 33
  | .smem => 0
  | _ => 0

abbrev bufTy : (tb : Table) → Fin (tcTables nBuf tb) → BufTy
  | .hbm, ⟨0, _⟩ => ⟨S2x4096x1024, .f32⟩
  | .hbm, ⟨1, _⟩ => ⟨S1024x2048, .f32⟩
  | .hbm, ⟨2, _⟩ => ⟨S2048, .f32⟩
  | .hbm, ⟨3, _⟩ => ⟨S1024x2048, .f32⟩
  | .hbm, ⟨4, _⟩ => ⟨S2048, .f32⟩
  | .hbm, ⟨5, _⟩ => ⟨S1024x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S2048x1024, .f32⟩
  | .hbm, ⟨12, _⟩ => ⟨S1024, .f32⟩
  | .hbm, ⟨13, _⟩ => ⟨S1024x2048, .bf16⟩
  | .hbm, ⟨14, _⟩ => ⟨S1024x2048, .bf16⟩
  | .hbm, ⟨15, _⟩ => ⟨S1024x128, .bf16⟩
  | .hbm, ⟨16, _⟩ => ⟨S2048x1024, .bf16⟩
  | .hbm, ⟨17, _⟩ => ⟨S1x2048, .f32⟩
  | .hbm, ⟨18, _⟩ => ⟨S1x2048, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x1024, .f32⟩
  | .hbm, ⟨25, _⟩ => ⟨S2x4096x2048, .bf16⟩
  | .hbm, ⟨26, _⟩ => ⟨S2x4096x2048, .bf16⟩
  | .hbm, ⟨27, _⟩ => ⟨S2x4096x128, .bf16⟩
  | .hbm, ⟨28, _⟩ => ⟨S2x4096x128, .bf16⟩
  | .hbm, ⟨29, _⟩ => ⟨S2x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x2048, .bf16⟩
  | .local _ .vmem, ⟨3, _⟩ => ⟨S1x2048, .f32⟩
  | .local _ .vmem, ⟨4, _⟩ => ⟨S1024x2048, .bf16⟩
  | .local _ .vmem, ⟨5, _⟩ => ⟨S1x2048, .f32⟩
  | .local _ .vmem, ⟨6, _⟩ => ⟨S1024x128, .bf16⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x512x2048, .bf16⟩
  | .local _ .vmem, ⟨13, _⟩ => ⟨S1x512x2048, .bf16⟩
  | .local _ .vmem, ⟨14, _⟩ => ⟨S1x512x2048, .bf16⟩
  | .local _ .vmem, ⟨15, _⟩ => ⟨S1x512x2048, .bf16⟩
  | .local _ .vmem, ⟨16, _⟩ => ⟨S1x512x128, .bf16⟩
  | .local _ .vmem, ⟨17, _⟩ => ⟨S1x512x128, .bf16⟩
  | .local _ .vmem, ⟨18, _⟩ => ⟨S1x512x128, .bf16⟩
  | .local _ .vmem, ⟨19, _⟩ => ⟨S1x512x128, .bf16⟩
  | .local _ .vmem, ⟨20, _⟩ => ⟨S1x512x128, .bf16⟩
  | .local _ .vmem, ⟨21, _⟩ => ⟨S1x512x128, .bf16⟩
  | .local _ .vmem, ⟨22, _⟩ => ⟨S1x512x128, .bf16⟩
  | .local _ .vmem, ⟨23, _⟩ => ⟨S1x512x128, .bf16⟩
  | .local _ .vmem, ⟨24, _⟩ => ⟨S1x512x2048, .bf16⟩
  | .local _ .vmem, ⟨25, _⟩ => ⟨S1x512x2048, .bf16⟩
  | .local _ .vmem, ⟨26, _⟩ => ⟨S1x512x2048, .bf16⟩
  | .local _ .vmem, ⟨27, _⟩ => ⟨S1x512x2048, .bf16⟩
  | .local _ .vmem, ⟨28, _⟩ => ⟨S2048x1024, .bf16⟩
  | .local _ .vmem, ⟨29, _⟩ => ⟨S1x1024, .f32⟩
  | .local _ .vmem, ⟨30, _⟩ => ⟨S1x512x1024, .f32⟩
  | .local _ .vmem, ⟨31, _⟩ => ⟨S1x512x1024, .f32⟩
  | .local _ .vmem, ⟨32, _⟩ => ⟨S512x2048, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev main_v13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg6_1 : Ref sig .tc := ⟨.vmem, 31, rfl⟩
abbrev cc1_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem5_0 : DmaSem sig := 29
abbrev cc1_sem6_0 : DmaSem sig := 30
abbrev cc1_sem6_1 : DmaSem sig := 31

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev grid1 : Pipeline.Grid := ⟨3, ![2, 8, 8], ![false, false, false]⟩

def k1_cond3 (i : grid1.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 1 → Memref sig .tc .vmem S2048x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  bitsLt_bf16_f32 : FTy.bits .bf16 < FTy.bits .f32
  shapeCasts_S2048_S1x2048 : S2048.ShapeCasts S1x2048
  shapeCasts_S128_S1x128 : S128.ShapeCasts S1x128
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  packedbf16_S1x512x2048_S1x512x2048_0_0_0 : (Rect.unit (s := S1x512x2048) ![0, 0, 0] S1x512x2048.size inb_S1x512x2048_S1x512x2048_0_0_0).PackedRows (EltTy.packing .bf16)
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  transposes_S512x128_p1_0_S128x512 : S512x128.Transposes [1, 0] S128x512
  iota_S512x512_d0_w32 : S512x512.Iotas .tc 32 [0]
  iota_S512x512_d1_w32 : S512x512.Iotas .tc 32 [1]
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  dot_S512x1024_S1024x2048_S512x2048_1_0_0_1_n_n_wf : DotDims.WF S512x1024 S1024x2048 S512x2048 [1] [0] [0] [1] [] []
  dot_S512x1024_S1024x128_S512x128_1_0_0_1_n_n_wf : DotDims.WF S512x1024 S1024x128 S512x128 [1] [0] [0] [1] [] []
  dot_S512x128_S128x512_S512x512_1_0_0_1_n_n_wf : DotDims.WF S512x128 S128x512 S512x512 [1] [0] [0] [1] [] []
  dot_S512x512_S512x2048_S512x2048_1_0_0_1_n_n_wf : DotDims.WF S512x512 S512x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x4096x1024.size a
  hwx0_0 : ∀ i : grid0.Coords, EltTy.bits .f32 = 32 ∨ (Rect.block (s := S2x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .bf16 = 32 ∨ (Rect.block (s := S1024x128) S1024x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512x2048.size a ≤ S2x4096x2048.size a
  hwx0_11 : ∀ i : grid0.Coords, EltTy.bits .bf16 = 32 ∨ (Rect.block (s := S2x4096x2048) S1x512x2048.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x512x2048.size a ≤ S2x4096x2048.size a
  hwx0_12 : ∀ i : grid0.Coords, EltTy.bits .bf16 = 32 ∨ (Rect.block (s := S2x4096x2048) S1x512x2048.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x512x128.size a ≤ S2x4096x128.size a
  hwx0_13 : ∀ i : grid0.Coords, EltTy.bits .bf16 = 32 ∨ (Rect.block (s := S2x4096x128) S1x512x128.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x512x128.size a ≤ S2x4096x128.size a
  hwx0_14 : ∀ i : grid0.Coords, EltTy.bits .bf16 = 32 ∨ (Rect.block (s := S2x4096x128) S1x512x128.size (cc0_transform_14 i) (hinb0_14 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S2x4096x128.size a
  hwx1_0 : ∀ i : grid1.Coords, EltTy.bits .bf16 = 32 ∨ (Rect.block (s := S2x4096x128) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x128.size a ≤ S2x4096x128.size a
  hwx1_1 : ∀ i : grid1.Coords, EltTy.bits .bf16 = 32 ∨ (Rect.block (s := S2x4096x128) S1x512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x2048.size a ≤ S2x4096x2048.size a
  hwx1_2 : ∀ i : grid1.Coords, EltTy.bits .bf16 = 32 ∨ (Rect.block (s := S2x4096x2048) S1x512x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x2048.size a ≤ S2x4096x2048.size a
  hwx1_3 : ∀ i : grid1.Coords, EltTy.bits .bf16 = 32 ∨ (Rect.block (s := S2x4096x2048) S1x512x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x1024.size a ≤ S2048x1024.size a
  hwx1_4 : ∀ i : grid1.Coords, EltTy.bits .bf16 = 32 ∨ (Rect.block (s := S2048x1024) S2048x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x1024.size a ≤ S2x4096x1024.size a
  hwx1_6 : ∀ i : grid1.Coords, EltTy.bits .f32 = 32 ∨ (Rect.block (s := S2x4096x1024) S1x512x1024.size (cc1_transform_6 i) (hinb1_6 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12_0) S1x512x2048.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v12_1) S1x512x2048.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v12_2) S1x512x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v12_3) S1x512x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v12_2) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_3) S1x512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12_0) S1x512x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12_1) S1x512x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S2048x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S1x512x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond3 i == 1#1) | ⟨_ + 7, h⟩ => absurd h (Nat.not_lt.2 (Nat.le_add_left _ _))

class Facts : Prop extends Facts₀ where

variable [Facts]
-- ==== ReferenceIdeal.lean ====
abbrev S2x4096x1024 : Shape := ⟨3, ![2, 4096, 1024]⟩
abbrev S1024x2048 : Shape := ⟨2, ![1024, 2048]⟩
abbrev S2048 : Shape := ⟨1, ![2048]⟩
abbrev S1024x128 : Shape := ⟨2, ![1024, 128]⟩
abbrev S128 : Shape := ⟨1, ![128]⟩
abbrev S2048x1024 : Shape := ⟨2, ![2048, 1024]⟩
abbrev S1024 : Shape := ⟨1, ![1024]⟩
abbrev S2x4096x2048 : Shape := ⟨3, ![2, 4096, 2048]⟩
abbrev S1x1x2048 : Shape := ⟨3, ![1, 1, 2048]⟩
abbrev S_ : Shape := ⟨0, ![]⟩
abbrev S2x4096x128 : Shape := ⟨3, ![2, 4096, 128]⟩
abbrev S1x1x128 : Shape := ⟨3, ![1, 1, 128]⟩
abbrev S2x4096x4096 : Shape := ⟨3, ![2, 4096, 4096]⟩
abbrev S4096x4096 : Shape := ⟨2, ![4096, 4096]⟩
abbrev S1x1x1024 : Shape := ⟨3, ![1, 1, 1024]⟩

abbrev nBuf : Space → Nat
  | .hbm => 93
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024x2048, .f32⟩
  | .hbm, ⟨2, _⟩ => ⟨S2048, .f32⟩
  | .hbm, ⟨3, _⟩ => ⟨S1024x2048, .f32⟩
  | .hbm, ⟨4, _⟩ => ⟨S2048, .f32⟩
  | .hbm, ⟨5, _⟩ => ⟨S1024x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S2048x1024, .f32⟩
  | .hbm, ⟨12, _⟩ => ⟨S1024, .f32⟩
  | .hbm, ⟨13, _⟩ => ⟨S2x4096x2048, .f32⟩
  | .hbm, ⟨14, _⟩ => ⟨S1x1x2048, .f32⟩
  | .hbm, ⟨15, _⟩ => ⟨S2x4096x2048, .f32⟩
  | .hbm, ⟨16, _⟩ => ⟨S2x4096x2048, .f32⟩
  | .hbm, ⟨17, _⟩ => ⟨S2x4096x2048, .f32⟩
  | .hbm, ⟨18, _⟩ => ⟨S2x4096x2048, .f32⟩
  | .hbm, ⟨19, _⟩ => ⟨S_, .f32⟩
  | .hbm, ⟨20, _⟩ => ⟨S2x4096x2048, .f32⟩
  | .hbm, ⟨21, _⟩ => ⟨S2x4096x2048, .f32⟩
  | .hbm, ⟨22, _⟩ => ⟨S_, .f32⟩
  | .hbm, ⟨23, _⟩ => ⟨S2x4096x2048, .f32⟩
  | .hbm, ⟨24, _⟩ => ⟨S2x4096x2048, .f32⟩
  | .hbm, ⟨25, _⟩ => ⟨S2x4096x2048, .f32⟩
  | .hbm, ⟨26, _⟩ => ⟨S2x4096x2048, .f32⟩
  | .hbm, ⟨27, _⟩ => ⟨S1x1x2048, .f32⟩
  | .hbm, ⟨28, _⟩ => ⟨S2x4096x2048, .f32⟩
  | .hbm, ⟨29, _⟩ => ⟨S2x4096x2048, .f32⟩
  | .hbm, ⟨30, _⟩ => ⟨S2x4096x2048, .f32⟩
  | .hbm, ⟨31, _⟩ => ⟨S2x4096x2048, .f32⟩
  | .hbm, ⟨32, _⟩ => ⟨S_, .f32⟩
  | .hbm, ⟨33, _⟩ => ⟨S2x4096x2048, .f32⟩
  | .hbm, ⟨34, _⟩ => ⟨S2x4096x2048, .f32⟩
  | .hbm, ⟨35, _⟩ => ⟨S_, .f32⟩
  | .hbm, ⟨36, _⟩ => ⟨S2x4096x2048, .f32⟩
  | .hbm, ⟨37, _⟩ => ⟨S2x4096x2048, .f32⟩
  | .hbm, ⟨38, _⟩ => ⟨S2x4096x2048, .f32⟩
  | .hbm, ⟨39, _⟩ => ⟨S2x4096x128, .f32⟩
  | .hbm, ⟨40, _⟩ => ⟨S1x1x128, .f32⟩
  | .hbm, ⟨41, _⟩ => ⟨S2x4096x128, .f32⟩
  | .hbm, ⟨42, _⟩ => ⟨S2x4096x128, .f32⟩
  | .hbm, ⟨43, _⟩ => ⟨S2x4096x128, .f32⟩
  | .hbm, ⟨44, _⟩ => ⟨S2x4096x128, .f32⟩
  | .hbm, ⟨45, _⟩ => ⟨S_, .f32⟩
  | .hbm, ⟨46, _⟩ => ⟨S2x4096x128, .f32⟩
  | .hbm, ⟨47, _⟩ => ⟨S2x4096x128, .f32⟩
  | .hbm, ⟨48, _⟩ => ⟨S_, .f32⟩
  | .hbm, ⟨49, _⟩ => ⟨S2x4096x128, .f32⟩
  | .hbm, ⟨50, _⟩ => ⟨S2x4096x128, .f32⟩
  | .hbm, ⟨51, _⟩ => ⟨S2x4096x128, .f32⟩
  | .hbm, ⟨52, _⟩ => ⟨S1x1x128, .f32⟩
  | .hbm, ⟨53, _⟩ => ⟨S2x4096x128, .f32⟩
  | .hbm, ⟨54, _⟩ => ⟨S2x4096x128, .f32⟩
  | .hbm, ⟨55, _⟩ => ⟨S1x1x128, .f32⟩
  | .hbm, ⟨56, _⟩ => ⟨S2x4096x128, .f32⟩
  | .hbm, ⟨57, _⟩ => ⟨S2x4096x128, .f32⟩
  | .hbm, ⟨58, _⟩ => ⟨S1x1x128, .f32⟩
  | .hbm, ⟨59, _⟩ => ⟨S2x4096x128, .f32⟩
  | .hbm, ⟨60, _⟩ => ⟨S2x4096x128, .f32⟩
  | .hbm, ⟨61, _⟩ => ⟨S1x1x128, .f32⟩
  | .hbm, ⟨62, _⟩ => ⟨S2x4096x128, .f32⟩
  | .hbm, ⟨63, _⟩ => ⟨S2x4096x128, .f32⟩
  | .hbm, ⟨64, _⟩ => ⟨S2x4096x4096, .f32⟩
  | .hbm, ⟨65, _⟩ => ⟨S_, .f32⟩
  | .hbm, ⟨66, _⟩ => ⟨S2x4096x4096, .f32⟩
  | .hbm, ⟨67, _⟩ => ⟨S2x4096x4096, .f32⟩
  | .hbm, ⟨68, _⟩ => ⟨S_, .i1⟩
  | .hbm, ⟨69, _⟩ => ⟨S4096x4096, .i1⟩
  | .hbm, ⟨70, _⟩ => ⟨S4096x4096, .i32⟩
  | .hbm, ⟨71, _⟩ => ⟨S_, .i32⟩
  | .hbm, ⟨72, _⟩ => ⟨S4096x4096, .i32⟩
  | .hbm, ⟨73, _⟩ => ⟨S4096x4096, .i32⟩
  | .hbm, ⟨74, _⟩ => ⟨S4096x4096, .i32⟩
  | .hbm, ⟨75, _⟩ => ⟨S4096x4096, .i1⟩
  | .hbm, ⟨76, _⟩ => ⟨S_, .i1⟩
  | .hbm, ⟨77, _⟩ => ⟨S4096x4096, .i1⟩
  | .hbm, ⟨78, _⟩ => ⟨S4096x4096, .i1⟩
  | .hbm, ⟨79, _⟩ => ⟨S_, .f32⟩
  | .hbm, ⟨80, _⟩ => ⟨S2x4096x4096, .i1⟩
  | .hbm, ⟨81, _⟩ => ⟨S2x4096x4096, .f32⟩
  | .hbm, ⟨82, _⟩ => ⟨S2x4096x4096, .f32⟩
  | .hbm, ⟨83, _⟩ => ⟨S_, .f32⟩
  | .hbm, ⟨84, _⟩ => ⟨S2x4096x4096, .f32⟩
  | .hbm, ⟨85, _⟩ => ⟨S2x4096x4096, .f32⟩
  | .hbm, ⟨86, _⟩ => ⟨S2x4096x4096, .f32⟩
  | .hbm, ⟨87, _⟩ => ⟨S2x4096x2048, .f32⟩
  | .hbm, ⟨88, _⟩ => ⟨S2x4096x2048, .f32⟩
  | .hbm, ⟨89, _⟩ => ⟨S2x4096x1024, .f32⟩
  | .hbm, ⟨90, _⟩ => ⟨S1x1x1024, .f32⟩
  | .hbm, ⟨91, _⟩ => ⟨S2x4096x1024, .f32⟩
  | .hbm, ⟨92, _⟩ => ⟨S2x4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_call2_v0 : Ref sig .tc := ⟨.hbm, 43, rfl⟩
abbrev main_call2_v1 : Ref sig .tc := ⟨.hbm, 44, rfl⟩
abbrev main_call2_cst : Ref sig .tc := ⟨.hbm, 45, rfl⟩
abbrev main_call2_v2 : Ref sig .tc := ⟨.hbm, 46, rfl⟩
abbrev main_call2_v3 : Ref sig .tc := ⟨.hbm, 47, rfl⟩
abbrev main_call2_cst_0 : Ref sig .tc := ⟨.hbm, 48, rfl⟩
abbrev main_call2_v4 : Ref sig .tc := ⟨.hbm, 49, rfl⟩
abbrev main_call2_v5 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst : Ref sig .tc := ⟨.hbm, 65, rfl⟩
abbrev main_v28 : Ref sig .tc := ⟨.hbm, 66, rfl⟩
abbrev main_v29 : Ref sig .tc := ⟨.hbm, 67, rfl⟩
abbrev main_c : Ref sig .tc := ⟨.hbm, 68, rfl⟩
abbrev main_v30 : Ref sig .tc := ⟨.hbm, 69, rfl⟩
abbrev main_call3_v0 : Ref sig .tc := ⟨.hbm, 70, rfl⟩
abbrev main_call3_c : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_c_0 : Ref sig .tc := ⟨.hbm, 76, rfl⟩
abbrev main_call3_v5 : Ref sig .tc := ⟨.hbm, 77, rfl⟩
abbrev main_v31 : Ref sig .tc := ⟨.hbm, 78, rfl⟩
abbrev main_cst_0 : Ref sig .tc := ⟨.hbm, 79, rfl⟩
abbrev main_call4_v0 : Ref sig .tc := ⟨.hbm, 80, rfl⟩
abbrev main_call4_v1 : Ref sig .tc := ⟨.hbm, 81, rfl⟩
abbrev main_v32 : Ref sig .tc := ⟨.hbm, 82, rfl⟩
abbrev main_call5_cst : Ref sig .tc := ⟨.hbm, 83, rfl⟩
abbrev main_call5_v0 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S2x4096x2048_0_1_2 : S1x1x2048.BroadcastsInDim S2x4096x2048 (![0, 1, 2] : Fin 3 → Fin S2x4096x2048.rank)
  bcast_S_S2x4096x2048 : S_.BroadcastsInDim S2x4096x2048 (![] : Fin 0 → Fin S2x4096x2048.rank)
  bcast_S128_S1x1x128_2 : S128.BroadcastsInDim S1x1x128 (![2] : Fin 1 → Fin S1x1x128.rank)
  bcast_S1x1x128_S2x4096x128_0_1_2 : S1x1x128.BroadcastsInDim S2x4096x128 (![0, 1, 2] : Fin 3 → Fin S2x4096x128.rank)
  bcast_S_S2x4096x128 : S_.BroadcastsInDim S2x4096x128 (![] : Fin 0 → Fin S2x4096x128.rank)
  bcast_S_S2x4096x4096 : S_.BroadcastsInDim S2x4096x4096 (![] : Fin 0 → Fin S2x4096x4096.rank)
  bcast_S_S4096x4096 : S_.BroadcastsInDim S4096x4096 (![] : Fin 0 → Fin S4096x4096.rank)
  bcast_S4096x4096_S2x4096x4096_1_2 : S4096x4096.BroadcastsInDim S2x4096x4096 (![1, 2] : Fin 2 → Fin S2x4096x4096.rank)
  bcast_S1024_S1x1x1024_2 : S1024.BroadcastsInDim S1x1x1024 (![2] : Fin 1 → Fin S1x1x1024.rank)
  bcast_S1x1x1024_S2x4096x1024_0_1_2 : S1x1x1024.BroadcastsInDim S2x4096x1024 (![0, 1, 2] : Fin 3 → Fin S2x4096x1024.rank)
  dot_S2x4096x1024_S1024x2048_S2x4096x2048_2_0_01_1_n_n_wf : DotDims.WF S2x4096x1024 S1024x2048 S2x4096x2048 [2] [0] [0, 1] [1] [] []
  dot_S2x4096x1024_S1024x128_S2x4096x128_2_0_01_1_n_n_wf : DotDims.WF S2x4096x1024 S1024x128 S2x4096x128 [2] [0] [0, 1] [1] [] []
  dot_S2x4096x128_S2x4096x128_S2x4096x4096_2_2_1_1_0_0_wf : DotDims.WF S2x4096x128 S2x4096x128 S2x4096x4096 [2] [2] [1] [1] [0] [0]
  dot_S2x4096x4096_S2x4096x2048_S2x4096x2048_2_1_1_2_0_0_wf : DotDims.WF S2x4096x4096 S2x4096x2048 S2x4096x2048 [2] [1] [1] [2] [0] [0]
  dot_S2x4096x2048_S2048x1024_S2x4096x1024_2_0_01_1_n_n_wf : DotDims.WF S2x4096x2048 S2048x1024 S2x4096x1024 [2] [0] [0, 1] [1] [] []

variable [Facts₀]

def dot_S2x4096x1024_S1024x2048_S2x4096x2048_2_0_01_1_n_n : DotDims S2x4096x1024 S1024x2048 S2x4096x2048 where
  lhsContracting := [2]
  rhsContracting := [0]
  lhsNonContracting := [0, 1]
  rhsNonContracting := [1]
  lhsBatch := []
  rhsBatch := []
  wf := dot_S2x4096x1024_S1024x2048_S2x4096x2048_2_0_01_1_n_n_wf
def dot_S2x4096x1024_S1024x128_S2x4096x128_2_0_01_1_n_n : DotDims S2x4096x1024 S1024x128 S2x4096x128 where
  lhsContracting := [2]
  rhsContracting := [0]
  lhsNonContracting := [0, 1]
  rhsNonContracting := [1]
  lhsBatch := []
  rhsBatch := []
  wf := dot_S2x4096x1024_S1024x128_S2x4096x128_2_0_01_1_n_n_wf
def dot_S2x4096x128_S2x4096x128_S2x4096x4096_2_2_1_1_0_0 : DotDims S2x4096x128 S2x4096x128 S2x4096x4096 where
  lhsContracting := [2]
  rhsContracting := [2]
  lhsNonContracting := [1]
  rhsNonContracting := [1]
  lhsBatch := [0]
  rhsBatch := [0]
  wf := dot_S2x4096x128_S2x4096x128_S2x4096x4096_2_2_1_1_0_0_wf
def dot_S2x4096x4096_S2x4096x2048_S2x4096x2048_2_1_1_2_0_0 : DotDims S2x4096x4096 S2x4096x2048 S2x4096x2048 where
  lhsContracting := [2]
  rhsContracting := [1]
  lhsNonContracting := [1]
  rhsNonContracting := [2]
  lhsBatch := [0]
  rhsBatch := [0]
  wf := dot_S2x4096x4096_S2x4096x2048_S2x4096x2048_2_1_1_2_0_0_wf
def dot_S2x4096x2048_S2048x1024_S2x4096x1024_2_0_01_1_n_n : DotDims S2x4096x2048 S2048x1024 S2x4096x1024 where
  lhsContracting := [2]
  rhsContracting := [0]
  lhsNonContracting := [0, 1]
  rhsNonContracting := [1]
  lhsBatch := []
  rhsBatch := []
  wf := dot_S2x4096x2048_S2048x1024_S2x4096x1024_2_0_01_1_n_n_wf

class Facts : Prop extends Facts₀ where

variable [Facts]
-- ==== Proof.K.R0.lean ====
/-
  The first kernel region (the projections) of the program, at the buffer contents `V` the region is entered from:
  each window's block at a grid point, what the body leaves in the four output windows' staging buffers as pure
  functions of the input blocks (v, gate, q, k: one whole-block store each), the body's triple, the pipeline's
  proof data and the body obligation at every point.
-/
import proofs.«110127_j80247168959185_1_alg».proof.Proof.Gen.Kernel.Launch
import proofs.«110127_j80247168959185_1_alg».proof.Proof.Gen.Kernel.Skeleton
import proofs.«110127_j80247168959185_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The v block: silu of the rows' product with Wv plus bv, of the x block, the Wv array and the bv row. -/
def out0_11 (x0 : Vec F S1x512x1024 .f32) (x1 : Vec F S1024x2048 .bf16) (x2 : Vec F S1x2048 .f32) : Vec F S1x512x2048 .bf16 :=
  k0_pay1 (k0_pay6 x0 x1 x2)
/-- The gate block, likewise of Wg and bg. -/
def out0_12 (x0 : Vec F S1x512x1024 .f32) (x3 : Vec F S1024x2048 .bf16) (x4 : Vec F S1x2048 .f32) : Vec F S1x512x2048 .bf16 :=
  k0_pay2 (k0_pay7 x0 x3 x4)
/-- The q block: silu(x·Wi + bi)·gamma_q + beta_q. -/
def out0_13 (x0 : Vec F S1x512x1024 .f32) (x5 : Vec F S1024x128 .bf16) (x6 x7 x8 : Vec F S1x128 .f32) : Vec F S1x512x128 .bf16 :=
  k0_pay3 (k0_pay9 x0 x5 x6 x7) (k0_pay10 x8)
/-- The k block: silu(x·Wi + bi)·gamma_k + beta_k. -/
def out0_14 (x0 : Vec F S1x512x1024 .f32) (x5 : Vec F S1024x128 .bf16) (x6 x9 x10 : Vec F S1x128 .f32) : Vec F S1x512x128 .bf16 :=
  k0_pay4 (k0_pay8 x0 x5 x6) x9 x10

/-- The proof data of the first pipeline on core `c`: the arrays as the region finds them; after the body each input's
    buffer at its block and each output's at its function of the input blocks; the scoped rest and the generator
    register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t)
    | ⟨12, _⟩ => out0_12 (iblk0 V c 0 t) (iblk0 V c 3 t) (iblk0 V c 4 t)
    | ⟨13, _⟩ => out0_13 (iblk0 V c 0 t) (iblk0 V c 5 t) (iblk0 V c 6 t) (iblk0 V c 7 t) (iblk0 V c 8 t)
    | ⟨14, _⟩ => out0_14 (iblk0 V c 0 t) (iblk0 V c 5 t) (iblk0 V c 6 t) (iblk0 V c 9 t) (iblk0 V c 10 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_11 (c : Dev nD) (t : Fin cfg0.N) : (dat0 V c).after 11 t = out0_11 (iblk0 V c 0 t) (iblk0 V c 1 t) (iblk0 V c 2 t) := by dsimp only [dat0]
theorem after0_12 (c : Dev nD) (t : Fin cfg0.N) : (dat0 V c).after 12 t = out0_12 (iblk0 V c 0 t) (iblk0 V c 3 t) (iblk0 V c 4 t) := by dsimp only [dat0]
theorem after0_13 (c : Dev nD) (t : Fin cfg0.N) : (dat0 V c).after 13 t = out0_13 (iblk0 V c 0 t) (iblk0 V c 5 t) (iblk0 V c 6 t) (iblk0 V c 7 t) (iblk0 V c 8 t) := by dsimp only [dat0]
theorem after0_14 (c : Dev nD) (t : Fin cfg0.N) : (dat0 V c).after 14 t = out0_14 (iblk0 V c 0 t) (iblk0 V c 5 t) (iblk0 V c 6 t) (iblk0 V c 9 t) (iblk0 V c 10 t) := by dsimp only [dat0]

/-! ## What the body finds in each input window's buffer -/

/-- Each input window's current staging buffer holds its block at every point, fetched there or not: where the
    pipeline does not fetch, the block index has not moved, and the body leaves every input's block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [show (dat0 V c).after 0 t = iblk0 V c 0 t by dsimp only [dat0]]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [show (dat0 V c).after 1 t = iblk0 V c 1 t by dsimp only [dat0]]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [show (dat0 V c).after 2 t = iblk0 V c 2 t by dsimp only [dat0]]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [show (dat0 V c).after 3 t = iblk0 V c 3 t by dsimp only [dat0]]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [show (dat0 V c).after 4 t = iblk0 V c 4 t by dsimp only [dat0]]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [show (dat0 V c).after 5 t = iblk0 V c 5 t by dsimp only [dat0]]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [show (dat0 V c).after 6 t = iblk0 V c 6 t by dsimp only [dat0]]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [show (dat0 V c).after 7 t = iblk0 V c 7 t by dsimp only [dat0]]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [show (dat0 V c).after 8 t = iblk0 V c 8 t by dsimp only [dat0]]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl)
    (fun t => by rw [show (dat0 V c).after 9 t = iblk0 V c 9 t by dsimp only [dat0]]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl)
    (fun t => by rw [show (dat0 V c).after 10 t = iblk0 V c 10 t by dsimp only [dat0]]; unfold Dat.blockOf iblk0; rw [A_eq0]; try rfl) t d).trans
    (by unfold Dat.fetched Dat.blockOf iblk0; rw [A_eq0]; try rfl)

/-! ## The body's triple -/

/-- The zero offsets of the whole-buffer rectangles, of rank two and three. -/
theorem off2 : (![0, 0] : Fin 2 → ℕ) = fun _ => 0 := funext fun a => by fin_cases a <;> rfl
theorem off3 : (![0, 0, 0] : Fin 3 → ℕ) = fun _ => 0 := funext fun a => by fin_cases a <;> rfl

/-- What a whole buffer reads after one store through the whole-shape rectangle at zero offsets: the payload. -/
theorem read_store_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h]

/-- A load through that rectangle reads the buffer's contents. -/
theorem readAt_whole {κ : Kind} {sp : Space} {S : Shape} {e : EltTy} (v : View sig κ sp S e) (f : v.ty.Contents (Elt F))
    {off : Fin S.rank → ℕ} (h : off = fun _ => 0) (inb : ∀ a, off a + S.size a ≤ S.size a) :
    View.readAt (Elt F) v (Rect.unit off S.size inb).toLoadRect f = v.read (Elt F) f := by
  rw [View.readAt_eq_ld, View.ld_unit_zero h]

set_option maxHeartbeats 1000000 in
/-- The kernel body on whole staging memrefs, the inputs' at read contents `xW` and the outputs' at anything, runs to
    the continuation holding the inputs' as they were and each output's at its function of the inputs' contents:
    every load reads a whole buffer, every output buffer is covered by its one store, so it reads as the payload. -/
theorem sound_kernel0 (c : Dev nD) (E : Set ℕ) (i : grid0.Coords) (arg2 : Memref sig .tc .vmem S1x512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x512x2048 .bf16) (harg13 : arg13.IsWhole) (arg14 : Memref sig .tc .vmem S1x512x2048 .bf16) (harg14 : arg14.IsWhole) (arg15 : Memref sig .tc .vmem S1x512x128 .bf16) (harg15 : arg15.IsWhole) (arg16 : Memref sig .tc .vmem S1x512x128 .bf16) (harg16 : arg16.IsWhole)
    (x0 : Vec F S1x512x1024 .f32) (x1 : Vec F S1024x2048 .bf16) (x2 : Vec F S1x2048 .f32) (x3 : Vec F S1024x2048 .bf16) (x4 : Vec F S1x2048 .f32) (x5 : Vec F S1024x128 .bf16) (x6 : Vec F S1x128 .f32) (x7 : Vec F S1x128 .f32) (x8 : Vec F S1x128 .f32) (x9 : Vec F S1x128 .f32) (x10 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
        ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
            ∗ owns (c : Thread nD τ) arg13 fullShare (out0_11 x0 x1 x2) ∗ owns (c : Thread nD τ) arg14 fullShare (out0_12 x0 x3 x4) ∗ owns (c : Thread nD τ) arg15 fullShare (out0_13 x0 x5 x6 x7 x8) ∗ owns (c : Thread nD τ) arg16 fullShare (out0_14 x0 x5 x6 x9 x10)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__proj_kernel_eq_skeleton]; unfold cc0__proj_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    rw [read_store_whole _ _ off3]
    sl_unfold_run_names
    simp only [readAt_whole (S := S1x512x1024) _ _ off3, readAt_whole (S := S1024x2048) _ _ off2, readAt_whole (S := S1x2048) _ _ off2,
      readAt_whole (S := S1024x128) _ _ off2, readAt_whole (S := S1x128) _ _ off2]
    rfl
  isplitl [H12]
  · iexists _; isplitr
    swap; · iexact H12
    ipureintro
    rw [read_store_whole _ _ off3]
    sl_unfold_run_names
    simp only [readAt_whole (S := S1x512x1024) _ _ off3, readAt_whole (S := S1024x2048) _ _ off2, readAt_whole (S := S1x2048) _ _ off2,
      readAt_whole (S := S1024x128) _ _ off2, readAt_whole (S := S1x128) _ _ off2]
    rfl
  isplitl [H13]
  · iexists _; isplitr
    swap; · iexact H13
    ipureintro
    rw [read_store_whole _ _ off3]
    sl_unfold_run_names
    simp only [readAt_whole (S := S1x512x1024) _ _ off3, readAt_whole (S := S1024x2048) _ _ off2, readAt_whole (S := S1x2048) _ _ off2,
      readAt_whole (S := S1024x128) _ _ off2, readAt_whole (S := S1x128) _ _ off2]
    rfl
  iexists _; isplitr
  swap; · iexact H14
  ipureintro
  rw [read_store_whole _ _ off3]
  sl_unfold_run_names
  simp only [readAt_whole (S := S1x512x1024) _ _ off3, readAt_whole (S := S1024x2048) _ _ off2, readAt_whole (S := S1x2048) _ _ off2,
      readAt_whole (S := S1024x128) _ _ off2, readAt_whole (S := S1x128) _ _ off2]
  rfl

/-! ## The body obligation, at a generic point -/

/-- What the body is called with at point `t`: the invariant, what the core owes, and each window's current buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t))

/-- The body at any point: the inputs' buffers hold their blocks, so the body's triple applies at the blocks; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    show (dat0 V c).after 0 t = iblk0 V c 0 t by dsimp only [dat0],
    show (dat0 V c).after 1 t = iblk0 V c 1 t by dsimp only [dat0],
    show (dat0 V c).after 2 t = iblk0 V c 2 t by dsimp only [dat0],
    show (dat0 V c).after 3 t = iblk0 V c 3 t by dsimp only [dat0],
    show (dat0 V c).after 4 t = iblk0 V c 4 t by dsimp only [dat0],
    show (dat0 V c).after 5 t = iblk0 V c 5 t by dsimp only [dat0],
    show (dat0 V c).after 6 t = iblk0 V c 6 t by dsimp only [dat0],
    show (dat0 V c).after 7 t = iblk0 V c 7 t by dsimp only [dat0],
    show (dat0 V c).after 8 t = iblk0 V c 8 t by dsimp only [dat0],
    show (dat0 V c).after 9 t = iblk0 V c 9 t by dsimp only [dat0],
    show (dat0 V c).after 10 t = iblk0 V c 10 t by dsimp only [dat0],
    after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel0 c Set.univ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation for the first region, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.R1.lean ====
/-
  The second kernel region (causal squared-relu attention, the gate and the output projection), at the buffer contents
  `V` it is entered from. The grid is (batch, query block, key block). The body zeroes a scratch accumulator at key block 0,
  adds the block's contribution when the key block is not above the query block, and at the last key block stores
  (accumulator · gate) · Wo + bo into the output window. Stated here: the windows' blocks, the accumulator after every
  point (by recursion on the point), the output block, the proof data whose invariant tracks the scratch, and the body
  obligation at every point.
-/
import proofs.«110127_j80247168959185_1_alg».proof.Proof.Gen.Kernel.Launch
import proofs.«110127_j80247168959185_1_alg».proof.Proof.Gen.Kernel.Skeleton
import proofs.«110127_j80247168959185_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the accumulator: reset to zero at key block 0, then the block's contribution added when
    the key block is not above the query block. -/
def accStep (i : grid1.Coords) (xq xk : Vec F S1x512x128 .bf16) (xv : Vec F S1x512x2048 .bf16) (prev : Vec F S512x2048 .f32) :
    Vec F S512x2048 .f32 :=
  if (i 2).val ≤ (i 1).val then k1_pay2 i xq xk (if (i 2).val = 0 then k1_pay1 else prev) xv
  else (if (i 2).val = 0 then k1_pay1 else prev)

/-- The scratch accumulator after the body at position `n` of the grid, by recursion on the position. -/
def accAt1 (c : Dev nD) : (n : ℕ) → n < cfg1.N → Vec F S512x2048 .f32
  | 0, hn => accStep (grid1.coords ⟨0, hn⟩) (iblk1 V c 0 ⟨0, hn⟩) (iblk1 V c 1 ⟨0, hn⟩) (iblk1 V c 2 ⟨0, hn⟩) k1_pay1
  | n + 1, hn => accStep (grid1.coords ⟨n + 1, hn⟩) (iblk1 V c 0 ⟨n + 1, hn⟩) (iblk1 V c 1 ⟨n + 1, hn⟩) (iblk1 V c 2 ⟨n + 1, hn⟩)
      (accAt1 c n (Nat.lt_of_succ_lt hn))

theorem accAt1_zero (c : Dev nD) (hn : 0 < cfg1.N) :
    accAt1 V c 0 hn = accStep (grid1.coords ⟨0, hn⟩) (iblk1 V c 0 ⟨0, hn⟩) (iblk1 V c 1 ⟨0, hn⟩) (iblk1 V c 2 ⟨0, hn⟩) k1_pay1 := rfl
theorem accAt1_succ (c : Dev nD) (n : ℕ) (hn : n + 1 < cfg1.N) :
    accAt1 V c (n + 1) hn = accStep (grid1.coords ⟨n + 1, hn⟩) (iblk1 V c 0 ⟨n + 1, hn⟩) (iblk1 V c 1 ⟨n + 1, hn⟩) (iblk1 V c 2 ⟨n + 1, hn⟩)
      (accAt1 V c n (Nat.lt_of_succ_lt hn)) := rfl

/-- The output block stored at the last key block: (accumulator · gate) · Wo + bo. -/
def out1_6 (acc : Vec F S512x2048 .f32) (xg : Vec F S1x512x2048 .bf16) (xwo : Vec F S2048x1024 .bf16) (xbo : Vec F S1x1024 .f32) :
    Vec F S1x512x1024 .f32 :=
  k1_pay3 acc xg xwo xbo

/-- The region invariant before position `n`: before the first point the scoped rest at anything and the generator
    register; afterwards the same with the scratch accumulator at what the point before left in it. -/
def Phi1 (c : Dev nD) : (n : ℕ) → n ≤ cfg1.N → sProp 𝕄
  | 0, _ => Pipeline.ΦA spec1 c
  | n + 1, hn => iprop(owns (c : Thread nD τ) (Memref.whole cc1_scratch0) fullShare (accAt1 V c n hn)
      ∗ Pipeline.scopedRestBut (Ix := Unit) (Name := ℕ) (U := UR sig nD τ) (Lvl := ℕ) (Val := Elt F) spec1 c [cc1_scratch0]
      ∗ (∃ r, prngReg c r))

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (accAt1 V c t.val t.isLt) (iblk1 V c 3 t) (iblk1 V c 4 t) (iblk1 V c 5 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) :
    (dat1 V c).after 6 t = out1_6 (accAt1 V c t.val t.isLt) (iblk1 V c 3 t) (iblk1 V c 4 t) (iblk1 V c 5 t) := by dsimp only [dat1]

/-- The first conditional's test (key block 0), as the body computes it from the coordinates. -/
abbrev cond1_1 (i : grid1.Coords) : Prop :=
  (Scalar.cmpi .ne (Scalar.extui (Scalar.cmpi .eq (BitVec.ofNat 32 (i 2).val) 0#32)) 0#32) = 1#1
/-- The second conditional's test (key block not above the query block). -/
abbrev cond1_2 (i : grid1.Coords) : Prop :=
  (Scalar.cmpi .ne (Scalar.extui (Scalar.cmpi .sle (BitVec.ofNat 32 (i 2).val) (BitVec.ofNat 32 (i 1).val))) 0#32) = 1#1
/-- The third conditional's test (last key block). -/
abbrev cond1_3 (i : grid1.Coords) : Prop := k1_cond3 i = 1#1

/-- The three tests in closed form over the coordinates, each of which ranges over 0..7: decided over their values. -/
theorem cond1_1_iff (i : grid1.Coords) : cond1_1 i ↔ (i 2).val = 0 :=
  (by decide : ∀ a : Fin 8, (Scalar.cmpi .ne (Scalar.extui (Scalar.cmpi .eq (BitVec.ofNat 32 a.val) 0#32)) 0#32) = 1#1 ↔ a.val = 0) (i 2)
theorem cond1_2_iff (i : grid1.Coords) : cond1_2 i ↔ (i 2).val ≤ (i 1).val :=
  (by decide : ∀ a b : Fin 8, (Scalar.cmpi .ne (Scalar.extui (Scalar.cmpi .sle (BitVec.ofNat 32 a.val) (BitVec.ofNat 32 b.val))) 0#32) = 1#1 ↔ a.val ≤ b.val) (i 2) (i 1)
theorem cond1_3_iff (i : grid1.Coords) : cond1_3 i ↔ (i 2).val = 7 :=
  (by decide : ∀ a : Fin 8, (Scalar.cmpi .ne (Scalar.extui (Scalar.cmpi .eq (BitVec.ofNat 32 a.val) 7#32)) 0#32) = 1#1 ↔ a.val = 7) (i 2)

/-- The zero offsets of a load or store of a whole buffer, of rank 2 and of rank 3. -/
theorem org1_2 : (![0, 0] : Fin 2 → Nat) = fun _ => 0 := funext fun a => by fin_cases a <;> rfl
theorem org1_3 : (![0, 0, 0] : Fin 3 → Nat) = fun _ => 0 := funext fun a => by fin_cases a <;> rfl

/-! ## The body's run, case by case of its three conditionals

Each case is the whole body run on whole buffers: the six inputs' buffers at their contents and handed back as they
were, the output's buffer at anything, the accumulator at `acc`. Key block 0 resets the accumulator before adding;
a key block above the query block adds nothing; the last key block also stores the output. -/

set_option maxHeartbeats 1000000 in
/-- Key block 0 (so not above the query block, and not the last): the accumulator ends at the block's
    contribution added to zero; the output's buffer is not touched. -/
theorem run1_first (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x2048 .bf16) (harg5 : arg5.IsWhole) (arg6 : Memref sig .tc .vmem S1x512x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x2048 .f32) (harg10 : arg10.IsWhole)
    (h1 : cond1_1 i) (h2 : cond1_2 i) (h3 : ¬cond1_3 i) (xq xk : Vec F S1x512x128 .bf16) (xv xg : Vec F S1x512x2048 .bf16) (xwo : Vec F S2048x1024 .bf16) (xbo : Vec F S1x1024 .f32) (xo : Vec F S1x512x1024 .f32) (acc : Vec F S512x2048 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xg ∗ owns (c : Thread nD τ) arg7 fullShare xwo ∗ owns (c : Thread nD τ) arg8 fullShare xbo
        ∗ owns (c : Thread nD τ) arg9 fullShare xo ∗ owns (c : Thread nD τ) arg10 fullShare acc
        ∗ (iprop(owns (c : Thread nD τ) arg3 fullShare xq ∗ owns (c : Thread nD τ) arg4 fullShare xk ∗ owns (c : Thread nD τ) arg5 fullShare xv
            ∗ owns (c : Thread nD τ) arg6 fullShare xg ∗ owns (c : Thread nD τ) arg7 fullShare xwo ∗ owns (c : Thread nD τ) arg8 fullShare xbo
            ∗ owns (c : Thread nD τ) arg9 fullShare (xo)
            ∗ owns (c : Thread nD τ) arg10 fullShare (k1_pay2 i xq xk k1_pay1 xv)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  · iexists _; isplitr
    swap; · iexact H10
    ipureintro
    sl_unfold_words
    rw [View.read_writes_eq_canon _ _ _ (fun y => ⟨_, List.Mem.head _, View.mem_set_unit_zero org1_2 inb_S512x2048_S512x2048_0_0 y⟩)]
    rw [View.canon_cons_unit_zero org1_2]
    simp only [View.readAt_eq_ld, Memref.IsWhole.read_unread, View.readCov_unit_zero (S := S512x2048) _ org1_2, View.ld_unit_zero (S := S1x512x128) org1_3, View.ld_unit_zero (S := S1x512x2048) org1_3, View.ld_unit_zero (S := S2048x1024) org1_2, View.ld_unit_zero (S := S1x1024) org1_2, View.ld_unit_zero (S := S512x2048) org1_2, View.ld_unit_zero (S := S1x512x1024) org1_3]

set_option maxHeartbeats 1000000 in
/-- A key block after the first, not above the query block, not the last: the contribution is added. -/
theorem run1_add (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x2048 .bf16) (harg5 : arg5.IsWhole) (arg6 : Memref sig .tc .vmem S1x512x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x2048 .f32) (harg10 : arg10.IsWhole)
    (h1 : ¬cond1_1 i) (h2 : cond1_2 i) (h3 : ¬cond1_3 i) (xq xk : Vec F S1x512x128 .bf16) (xv xg : Vec F S1x512x2048 .bf16) (xwo : Vec F S2048x1024 .bf16) (xbo : Vec F S1x1024 .f32) (xo : Vec F S1x512x1024 .f32) (acc : Vec F S512x2048 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xg ∗ owns (c : Thread nD τ) arg7 fullShare xwo ∗ owns (c : Thread nD τ) arg8 fullShare xbo
        ∗ owns (c : Thread nD τ) arg9 fullShare xo ∗ owns (c : Thread nD τ) arg10 fullShare acc
        ∗ (iprop(owns (c : Thread nD τ) arg3 fullShare xq ∗ owns (c : Thread nD τ) arg4 fullShare xk ∗ owns (c : Thread nD τ) arg5 fullShare xv
            ∗ owns (c : Thread nD τ) arg6 fullShare xg ∗ owns (c : Thread nD τ) arg7 fullShare xwo ∗ owns (c : Thread nD τ) arg8 fullShare xbo
            ∗ owns (c : Thread nD τ) arg9 fullShare (xo)
            ∗ owns (c : Thread nD τ) arg10 fullShare (k1_pay2 i xq xk acc xv)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  · iexists _; isplitr
    swap; · iexact H10
    ipureintro
    sl_unfold_words
    rw [View.read_writes_eq_canon _ _ _ (fun y => ⟨_, List.mem_singleton_self _, View.mem_set_unit_zero org1_2 inb_S512x2048_S512x2048_0_0 y⟩)]
    rw [View.canon_unit_zero org1_2]
    simp only [View.readAt_eq_ld, Memref.IsWhole.read_unread, View.readCov_unit_zero (S := S512x2048) _ org1_2, View.ld_unit_zero (S := S1x512x128) org1_3, View.ld_unit_zero (S := S1x512x2048) org1_3, View.ld_unit_zero (S := S2048x1024) org1_2, View.ld_unit_zero (S := S1x1024) org1_2, View.ld_unit_zero (S := S512x2048) org1_2, View.ld_unit_zero (S := S1x512x1024) org1_3]

set_option maxHeartbeats 1000000 in
/-- A key block above the query block, not the last: nothing is stored. -/
theorem run1_skip (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x2048 .bf16) (harg5 : arg5.IsWhole) (arg6 : Memref sig .tc .vmem S1x512x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x2048 .f32) (harg10 : arg10.IsWhole)
    (h1 : ¬cond1_1 i) (h2 : ¬cond1_2 i) (h3 : ¬cond1_3 i) (xq xk : Vec F S1x512x128 .bf16) (xv xg : Vec F S1x512x2048 .bf16) (xwo : Vec F S2048x1024 .bf16) (xbo : Vec F S1x1024 .f32) (xo : Vec F S1x512x1024 .f32) (acc : Vec F S512x2048 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xg ∗ owns (c : Thread nD τ) arg7 fullShare xwo ∗ owns (c : Thread nD τ) arg8 fullShare xbo
        ∗ owns (c : Thread nD τ) arg9 fullShare xo ∗ owns (c : Thread nD τ) arg10 fullShare acc
        ∗ (iprop(owns (c : Thread nD τ) arg3 fullShare xq ∗ owns (c : Thread nD τ) arg4 fullShare xk ∗ owns (c : Thread nD τ) arg5 fullShare xv
            ∗ owns (c : Thread nD τ) arg6 fullShare xg ∗ owns (c : Thread nD τ) arg7 fullShare xwo ∗ owns (c : Thread nD τ) arg8 fullShare xbo
            ∗ owns (c : Thread nD τ) arg9 fullShare (xo)
            ∗ owns (c : Thread nD τ) arg10 fullShare (acc)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  · iexists _; isplitr; · ipureintro; exact harg10.read_unread _
    iexact H10

set_option maxHeartbeats 1000000 in
/-- The last key block, not above the query block: the contribution is added and the output stored from the sum. -/
theorem run1_add_out (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x2048 .bf16) (harg5 : arg5.IsWhole) (arg6 : Memref sig .tc .vmem S1x512x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x2048 .f32) (harg10 : arg10.IsWhole)
    (h1 : ¬cond1_1 i) (h2 : cond1_2 i) (h3 : cond1_3 i) (xq xk : Vec F S1x512x128 .bf16) (xv xg : Vec F S1x512x2048 .bf16) (xwo : Vec F S2048x1024 .bf16) (xbo : Vec F S1x1024 .f32) (xo : Vec F S1x512x1024 .f32) (acc : Vec F S512x2048 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xg ∗ owns (c : Thread nD τ) arg7 fullShare xwo ∗ owns (c : Thread nD τ) arg8 fullShare xbo
        ∗ owns (c : Thread nD τ) arg9 fullShare xo ∗ owns (c : Thread nD τ) arg10 fullShare acc
        ∗ (iprop(owns (c : Thread nD τ) arg3 fullShare xq ∗ owns (c : Thread nD τ) arg4 fullShare xk ∗ owns (c : Thread nD τ) arg5 fullShare xv
            ∗ owns (c : Thread nD τ) arg6 fullShare xg ∗ owns (c : Thread nD τ) arg7 fullShare xwo ∗ owns (c : Thread nD τ) arg8 fullShare xbo
            ∗ owns (c : Thread nD τ) arg9 fullShare (k1_pay3 (k1_pay2 i xq xk acc xv) xg xwo xbo)
            ∗ owns (c : Thread nD τ) arg10 fullShare (k1_pay2 i xq xk acc xv)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    sl_unfold_words
    rw [View.read_writes_eq_canon _ _ _ (fun y => ⟨_, List.mem_singleton_self _, View.mem_set_unit_zero org1_3 inb_S1x512x1024_S1x512x1024_0_0_0 y⟩)]
    rw [View.canon_unit_zero org1_3]
    simp only [View.readAt_eq_ld, Memref.IsWhole.read_unread, View.readCov_unit_zero (S := S512x2048) _ org1_2, View.ld_unit_zero (S := S1x512x128) org1_3, View.ld_unit_zero (S := S1x512x2048) org1_3, View.ld_unit_zero (S := S2048x1024) org1_2, View.ld_unit_zero (S := S1x1024) org1_2, View.ld_unit_zero (S := S512x2048) org1_2, View.ld_unit_zero (S := S1x512x1024) org1_3]
  · iexists _; isplitr
    swap; · iexact H10
    ipureintro
    sl_unfold_words
    rw [View.read_writes_eq_canon _ _ _ (fun y => ⟨_, List.mem_singleton_self _, View.mem_set_unit_zero org1_2 inb_S512x2048_S512x2048_0_0 y⟩)]
    rw [View.canon_unit_zero org1_2]
    simp only [View.readAt_eq_ld, Memref.IsWhole.read_unread, View.readCov_unit_zero (S := S512x2048) _ org1_2, View.ld_unit_zero (S := S1x512x128) org1_3, View.ld_unit_zero (S := S1x512x2048) org1_3, View.ld_unit_zero (S := S2048x1024) org1_2, View.ld_unit_zero (S := S1x1024) org1_2, View.ld_unit_zero (S := S512x2048) org1_2, View.ld_unit_zero (S := S1x512x1024) org1_3]

set_option maxHeartbeats 1000000 in
/-- The last key block, above the query block: the output is stored from the accumulator as it was. -/
theorem run1_skip_out (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x2048 .bf16) (harg5 : arg5.IsWhole) (arg6 : Memref sig .tc .vmem S1x512x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x2048 .f32) (harg10 : arg10.IsWhole)
    (h1 : ¬cond1_1 i) (h2 : ¬cond1_2 i) (h3 : cond1_3 i) (xq xk : Vec F S1x512x128 .bf16) (xv xg : Vec F S1x512x2048 .bf16) (xwo : Vec F S2048x1024 .bf16) (xbo : Vec F S1x1024 .f32) (xo : Vec F S1x512x1024 .f32) (acc : Vec F S512x2048 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xg ∗ owns (c : Thread nD τ) arg7 fullShare xwo ∗ owns (c : Thread nD τ) arg8 fullShare xbo
        ∗ owns (c : Thread nD τ) arg9 fullShare xo ∗ owns (c : Thread nD τ) arg10 fullShare acc
        ∗ (iprop(owns (c : Thread nD τ) arg3 fullShare xq ∗ owns (c : Thread nD τ) arg4 fullShare xk ∗ owns (c : Thread nD τ) arg5 fullShare xv
            ∗ owns (c : Thread nD τ) arg6 fullShare xg ∗ owns (c : Thread nD τ) arg7 fullShare xwo ∗ owns (c : Thread nD τ) arg8 fullShare xbo
            ∗ owns (c : Thread nD τ) arg9 fullShare (k1_pay3 acc xg xwo xbo)
            ∗ owns (c : Thread nD τ) arg10 fullShare (acc)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    sl_unfold_words
    rw [View.read_writes_eq_canon _ _ _ (fun y => ⟨_, List.mem_singleton_self _, View.mem_set_unit_zero org1_3 inb_S1x512x1024_S1x512x1024_0_0_0 y⟩)]
    rw [View.canon_unit_zero org1_3]
    simp only [View.readAt_eq_ld, Memref.IsWhole.read_unread, View.readCov_unit_zero (S := S512x2048) _ org1_2, View.ld_unit_zero (S := S1x512x128) org1_3, View.ld_unit_zero (S := S1x512x2048) org1_3, View.ld_unit_zero (S := S2048x1024) org1_2, View.ld_unit_zero (S := S1x1024) org1_2, View.ld_unit_zero (S := S512x2048) org1_2, View.ld_unit_zero (S := S1x512x1024) org1_3]
  · iexists _; isplitr; · ipureintro; exact harg10.read_unread _
    iexact H10

/-! ## The accumulator's step, case by case -/

theorem accStep_first (i : grid1.Coords) (xq xk : Vec F S1x512x128 .bf16) (xv : Vec F S1x512x2048 .bf16) (prev : Vec F S512x2048 .f32)
    (h0 : (i 2).val = 0) : accStep i xq xk xv prev = k1_pay2 i xq xk k1_pay1 xv := by
  unfold accStep; rw [if_pos (by rw [h0]; exact Nat.zero_le _), if_pos h0]

theorem accStep_add (i : grid1.Coords) (xq xk : Vec F S1x512x128 .bf16) (xv : Vec F S1x512x2048 .bf16) (prev : Vec F S512x2048 .f32)
    (h0 : (i 2).val ≠ 0) (h : (i 2).val ≤ (i 1).val) : accStep i xq xk xv prev = k1_pay2 i xq xk prev xv := by
  unfold accStep; rw [if_pos h, if_neg h0]

theorem accStep_skip (i : grid1.Coords) (xq xk : Vec F S1x512x128 .bf16) (xv : Vec F S1x512x2048 .bf16) (prev : Vec F S512x2048 .f32)
    (h0 : (i 2).val ≠ 0) (h : ¬(i 2).val ≤ (i 1).val) : accStep i xq xk xv prev = prev := by
  unfold accStep; rw [if_neg h, if_neg h0]

/-- At key block 0 the step forgets what the accumulator held. -/
theorem accStep_of_first (i : grid1.Coords) (xq xk : Vec F S1x512x128 .bf16) (xv : Vec F S1x512x2048 .bf16) (p p' : Vec F S512x2048 .f32)
    (h0 : (i 2).val = 0) : accStep i xq xk xv p = accStep i xq xk xv p' := by
  rw [accStep_first i xq xk xv p h0, accStep_first i xq xk xv p' h0]

/-! ## The body's run at any point: before the last key block, and at it -/

/-- Not at the last key block: the accumulator moves by one step, the output's buffer is handed back as found. -/
theorem run1_inner (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x2048 .bf16) (harg5 : arg5.IsWhole) (arg6 : Memref sig .tc .vmem S1x512x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x2048 .f32) (harg10 : arg10.IsWhole)
    (h3 : ¬cond1_3 i) (xq xk : Vec F S1x512x128 .bf16) (xv xg : Vec F S1x512x2048 .bf16) (xwo : Vec F S2048x1024 .bf16) (xbo : Vec F S1x1024 .f32) (xo : Vec F S1x512x1024 .f32) (acc : Vec F S512x2048 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xg ∗ owns (c : Thread nD τ) arg7 fullShare xwo ∗ owns (c : Thread nD τ) arg8 fullShare xbo
        ∗ owns (c : Thread nD τ) arg9 fullShare xo ∗ owns (c : Thread nD τ) arg10 fullShare acc
        ∗ (iprop(owns (c : Thread nD τ) arg3 fullShare xq ∗ owns (c : Thread nD τ) arg4 fullShare xk ∗ owns (c : Thread nD τ) arg5 fullShare xv
            ∗ owns (c : Thread nD τ) arg6 fullShare xg ∗ owns (c : Thread nD τ) arg7 fullShare xwo ∗ owns (c : Thread nD τ) arg8 fullShare xbo
            ∗ owns (c : Thread nD τ) arg9 fullShare (xo)
            ∗ owns (c : Thread nD τ) arg10 fullShare (accStep i xq xk xv acc)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K := by
  by_cases h1 : cond1_1 i
  · have h0 : (i 2).val = 0 := (cond1_1_iff i).mp h1
    rw [accStep_first i xq xk xv acc h0]
    exact run1_first c i arg3 harg3 arg4 harg4 arg5 harg5 arg6 harg6 arg7 harg7 arg8 harg8 arg9 harg9 arg10 harg10 h1 ((cond1_2_iff i).mpr (by rw [h0]; exact Nat.zero_le _)) h3 xq xk xv xg xwo xbo xo acc E K
  · have h0 : (i 2).val ≠ 0 := fun h => h1 ((cond1_1_iff i).mpr h)
    by_cases h2 : cond1_2 i
    · rw [accStep_add i xq xk xv acc h0 ((cond1_2_iff i).mp h2)]
      exact run1_add c i arg3 harg3 arg4 harg4 arg5 harg5 arg6 harg6 arg7 harg7 arg8 harg8 arg9 harg9 arg10 harg10 h1 h2 h3 xq xk xv xg xwo xbo xo acc E K
    · rw [accStep_skip i xq xk xv acc h0 (fun h => h2 ((cond1_2_iff i).mpr h))]
      exact run1_skip c i arg3 harg3 arg4 harg4 arg5 harg5 arg6 harg6 arg7 harg7 arg8 harg8 arg9 harg9 arg10 harg10 h1 h2 h3 xq xk xv xg xwo xbo xo acc E K

/-- At the last key block: the accumulator moves by one step and the output is stored from where it ends. -/
theorem run1_last (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x2048 .bf16) (harg5 : arg5.IsWhole) (arg6 : Memref sig .tc .vmem S1x512x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x2048 .f32) (harg10 : arg10.IsWhole)
    (h3 : cond1_3 i) (xq xk : Vec F S1x512x128 .bf16) (xv xg : Vec F S1x512x2048 .bf16) (xwo : Vec F S2048x1024 .bf16) (xbo : Vec F S1x1024 .f32) (xo : Vec F S1x512x1024 .f32) (acc : Vec F S512x2048 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xg ∗ owns (c : Thread nD τ) arg7 fullShare xwo ∗ owns (c : Thread nD τ) arg8 fullShare xbo
        ∗ owns (c : Thread nD τ) arg9 fullShare xo ∗ owns (c : Thread nD τ) arg10 fullShare acc
        ∗ (iprop(owns (c : Thread nD τ) arg3 fullShare xq ∗ owns (c : Thread nD τ) arg4 fullShare xk ∗ owns (c : Thread nD τ) arg5 fullShare xv
            ∗ owns (c : Thread nD τ) arg6 fullShare xg ∗ owns (c : Thread nD τ) arg7 fullShare xwo ∗ owns (c : Thread nD τ) arg8 fullShare xbo
            ∗ owns (c : Thread nD τ) arg9 fullShare (k1_pay3 (accStep i xq xk xv acc) xg xwo xbo)
            ∗ owns (c : Thread nD τ) arg10 fullShare (accStep i xq xk xv acc)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K := by
  have h7 : (i 2).val = 7 := (cond1_3_iff i).mp h3
  have h0 : (i 2).val ≠ 0 := by rw [h7]; exact Nat.succ_ne_zero 6
  have h1 : ¬cond1_1 i := fun h => h0 ((cond1_1_iff i).mp h)
  by_cases h2 : cond1_2 i
  · rw [accStep_add i xq xk xv acc h0 ((cond1_2_iff i).mp h2)]
    exact run1_add_out c i arg3 harg3 arg4 harg4 arg5 harg5 arg6 harg6 arg7 harg7 arg8 harg8 arg9 harg9 arg10 harg10 h1 h2 h3 xq xk xv xg xwo xbo xo acc E K
  · rw [accStep_skip i xq xk xv acc h0 (fun h => h2 ((cond1_2_iff i).mpr h))]
    exact run1_skip_out c i arg3 harg3 arg4 harg4 arg5 harg5 arg6 harg6 arg7 harg7 arg8 harg8 arg9 harg9 arg10 harg10 h1 h2 h3 xq xk xv xg xwo xbo xo acc E K

/-! ## The schedule: where the conditions hold on the grid, and where the output window is idle -/

/-- The last key block is the points ≡ 7 (mod 8) — decided over the grid. -/
theorem hcond1_3 : ∀ t : Fin cfg1.N, cond1_3 (grid1.coords t) ↔ t.val % 8 = 7 :=
  (by decide +kernel : ∀ t : Fin grid1.N, cond1_3 (grid1.coords t) ↔ t.val % 8 = 7)
/-- The grid's first point is at key block 0. -/
theorem coords1_first : ∀ t : Fin cfg1.N, t.val = 0 → ((grid1.coords t) 2).val = 0 :=
  (by decide +kernel : ∀ t : Fin grid1.N, t.val = 0 → ((grid1.coords t) 2).val = 0)
/-- Off the last key block the output window is idle, -/
theorem idleAt1_6 (i : grid1.Coords) (h : ¬cond1_3 i) : cfg1.idle 6 i = true := by
  show (!(k1_cond3 i == 1#1)) = true
  rw [Bool.not_eq_true', beq_eq_false_iff_ne]; exact h
/-- and not written back; -/
theorem noFlush1_6 (t : Fin cfg1.N) (h : ¬cond1_3 (grid1.coords t)) : (cfg1.win 6).flush t = false :=
  Bool.eq_false_iff.mpr fun hf => h ((hcond1_3 t).mpr ((flush1_6 t).mp hf))
/-- at it, live. -/
theorem liveAt1_6 (i : grid1.Coords) (h : cond1_3 i) : cfg1.idle 6 i = false := by
  show (!(k1_cond3 i == 1#1)) = false
  rw [show k1_cond3 i = 1#1 from h]; rfl

/-! ## The staging memrefs the body is called with -/

abbrev ms1_0 (t : Fin cfg1.N) : Memref sig .tc .vmem S1x512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x2048 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x2048 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x1024 .f32 := win1_6.stage (cfg1.slots t 6)
abbrev hs1_6 (t : Fin cfg1.N) : (ms1_6 t).IsWhole := hstage1_6 ((cfg1.slots t 6).cast nbuf1_6)
/-- The scratch accumulator: a whole scoped buffer of the kernel's own, passed beside the windows. -/
abbrev scM1 : Memref sig .tc .vmem S512x2048 .f32 := Memref.whole cc1_scratch0

/-! ## The inputs' buffers hold their blocks at every point -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

theorem leaves1_0 (c : Dev nD) (t : Fin cfg1.N) :
    (dat1 V c).leavesExact 0 t = owns (c : Thread nD τ) (ms1_0 t) fullShare (iblk1 V c 0 t) := by
  unfold Dat.leavesExact; rw [show cfg1.idle 0 (grid1.coords t) = false from rfl, after1_0]
theorem leaves1_1 (c : Dev nD) (t : Fin cfg1.N) :
    (dat1 V c).leavesExact 1 t = owns (c : Thread nD τ) (ms1_1 t) fullShare (iblk1 V c 1 t) := by
  unfold Dat.leavesExact; rw [show cfg1.idle 1 (grid1.coords t) = false from rfl, after1_1]
theorem leaves1_2 (c : Dev nD) (t : Fin cfg1.N) :
    (dat1 V c).leavesExact 2 t = owns (c : Thread nD τ) (ms1_2 t) fullShare (iblk1 V c 2 t) := by
  unfold Dat.leavesExact; rw [show cfg1.idle 2 (grid1.coords t) = false from rfl, after1_2]
theorem leaves1_3 (c : Dev nD) (t : Fin cfg1.N) :
    (dat1 V c).leavesExact 3 t = owns (c : Thread nD τ) (ms1_3 t) fullShare (iblk1 V c 3 t) := by
  unfold Dat.leavesExact; rw [show cfg1.idle 3 (grid1.coords t) = false from rfl, after1_3]
theorem leaves1_4 (c : Dev nD) (t : Fin cfg1.N) :
    (dat1 V c).leavesExact 4 t = owns (c : Thread nD τ) (ms1_4 t) fullShare (iblk1 V c 4 t) := by
  unfold Dat.leavesExact; rw [show cfg1.idle 4 (grid1.coords t) = false from rfl, after1_4]
theorem leaves1_5 (c : Dev nD) (t : Fin cfg1.N) :
    (dat1 V c).leavesExact 5 t = owns (c : Thread nD τ) (ms1_5 t) fullShare (iblk1 V c 5 t) := by
  unfold Dat.leavesExact; rw [show cfg1.idle 5 (grid1.coords t) = false from rfl, after1_5]

/-! ## The invariant's forms -/

/-- The launch's invariant with the scratch accumulator split off the scoped rest, at some contents. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [bigSepL_singleton, scM1, owns_whole]; try rfl

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scM1 fullShare (accAt1 V c n hn) ∗ Pipeline.scopedRestBut (Ix := Unit) (Name := ℕ) (U := UR sig nD τ) (Lvl := ℕ) (Val := Elt F) spec1 c [cc1_scratch0] ∗ (∃ r, prngReg c r)) := rfl

theorem Phi1_pos (c : Dev nD) (n : ℕ) (h : n ≤ cfg1.N) (hz : n ≠ 0) :
    Phi1 V c n h = iprop(owns (c : Thread nD τ) scM1 fullShare (accAt1 V c (n - 1) (by omega)) ∗ Pipeline.scopedRestBut (Ix := Unit) (Name := ℕ) (U := UR sig nD τ) (Lvl := ℕ) (Val := Elt F) spec1 c [cc1_scratch0] ∗ (∃ r, prngReg c r)) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

/-- The accumulator after the first point: one step from zero. -/
theorem accAt1_first (c : Dev nD) (t : Fin cfg1.N) (hz : t.val = 0) :
    accAt1 V c t.val t.isLt = accStep (grid1.coords t) (iblk1 V c 0 t) (iblk1 V c 1 t) (iblk1 V c 2 t) k1_pay1 := by
  obtain ⟨n, hn⟩ := t
  cases n with
  | zero => rfl
  | succ n => exact absurd hz (Nat.succ_ne_zero n)

/-- The accumulator after a later point: one step from what the point before left. -/
theorem accAt1_pos (c : Dev nD) (t : Fin cfg1.N) (hz : t.val ≠ 0) :
    accAt1 V c t.val t.isLt = accStep (grid1.coords t) (iblk1 V c 0 t) (iblk1 V c 1 t) (iblk1 V c 2 t)
      (accAt1 V c (t.val - 1) (Nat.lt_of_le_of_lt (Nat.sub_le _ _) t.isLt)) := by
  obtain ⟨n, hn⟩ := t
  cases n with
  | zero => exact absurd rfl hz
  | succ n => rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' buffers hold their blocks; the invariant hands the body the accumulator at
    what the point before left (at anything before the first point, which is at key block 0 and resets it) and takes it
    back one step on; off the last key block the output's buffer comes back as found, at it the output block is stored
    from the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) t.isLt from rfl, Phi1_succ]
  rw [leaves1_0 V c t, leaves1_1 V c t, leaves1_2 V c t, leaves1_3 V c t, leaves1_4 V c t, leaves1_5 V c t]
  by_cases h3 : cond1_3 (grid1.coords t)
  · have hz : t.val ≠ 0 := fun hz => by have := (hcond1_3 t).mp h3; omega
    rw [show (dat1 V c).leavesExact 6 t = owns (c : Thread nD τ) (ms1_6 t) fullShare ((dat1 V c).after 6 t) from by
      unfold Dat.leavesExact; rw [liveAt1_6 _ h3], after1_6]
    rw [accAt1_pos V c t hz, Phi1_castSucc V c t, Phi1_pos V c _ _ hz]
    unfold out1_6
    iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
    iapply (run1_last c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) h3 (iblk1 V c 0 t) (iblk1 V c 1 t) (iblk1 V c 2 t) (iblk1 V c 3 t) (iblk1 V c 4 t) (iblk1 V c 5 t) ((dat1 V c).before 6 t d6)
      (accAt1 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat1 V c) 6 t (idleAt1_6 _ h3) (noFlush1_6 t h3)]
    by_cases hz : t.val = 0
    · rw [accAt1_first V c t hz, Phi1_castSucc V c t, Phi1_zero V c _ _ hz, PhiA1_eq]
      iintro ⟨⟨⟨⟨%ds, HS⟩, Hr⟩, Hg⟩, Ho, ⟨%d0, H0⟩, ⟨%d1, H1⟩, ⟨%d2, H2⟩, ⟨%d3, H3⟩, ⟨%d4, H4⟩, ⟨%d5, H5⟩, ⟨%d6, H6⟩⟩
      rw [accStep_of_first (grid1.coords t) (iblk1 V c 0 t) (iblk1 V c 1 t) (iblk1 V c 2 t) k1_pay1 ds (coords1_first t hz)]
      iapply (run1_inner c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) h3 (iblk1 V c 0 t) (iblk1 V c 1 t) (iblk1 V c 2 t) (iblk1 V c 3 t) (iblk1 V c 4 t) (iblk1 V c 5 t) ((dat1 V c).before 6 t d6) ds Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [accAt1_pos V c t hz, Phi1_castSucc V c t, Phi1_pos V c _ _ hz]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
      iapply (run1_inner c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) h3 (iblk1 V c 0 t) (iblk1 V c 1 t) (iblk1 V c 2 t) (iblk1 V c 3 t) (iblk1 V c 4 t) (iblk1 V c 5 t) ((dat1 V c).before 6 t d6)
        (accAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation for the second region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class's back: the scratch's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 128 := N_1; omega), PhiA1_eq]
  iintro ⟨HS, Hr, Hg⟩
  isplitl [HS Hr]
  · isplitl [HS]
    · iexists _; iexact HS
    iexact Hr
  iexact Hg

end Cert.Kernel.Fr

end
-- ==== Proof.K.Run.lean ====
/-
  The run of the whole program: the host stretch, then the two kernel regions in order. The buffer contents at each
  boundary are a fold from the launch memory: after the host stretch; after the first region (its four result arrays at
  what the pipeline's write-backs leave); after the second (the program's result array likewise). Every weakly fair
  execution terminates, and in every final memory each unscoped buffer holds the last boundary's contents; the argument
  arrays read back through the fold to their launch contents.
-/
import proofs.«110127_j80247168959185_1_alg».proof.Proof.K.R0
import proofs.«110127_j80247168959185_1_alg».proof.Proof.K.R1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m ((c : Dev nD), b)
/-- After the host stretch (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The program's result array at the end: what the second pipeline's write-backs leave in it. -/
theorem W3_result (c : Dev nD) : W3 m c (Proc.devRef .tc main_v13) = (dat1 (V2 m) c).arrAt 6 cfg1.N :=
  W3_arr m c 6

/-- The buffers the host stretch writes. -/
abbrev hostW : List (Ref sig .tc) := [main_v0, main_v1, main_v2, main_v3, main_v4, main_v5, main_v6, main_v7, main_v8, main_v9, main_v10, main_v11]

/-- The host stretch leaves every buffer it does not write as launched. -/
theorem W1_of_arg (c : Dev nD) (b : Ref sig .tc) (hb : ∀ r ∈ hostW, r ≠ b) :
    W1 m c (Proc.devRef .tc b) = W0 m c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    exact ⟨StableHlo.devRef_ne_of_ne (hb main_v0 (by decide)).symm,
      StableHlo.devRef_ne_of_ne (hb main_v1 (by decide)).symm,
      StableHlo.devRef_ne_of_ne (hb main_v2 (by decide)).symm,
      StableHlo.devRef_ne_of_ne (hb main_v3 (by decide)).symm,
      StableHlo.devRef_ne_of_ne (hb main_v4 (by decide)).symm,
      StableHlo.devRef_ne_of_ne (hb main_v5 (by decide)).symm,
      StableHlo.devRef_ne_of_ne (hb main_v6 (by decide)).symm,
      StableHlo.devRef_ne_of_ne (hb main_v7 (by decide)).symm,
      StableHlo.devRef_ne_of_ne (hb main_v8 (by decide)).symm,
      StableHlo.devRef_ne_of_ne (hb main_v9 (by decide)).symm,
      StableHlo.devRef_ne_of_ne (hb main_v10 (by decide)).symm,
      StableHlo.devRef_ne_of_ne (hb main_v11 (by decide)).symm⟩))

/-- An argument array that the second region does not stage, and the first neither, holds its launch contents at the end. -/
theorem W3_arg (c : Dev nD) (b : Ref sig .tc)
    (h1 : ∀ w, Pipeline.arrRef spec1 w ≠ b) (h0 : ∀ w, Pipeline.arrRef spec0 w ≠ b) (hb : ∀ r ∈ hostW, r ≠ b) :
    W3 m c (Proc.devRef .tc b) = m ((c : Thread nD τ).loc b) :=
  (W3_of_ne m c b h1).trans <| (W2_of_ne m c b h0).trans <| (W1_of_arg m c b hb).trans rfl

/-- The first argument is the first region's input window 0: it reads back through that window's array. -/
theorem W3_main_arg0 (c : Dev nD) : W3 m c (Proc.devRef .tc main_arg0) = m ((c : Thread nD τ).loc main_arg0) :=
  (W3_of_ne m c main_arg0 (by decide)).trans <| (W2_arr m c 0).trans <|
    (((dat0 (V1 m) c).arrAt_in 0 rfl _).trans (A_eq0 (V1 m) c 0)).trans <| (W1_of_arg m c main_arg0 (by decide)).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem hostOps0_fresh : (hostOps0 : List (HloOp τ sig (Elt F))).Forall fun op => op.fresh = ∅ := by
  simp only [List.Forall]; repeat' constructor
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

set_option backward.isDefEq.respectTransparency.types false in
/-- The first region over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. Its invariant
    tracks the scratch accumulator; it is entered from, and returns to, the scoped rest at anything. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
          ∗ Pipeline.scopedRest (Pipeline.pin (pcfgs (F := F)) adm 1).spec c)
        ⊢ (Pipeline.ΦA spec1 c : sProp 𝕄) := by
      unfold Pipeline.ΦA
      iintro ⟨Hp, -, Hr⟩
      isplitl [Hr]; · iexact Hr
      iexact Hp
    exact h.trans (hin1 (V2 m) c)
  hout c := by
    rw [Pipeline.ownSems0_none]
    have h : (Pipeline.ΦA spec1 c : sProp 𝕄)
        ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V2 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's three segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and in
    every final memory each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Fr

end
-- ==== Proof.KI.R0.lean ====
/-
  The first kernel region (the projections) of the program, at the buffer contents `V` the region is entered from:
  each window's block at a grid point, what the body leaves in the four output windows' staging buffers as pure
  functions of the input blocks (v, gate, q, k: one whole-block store each), the body's triple, the pipeline's
  proof data and the body obligation at every point.
-/
import proofs.«110127_j80247168959185_1_alg».proof.Proof.Gen.KernelIdeal.Launch
import proofs.«110127_j80247168959185_1_alg».proof.Proof.Gen.KernelIdeal.Skeleton
import proofs.«110127_j80247168959185_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The v block: silu of the rows' product with Wv plus bv, of the x block, the Wv array and the bv row. -/
def out0_11 (x0 : Vec F S1x512x1024 .f32) (x1 : Vec F S1024x2048 .bf16) (x2 : Vec F S1x2048 .f32) : Vec F S1x512x2048 .bf16 :=
  k0_pay1 (k0_pay6 x0 x1 x2)
/-- The gate block, likewise of Wg and bg. -/
def out0_12 (x0 : Vec F S1x512x1024 .f32) (x3 : Vec F S1024x2048 .bf16) (x4 : Vec F S1x2048 .f32) : Vec F S1x512x2048 .bf16 :=
  k0_pay2 (k0_pay7 x0 x3 x4)
/-- The q block: silu(x·Wi + bi)·gamma_q + beta_q. -/
def out0_13 (x0 : Vec F S1x512x1024 .f32) (x5 : Vec F S1024x128 .bf16) (x6 x7 x8 : Vec F S1x128 .f32) : Vec F S1x512x128 .bf16 :=
  k0_pay3 (k0_pay9 x0 x5 x6 x7) (k0_pay10 x8)
/-- The k block: silu(x·Wi + bi)·gamma_k + beta_k. -/
def out0_14 (x0 : Vec F S1x512x1024 .f32) (x5 : Vec F S1024x128 .bf16) (x6 x9 x10 : Vec F S1x128 .f32) : Vec F S1x512x128 .bf16 :=
  k0_pay4 (k0_pay8 x0 x5 x6) x9 x10

/-- The proof data of the first pipeline on core `c`: the arrays as the region finds them; after the body each input's
    buffer at its block and each output's at its function of the input blocks; the scoped rest and the generator
    register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t)
    | ⟨12, _⟩ => out0_12 (iblk0 V c 0 t) (iblk0 V c 3 t) (iblk0 V c 4 t)
    | ⟨13, _⟩ => out0_13 (iblk0 V c 0 t) (iblk0 V c 5 t) (iblk0 V c 6 t) (iblk0 V c 7 t) (iblk0 V c 8 t)
    | ⟨14, _⟩ => out0_14 (iblk0 V c 0 t) (iblk0 V c 5 t) (iblk0 V c 6 t) (iblk0 V c 9 t) (iblk0 V c 10 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_11 (c : Dev nD) (t : Fin cfg0.N) : (dat0 V c).after 11 t = out0_11 (iblk0 V c 0 t) (iblk0 V c 1 t) (iblk0 V c 2 t) := by dsimp only [dat0]
theorem after0_12 (c : Dev nD) (t : Fin cfg0.N) : (dat0 V c).after 12 t = out0_12 (iblk0 V c 0 t) (iblk0 V c 3 t) (iblk0 V c 4 t) := by dsimp only [dat0]
theorem after0_13 (c : Dev nD) (t : Fin cfg0.N) : (dat0 V c).after 13 t = out0_13 (iblk0 V c 0 t) (iblk0 V c 5 t) (iblk0 V c 6 t) (iblk0 V c 7 t) (iblk0 V c 8 t) := by dsimp only [dat0]
theorem after0_14 (c : Dev nD) (t : Fin cfg0.N) : (dat0 V c).after 14 t = out0_14 (iblk0 V c 0 t) (iblk0 V c 5 t) (iblk0 V c 6 t) (iblk0 V c 9 t) (iblk0 V c 10 t) := by dsimp only [dat0]

/-! ## What the body finds in each input window's buffer -/

/-- Each input window's current staging buffer holds its block at every point, fetched there or not: where the
    pipeline does not fetch, the block index has not moved, and the body leaves every input's block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [show (dat0 V c).after 0 t = iblk0 V c 0 t by dsimp only [dat0]]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [show (dat0 V c).after 1 t = iblk0 V c 1 t by dsimp only [dat0]]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [show (dat0 V c).after 2 t = iblk0 V c 2 t by dsimp only [dat0]]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [show (dat0 V c).after 3 t = iblk0 V c 3 t by dsimp only [dat0]]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [show (dat0 V c).after 4 t = iblk0 V c 4 t by dsimp only [dat0]]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [show (dat0 V c).after 5 t = iblk0 V c 5 t by dsimp only [dat0]]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [show (dat0 V c).after 6 t = iblk0 V c 6 t by dsimp only [dat0]]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [show (dat0 V c).after 7 t = iblk0 V c 7 t by dsimp only [dat0]]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [show (dat0 V c).after 8 t = iblk0 V c 8 t by dsimp only [dat0]]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl)
    (fun t => by rw [show (dat0 V c).after 9 t = iblk0 V c 9 t by dsimp only [dat0]]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl)
    (fun t => by rw [show (dat0 V c).after 10 t = iblk0 V c 10 t by dsimp only [dat0]]; unfold Dat.blockOf iblk0; rw [A_eq0]; try rfl) t d).trans
    (by unfold Dat.fetched Dat.blockOf iblk0; rw [A_eq0]; try rfl)

/-! ## The body's triple -/

/-- The zero offsets of the whole-buffer rectangles, of rank two and three. -/
theorem off2 : (![0, 0] : Fin 2 → ℕ) = fun _ => 0 := funext fun a => by fin_cases a <;> rfl
theorem off3 : (![0, 0, 0] : Fin 3 → ℕ) = fun _ => 0 := funext fun a => by fin_cases a <;> rfl

/-- What a whole buffer reads after one store through the whole-shape rectangle at zero offsets: the payload. -/
theorem read_store_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h]

/-- A load through that rectangle reads the buffer's contents. -/
theorem readAt_whole {κ : Kind} {sp : Space} {S : Shape} {e : EltTy} (v : View sig κ sp S e) (f : v.ty.Contents (Elt F))
    {off : Fin S.rank → ℕ} (h : off = fun _ => 0) (inb : ∀ a, off a + S.size a ≤ S.size a) :
    View.readAt (Elt F) v (Rect.unit off S.size inb).toLoadRect f = v.read (Elt F) f := by
  rw [View.readAt_eq_ld, View.ld_unit_zero h]

set_option maxHeartbeats 1000000 in
/-- The kernel body on whole staging memrefs, the inputs' at read contents `xW` and the outputs' at anything, runs to
    the continuation holding the inputs' as they were and each output's at its function of the inputs' contents:
    every load reads a whole buffer, every output buffer is covered by its one store, so it reads as the payload. -/
theorem sound_kernel0 (c : Dev nD) (E : Set ℕ) (i : grid0.Coords) (arg2 : Memref sig .tc .vmem S1x512x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x512x2048 .bf16) (harg13 : arg13.IsWhole) (arg14 : Memref sig .tc .vmem S1x512x2048 .bf16) (harg14 : arg14.IsWhole) (arg15 : Memref sig .tc .vmem S1x512x128 .bf16) (harg15 : arg15.IsWhole) (arg16 : Memref sig .tc .vmem S1x512x128 .bf16) (harg16 : arg16.IsWhole)
    (x0 : Vec F S1x512x1024 .f32) (x1 : Vec F S1024x2048 .bf16) (x2 : Vec F S1x2048 .f32) (x3 : Vec F S1024x2048 .bf16) (x4 : Vec F S1x2048 .f32) (x5 : Vec F S1024x128 .bf16) (x6 : Vec F S1x128 .f32) (x7 : Vec F S1x128 .f32) (x8 : Vec F S1x128 .f32) (x9 : Vec F S1x128 .f32) (x10 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
        ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
            ∗ owns (c : Thread nD τ) arg13 fullShare (out0_11 x0 x1 x2) ∗ owns (c : Thread nD τ) arg14 fullShare (out0_12 x0 x3 x4) ∗ owns (c : Thread nD τ) arg15 fullShare (out0_13 x0 x5 x6 x7 x8) ∗ owns (c : Thread nD τ) arg16 fullShare (out0_14 x0 x5 x6 x9 x10)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__proj_kernel_eq_skeleton]; unfold cc0__proj_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    rw [read_store_whole _ _ off3]
    sl_unfold_run_names
    simp only [readAt_whole (S := S1x512x1024) _ _ off3, readAt_whole (S := S1024x2048) _ _ off2, readAt_whole (S := S1x2048) _ _ off2,
      readAt_whole (S := S1024x128) _ _ off2, readAt_whole (S := S1x128) _ _ off2]
    rfl
  isplitl [H12]
  · iexists _; isplitr
    swap; · iexact H12
    ipureintro
    rw [read_store_whole _ _ off3]
    sl_unfold_run_names
    simp only [readAt_whole (S := S1x512x1024) _ _ off3, readAt_whole (S := S1024x2048) _ _ off2, readAt_whole (S := S1x2048) _ _ off2,
      readAt_whole (S := S1024x128) _ _ off2, readAt_whole (S := S1x128) _ _ off2]
    rfl
  isplitl [H13]
  · iexists _; isplitr
    swap; · iexact H13
    ipureintro
    rw [read_store_whole _ _ off3]
    sl_unfold_run_names
    simp only [readAt_whole (S := S1x512x1024) _ _ off3, readAt_whole (S := S1024x2048) _ _ off2, readAt_whole (S := S1x2048) _ _ off2,
      readAt_whole (S := S1024x128) _ _ off2, readAt_whole (S := S1x128) _ _ off2]
    rfl
  iexists _; isplitr
  swap; · iexact H14
  ipureintro
  rw [read_store_whole _ _ off3]
  sl_unfold_run_names
  simp only [readAt_whole (S := S1x512x1024) _ _ off3, readAt_whole (S := S1024x2048) _ _ off2, readAt_whole (S := S1x2048) _ _ off2,
      readAt_whole (S := S1024x128) _ _ off2, readAt_whole (S := S1x128) _ _ off2]
  rfl

/-! ## The body obligation, at a generic point -/

/-- What the body is called with at point `t`: the invariant, what the core owes, and each window's current buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t))

/-- The body at any point: the inputs' buffers hold their blocks, so the body's triple applies at the blocks; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    show (dat0 V c).after 0 t = iblk0 V c 0 t by dsimp only [dat0],
    show (dat0 V c).after 1 t = iblk0 V c 1 t by dsimp only [dat0],
    show (dat0 V c).after 2 t = iblk0 V c 2 t by dsimp only [dat0],
    show (dat0 V c).after 3 t = iblk0 V c 3 t by dsimp only [dat0],
    show (dat0 V c).after 4 t = iblk0 V c 4 t by dsimp only [dat0],
    show (dat0 V c).after 5 t = iblk0 V c 5 t by dsimp only [dat0],
    show (dat0 V c).after 6 t = iblk0 V c 6 t by dsimp only [dat0],
    show (dat0 V c).after 7 t = iblk0 V c 7 t by dsimp only [dat0],
    show (dat0 V c).after 8 t = iblk0 V c 8 t by dsimp only [dat0],
    show (dat0 V c).after 9 t = iblk0 V c 9 t by dsimp only [dat0],
    show (dat0 V c).after 10 t = iblk0 V c 10 t by dsimp only [dat0],
    after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel0 c Set.univ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation for the first region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1.lean ====
/-
  The second kernel region (causal squared-relu attention, the gate and the output projection), at the buffer contents
  `V` it is entered from. The grid is (batch, query block, key block). The body zeroes a scratch accumulator at key block 0,
  adds the block's contribution when the key block is not above the query block, and at the last key block stores
  (accumulator · gate) · Wo + bo into the output window. Stated here: the windows' blocks, the accumulator after every
  point (by recursion on the point), the output block, the proof data whose invariant tracks the scratch, and the body
  obligation at every point.
-/
import proofs.«110127_j80247168959185_1_alg».proof.Proof.Gen.KernelIdeal.Launch
import proofs.«110127_j80247168959185_1_alg».proof.Proof.Gen.KernelIdeal.Skeleton
import proofs.«110127_j80247168959185_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the accumulator: reset to zero at key block 0, then the block's contribution added when
    the key block is not above the query block. -/
def accStep (i : grid1.Coords) (xq xk : Vec F S1x512x128 .bf16) (xv : Vec F S1x512x2048 .bf16) (prev : Vec F S512x2048 .f32) :
    Vec F S512x2048 .f32 :=
  if (i 2).val ≤ (i 1).val then k1_pay2 i xq xk (if (i 2).val = 0 then k1_pay1 else prev) xv
  else (if (i 2).val = 0 then k1_pay1 else prev)

/-- The scratch accumulator after the body at position `n` of the grid, by recursion on the position. -/
def accAt1 (c : Dev nD) : (n : ℕ) → n < cfg1.N → Vec F S512x2048 .f32
  | 0, hn => accStep (grid1.coords ⟨0, hn⟩) (iblk1 V c 0 ⟨0, hn⟩) (iblk1 V c 1 ⟨0, hn⟩) (iblk1 V c 2 ⟨0, hn⟩) k1_pay1
  | n + 1, hn => accStep (grid1.coords ⟨n + 1, hn⟩) (iblk1 V c 0 ⟨n + 1, hn⟩) (iblk1 V c 1 ⟨n + 1, hn⟩) (iblk1 V c 2 ⟨n + 1, hn⟩)
      (accAt1 c n (Nat.lt_of_succ_lt hn))

theorem accAt1_zero (c : Dev nD) (hn : 0 < cfg1.N) :
    accAt1 V c 0 hn = accStep (grid1.coords ⟨0, hn⟩) (iblk1 V c 0 ⟨0, hn⟩) (iblk1 V c 1 ⟨0, hn⟩) (iblk1 V c 2 ⟨0, hn⟩) k1_pay1 := rfl
theorem accAt1_succ (c : Dev nD) (n : ℕ) (hn : n + 1 < cfg1.N) :
    accAt1 V c (n + 1) hn = accStep (grid1.coords ⟨n + 1, hn⟩) (iblk1 V c 0 ⟨n + 1, hn⟩) (iblk1 V c 1 ⟨n + 1, hn⟩) (iblk1 V c 2 ⟨n + 1, hn⟩)
      (accAt1 V c n (Nat.lt_of_succ_lt hn)) := rfl

/-- The output block stored at the last key block: (accumulator · gate) · Wo + bo. -/
def out1_6 (acc : Vec F S512x2048 .f32) (xg : Vec F S1x512x2048 .bf16) (xwo : Vec F S2048x1024 .bf16) (xbo : Vec F S1x1024 .f32) :
    Vec F S1x512x1024 .f32 :=
  k1_pay3 acc xg xwo xbo

/-- The region invariant before position `n`: before the first point the scoped rest at anything and the generator
    register; afterwards the same with the scratch accumulator at what the point before left in it. -/
def Phi1 (c : Dev nD) : (n : ℕ) → n ≤ cfg1.N → sProp 𝕄
  | 0, _ => Pipeline.ΦA spec1 c
  | n + 1, hn => iprop(owns (c : Thread nD τ) (Memref.whole cc1_scratch0) fullShare (accAt1 V c n hn)
      ∗ Pipeline.scopedRestBut (Ix := Unit) (Name := ℕ) (U := UR sig nD τ) (Lvl := ℕ) (Val := Elt F) spec1 c [cc1_scratch0]
      ∗ (∃ r, prngReg c r))

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (accAt1 V c t.val t.isLt) (iblk1 V c 3 t) (iblk1 V c 4 t) (iblk1 V c 5 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) :
    (dat1 V c).after 6 t = out1_6 (accAt1 V c t.val t.isLt) (iblk1 V c 3 t) (iblk1 V c 4 t) (iblk1 V c 5 t) := by dsimp only [dat1]

/-- The first conditional's test (key block 0), as the body computes it from the coordinates. -/
abbrev cond1_1 (i : grid1.Coords) : Prop :=
  (Scalar.cmpi .ne (Scalar.extui (Scalar.cmpi .eq (BitVec.ofNat 32 (i 2).val) 0#32)) 0#32) = 1#1
/-- The second conditional's test (key block not above the query block). -/
abbrev cond1_2 (i : grid1.Coords) : Prop :=
  (Scalar.cmpi .ne (Scalar.extui (Scalar.cmpi .sle (BitVec.ofNat 32 (i 2).val) (BitVec.ofNat 32 (i 1).val))) 0#32) = 1#1
/-- The third conditional's test (last key block). -/
abbrev cond1_3 (i : grid1.Coords) : Prop := k1_cond3 i = 1#1

/-- The three tests in closed form over the coordinates, each of which ranges over 0..7: decided over their values. -/
theorem cond1_1_iff (i : grid1.Coords) : cond1_1 i ↔ (i 2).val = 0 :=
  (by decide : ∀ a : Fin 8, (Scalar.cmpi .ne (Scalar.extui (Scalar.cmpi .eq (BitVec.ofNat 32 a.val) 0#32)) 0#32) = 1#1 ↔ a.val = 0) (i 2)
theorem cond1_2_iff (i : grid1.Coords) : cond1_2 i ↔ (i 2).val ≤ (i 1).val :=
  (by decide : ∀ a b : Fin 8, (Scalar.cmpi .ne (Scalar.extui (Scalar.cmpi .sle (BitVec.ofNat 32 a.val) (BitVec.ofNat 32 b.val))) 0#32) = 1#1 ↔ a.val ≤ b.val) (i 2) (i 1)
theorem cond1_3_iff (i : grid1.Coords) : cond1_3 i ↔ (i 2).val = 7 :=
  (by decide : ∀ a : Fin 8, (Scalar.cmpi .ne (Scalar.extui (Scalar.cmpi .eq (BitVec.ofNat 32 a.val) 7#32)) 0#32) = 1#1 ↔ a.val = 7) (i 2)

/-- The zero offsets of a load or store of a whole buffer, of rank 2 and of rank 3. -/
theorem org1_2 : (![0, 0] : Fin 2 → Nat) = fun _ => 0 := funext fun a => by fin_cases a <;> rfl
theorem org1_3 : (![0, 0, 0] : Fin 3 → Nat) = fun _ => 0 := funext fun a => by fin_cases a <;> rfl

/-! ## The body's run, case by case of its three conditionals

Each case is the whole body run on whole buffers: the six inputs' buffers at their contents and handed back as they
were, the output's buffer at anything, the accumulator at `acc`. Key block 0 resets the accumulator before adding;
a key block above the query block adds nothing; the last key block also stores the output. -/

set_option maxHeartbeats 1000000 in
/-- Key block 0 (so not above the query block, and not the last): the accumulator ends at the block's
    contribution added to zero; the output's buffer is not touched. -/
theorem run1_first (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x2048 .bf16) (harg5 : arg5.IsWhole) (arg6 : Memref sig .tc .vmem S1x512x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x2048 .f32) (harg10 : arg10.IsWhole)
    (h1 : cond1_1 i) (h2 : cond1_2 i) (h3 : ¬cond1_3 i) (xq xk : Vec F S1x512x128 .bf16) (xv xg : Vec F S1x512x2048 .bf16) (xwo : Vec F S2048x1024 .bf16) (xbo : Vec F S1x1024 .f32) (xo : Vec F S1x512x1024 .f32) (acc : Vec F S512x2048 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xg ∗ owns (c : Thread nD τ) arg7 fullShare xwo ∗ owns (c : Thread nD τ) arg8 fullShare xbo
        ∗ owns (c : Thread nD τ) arg9 fullShare xo ∗ owns (c : Thread nD τ) arg10 fullShare acc
        ∗ (iprop(owns (c : Thread nD τ) arg3 fullShare xq ∗ owns (c : Thread nD τ) arg4 fullShare xk ∗ owns (c : Thread nD τ) arg5 fullShare xv
            ∗ owns (c : Thread nD τ) arg6 fullShare xg ∗ owns (c : Thread nD τ) arg7 fullShare xwo ∗ owns (c : Thread nD τ) arg8 fullShare xbo
            ∗ owns (c : Thread nD τ) arg9 fullShare (xo)
            ∗ owns (c : Thread nD τ) arg10 fullShare (k1_pay2 i xq xk k1_pay1 xv)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  · iexists _; isplitr
    swap; · iexact H10
    ipureintro
    sl_unfold_words
    rw [View.read_writes_eq_canon _ _ _ (fun y => ⟨_, List.Mem.head _, View.mem_set_unit_zero org1_2 inb_S512x2048_S512x2048_0_0 y⟩)]
    rw [View.canon_cons_unit_zero org1_2]
    simp only [View.readAt_eq_ld, Memref.IsWhole.read_unread, View.readCov_unit_zero (S := S512x2048) _ org1_2, View.ld_unit_zero (S := S1x512x128) org1_3, View.ld_unit_zero (S := S1x512x2048) org1_3, View.ld_unit_zero (S := S2048x1024) org1_2, View.ld_unit_zero (S := S1x1024) org1_2, View.ld_unit_zero (S := S512x2048) org1_2, View.ld_unit_zero (S := S1x512x1024) org1_3]

set_option maxHeartbeats 1000000 in
/-- A key block after the first, not above the query block, not the last: the contribution is added. -/
theorem run1_add (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x2048 .bf16) (harg5 : arg5.IsWhole) (arg6 : Memref sig .tc .vmem S1x512x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x2048 .f32) (harg10 : arg10.IsWhole)
    (h1 : ¬cond1_1 i) (h2 : cond1_2 i) (h3 : ¬cond1_3 i) (xq xk : Vec F S1x512x128 .bf16) (xv xg : Vec F S1x512x2048 .bf16) (xwo : Vec F S2048x1024 .bf16) (xbo : Vec F S1x1024 .f32) (xo : Vec F S1x512x1024 .f32) (acc : Vec F S512x2048 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xg ∗ owns (c : Thread nD τ) arg7 fullShare xwo ∗ owns (c : Thread nD τ) arg8 fullShare xbo
        ∗ owns (c : Thread nD τ) arg9 fullShare xo ∗ owns (c : Thread nD τ) arg10 fullShare acc
        ∗ (iprop(owns (c : Thread nD τ) arg3 fullShare xq ∗ owns (c : Thread nD τ) arg4 fullShare xk ∗ owns (c : Thread nD τ) arg5 fullShare xv
            ∗ owns (c : Thread nD τ) arg6 fullShare xg ∗ owns (c : Thread nD τ) arg7 fullShare xwo ∗ owns (c : Thread nD τ) arg8 fullShare xbo
            ∗ owns (c : Thread nD τ) arg9 fullShare (xo)
            ∗ owns (c : Thread nD τ) arg10 fullShare (k1_pay2 i xq xk acc xv)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  · iexists _; isplitr
    swap; · iexact H10
    ipureintro
    sl_unfold_words
    rw [View.read_writes_eq_canon _ _ _ (fun y => ⟨_, List.mem_singleton_self _, View.mem_set_unit_zero org1_2 inb_S512x2048_S512x2048_0_0 y⟩)]
    rw [View.canon_unit_zero org1_2]
    simp only [View.readAt_eq_ld, Memref.IsWhole.read_unread, View.readCov_unit_zero (S := S512x2048) _ org1_2, View.ld_unit_zero (S := S1x512x128) org1_3, View.ld_unit_zero (S := S1x512x2048) org1_3, View.ld_unit_zero (S := S2048x1024) org1_2, View.ld_unit_zero (S := S1x1024) org1_2, View.ld_unit_zero (S := S512x2048) org1_2, View.ld_unit_zero (S := S1x512x1024) org1_3]

set_option maxHeartbeats 1000000 in
/-- A key block above the query block, not the last: nothing is stored. -/
theorem run1_skip (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x2048 .bf16) (harg5 : arg5.IsWhole) (arg6 : Memref sig .tc .vmem S1x512x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x2048 .f32) (harg10 : arg10.IsWhole)
    (h1 : ¬cond1_1 i) (h2 : ¬cond1_2 i) (h3 : ¬cond1_3 i) (xq xk : Vec F S1x512x128 .bf16) (xv xg : Vec F S1x512x2048 .bf16) (xwo : Vec F S2048x1024 .bf16) (xbo : Vec F S1x1024 .f32) (xo : Vec F S1x512x1024 .f32) (acc : Vec F S512x2048 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xg ∗ owns (c : Thread nD τ) arg7 fullShare xwo ∗ owns (c : Thread nD τ) arg8 fullShare xbo
        ∗ owns (c : Thread nD τ) arg9 fullShare xo ∗ owns (c : Thread nD τ) arg10 fullShare acc
        ∗ (iprop(owns (c : Thread nD τ) arg3 fullShare xq ∗ owns (c : Thread nD τ) arg4 fullShare xk ∗ owns (c : Thread nD τ) arg5 fullShare xv
            ∗ owns (c : Thread nD τ) arg6 fullShare xg ∗ owns (c : Thread nD τ) arg7 fullShare xwo ∗ owns (c : Thread nD τ) arg8 fullShare xbo
            ∗ owns (c : Thread nD τ) arg9 fullShare (xo)
            ∗ owns (c : Thread nD τ) arg10 fullShare (acc)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  · iexists _; isplitr; · ipureintro; exact harg10.read_unread _
    iexact H10

set_option maxHeartbeats 1000000 in
/-- The last key block, not above the query block: the contribution is added and the output stored from the sum. -/
theorem run1_add_out (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x2048 .bf16) (harg5 : arg5.IsWhole) (arg6 : Memref sig .tc .vmem S1x512x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x2048 .f32) (harg10 : arg10.IsWhole)
    (h1 : ¬cond1_1 i) (h2 : cond1_2 i) (h3 : cond1_3 i) (xq xk : Vec F S1x512x128 .bf16) (xv xg : Vec F S1x512x2048 .bf16) (xwo : Vec F S2048x1024 .bf16) (xbo : Vec F S1x1024 .f32) (xo : Vec F S1x512x1024 .f32) (acc : Vec F S512x2048 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xg ∗ owns (c : Thread nD τ) arg7 fullShare xwo ∗ owns (c : Thread nD τ) arg8 fullShare xbo
        ∗ owns (c : Thread nD τ) arg9 fullShare xo ∗ owns (c : Thread nD τ) arg10 fullShare acc
        ∗ (iprop(owns (c : Thread nD τ) arg3 fullShare xq ∗ owns (c : Thread nD τ) arg4 fullShare xk ∗ owns (c : Thread nD τ) arg5 fullShare xv
            ∗ owns (c : Thread nD τ) arg6 fullShare xg ∗ owns (c : Thread nD τ) arg7 fullShare xwo ∗ owns (c : Thread nD τ) arg8 fullShare xbo
            ∗ owns (c : Thread nD τ) arg9 fullShare (k1_pay3 (k1_pay2 i xq xk acc xv) xg xwo xbo)
            ∗ owns (c : Thread nD τ) arg10 fullShare (k1_pay2 i xq xk acc xv)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    sl_unfold_words
    rw [View.read_writes_eq_canon _ _ _ (fun y => ⟨_, List.mem_singleton_self _, View.mem_set_unit_zero org1_3 inb_S1x512x1024_S1x512x1024_0_0_0 y⟩)]
    rw [View.canon_unit_zero org1_3]
    simp only [View.readAt_eq_ld, Memref.IsWhole.read_unread, View.readCov_unit_zero (S := S512x2048) _ org1_2, View.ld_unit_zero (S := S1x512x128) org1_3, View.ld_unit_zero (S := S1x512x2048) org1_3, View.ld_unit_zero (S := S2048x1024) org1_2, View.ld_unit_zero (S := S1x1024) org1_2, View.ld_unit_zero (S := S512x2048) org1_2, View.ld_unit_zero (S := S1x512x1024) org1_3]
  · iexists _; isplitr
    swap; · iexact H10
    ipureintro
    sl_unfold_words
    rw [View.read_writes_eq_canon _ _ _ (fun y => ⟨_, List.mem_singleton_self _, View.mem_set_unit_zero org1_2 inb_S512x2048_S512x2048_0_0 y⟩)]
    rw [View.canon_unit_zero org1_2]
    simp only [View.readAt_eq_ld, Memref.IsWhole.read_unread, View.readCov_unit_zero (S := S512x2048) _ org1_2, View.ld_unit_zero (S := S1x512x128) org1_3, View.ld_unit_zero (S := S1x512x2048) org1_3, View.ld_unit_zero (S := S2048x1024) org1_2, View.ld_unit_zero (S := S1x1024) org1_2, View.ld_unit_zero (S := S512x2048) org1_2, View.ld_unit_zero (S := S1x512x1024) org1_3]

set_option maxHeartbeats 1000000 in
/-- The last key block, above the query block: the output is stored from the accumulator as it was. -/
theorem run1_skip_out (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x2048 .bf16) (harg5 : arg5.IsWhole) (arg6 : Memref sig .tc .vmem S1x512x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x2048 .f32) (harg10 : arg10.IsWhole)
    (h1 : ¬cond1_1 i) (h2 : ¬cond1_2 i) (h3 : cond1_3 i) (xq xk : Vec F S1x512x128 .bf16) (xv xg : Vec F S1x512x2048 .bf16) (xwo : Vec F S2048x1024 .bf16) (xbo : Vec F S1x1024 .f32) (xo : Vec F S1x512x1024 .f32) (acc : Vec F S512x2048 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xg ∗ owns (c : Thread nD τ) arg7 fullShare xwo ∗ owns (c : Thread nD τ) arg8 fullShare xbo
        ∗ owns (c : Thread nD τ) arg9 fullShare xo ∗ owns (c : Thread nD τ) arg10 fullShare acc
        ∗ (iprop(owns (c : Thread nD τ) arg3 fullShare xq ∗ owns (c : Thread nD τ) arg4 fullShare xk ∗ owns (c : Thread nD τ) arg5 fullShare xv
            ∗ owns (c : Thread nD τ) arg6 fullShare xg ∗ owns (c : Thread nD τ) arg7 fullShare xwo ∗ owns (c : Thread nD τ) arg8 fullShare xbo
            ∗ owns (c : Thread nD τ) arg9 fullShare (k1_pay3 acc xg xwo xbo)
            ∗ owns (c : Thread nD τ) arg10 fullShare (acc)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    sl_unfold_words
    rw [View.read_writes_eq_canon _ _ _ (fun y => ⟨_, List.mem_singleton_self _, View.mem_set_unit_zero org1_3 inb_S1x512x1024_S1x512x1024_0_0_0 y⟩)]
    rw [View.canon_unit_zero org1_3]
    simp only [View.readAt_eq_ld, Memref.IsWhole.read_unread, View.readCov_unit_zero (S := S512x2048) _ org1_2, View.ld_unit_zero (S := S1x512x128) org1_3, View.ld_unit_zero (S := S1x512x2048) org1_3, View.ld_unit_zero (S := S2048x1024) org1_2, View.ld_unit_zero (S := S1x1024) org1_2, View.ld_unit_zero (S := S512x2048) org1_2, View.ld_unit_zero (S := S1x512x1024) org1_3]
  · iexists _; isplitr; · ipureintro; exact harg10.read_unread _
    iexact H10

/-! ## The accumulator's step, case by case -/

theorem accStep_first (i : grid1.Coords) (xq xk : Vec F S1x512x128 .bf16) (xv : Vec F S1x512x2048 .bf16) (prev : Vec F S512x2048 .f32)
    (h0 : (i 2).val = 0) : accStep i xq xk xv prev = k1_pay2 i xq xk k1_pay1 xv := by
  unfold accStep; rw [if_pos (by rw [h0]; exact Nat.zero_le _), if_pos h0]

theorem accStep_add (i : grid1.Coords) (xq xk : Vec F S1x512x128 .bf16) (xv : Vec F S1x512x2048 .bf16) (prev : Vec F S512x2048 .f32)
    (h0 : (i 2).val ≠ 0) (h : (i 2).val ≤ (i 1).val) : accStep i xq xk xv prev = k1_pay2 i xq xk prev xv := by
  unfold accStep; rw [if_pos h, if_neg h0]

theorem accStep_skip (i : grid1.Coords) (xq xk : Vec F S1x512x128 .bf16) (xv : Vec F S1x512x2048 .bf16) (prev : Vec F S512x2048 .f32)
    (h0 : (i 2).val ≠ 0) (h : ¬(i 2).val ≤ (i 1).val) : accStep i xq xk xv prev = prev := by
  unfold accStep; rw [if_neg h, if_neg h0]

/-- At key block 0 the step forgets what the accumulator held. -/
theorem accStep_of_first (i : grid1.Coords) (xq xk : Vec F S1x512x128 .bf16) (xv : Vec F S1x512x2048 .bf16) (p p' : Vec F S512x2048 .f32)
    (h0 : (i 2).val = 0) : accStep i xq xk xv p = accStep i xq xk xv p' := by
  rw [accStep_first i xq xk xv p h0, accStep_first i xq xk xv p' h0]

/-! ## The body's run at any point: before the last key block, and at it -/

/-- Not at the last key block: the accumulator moves by one step, the output's buffer is handed back as found. -/
theorem run1_inner (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x2048 .bf16) (harg5 : arg5.IsWhole) (arg6 : Memref sig .tc .vmem S1x512x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x2048 .f32) (harg10 : arg10.IsWhole)
    (h3 : ¬cond1_3 i) (xq xk : Vec F S1x512x128 .bf16) (xv xg : Vec F S1x512x2048 .bf16) (xwo : Vec F S2048x1024 .bf16) (xbo : Vec F S1x1024 .f32) (xo : Vec F S1x512x1024 .f32) (acc : Vec F S512x2048 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xg ∗ owns (c : Thread nD τ) arg7 fullShare xwo ∗ owns (c : Thread nD τ) arg8 fullShare xbo
        ∗ owns (c : Thread nD τ) arg9 fullShare xo ∗ owns (c : Thread nD τ) arg10 fullShare acc
        ∗ (iprop(owns (c : Thread nD τ) arg3 fullShare xq ∗ owns (c : Thread nD τ) arg4 fullShare xk ∗ owns (c : Thread nD τ) arg5 fullShare xv
            ∗ owns (c : Thread nD τ) arg6 fullShare xg ∗ owns (c : Thread nD τ) arg7 fullShare xwo ∗ owns (c : Thread nD τ) arg8 fullShare xbo
            ∗ owns (c : Thread nD τ) arg9 fullShare (xo)
            ∗ owns (c : Thread nD τ) arg10 fullShare (accStep i xq xk xv acc)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K := by
  by_cases h1 : cond1_1 i
  · have h0 : (i 2).val = 0 := (cond1_1_iff i).mp h1
    rw [accStep_first i xq xk xv acc h0]
    exact run1_first c i arg3 harg3 arg4 harg4 arg5 harg5 arg6 harg6 arg7 harg7 arg8 harg8 arg9 harg9 arg10 harg10 h1 ((cond1_2_iff i).mpr (by rw [h0]; exact Nat.zero_le _)) h3 xq xk xv xg xwo xbo xo acc E K
  · have h0 : (i 2).val ≠ 0 := fun h => h1 ((cond1_1_iff i).mpr h)
    by_cases h2 : cond1_2 i
    · rw [accStep_add i xq xk xv acc h0 ((cond1_2_iff i).mp h2)]
      exact run1_add c i arg3 harg3 arg4 harg4 arg5 harg5 arg6 harg6 arg7 harg7 arg8 harg8 arg9 harg9 arg10 harg10 h1 h2 h3 xq xk xv xg xwo xbo xo acc E K
    · rw [accStep_skip i xq xk xv acc h0 (fun h => h2 ((cond1_2_iff i).mpr h))]
      exact run1_skip c i arg3 harg3 arg4 harg4 arg5 harg5 arg6 harg6 arg7 harg7 arg8 harg8 arg9 harg9 arg10 harg10 h1 h2 h3 xq xk xv xg xwo xbo xo acc E K

/-- At the last key block: the accumulator moves by one step and the output is stored from where it ends. -/
theorem run1_last (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x2048 .bf16) (harg5 : arg5.IsWhole) (arg6 : Memref sig .tc .vmem S1x512x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x2048 .f32) (harg10 : arg10.IsWhole)
    (h3 : cond1_3 i) (xq xk : Vec F S1x512x128 .bf16) (xv xg : Vec F S1x512x2048 .bf16) (xwo : Vec F S2048x1024 .bf16) (xbo : Vec F S1x1024 .f32) (xo : Vec F S1x512x1024 .f32) (acc : Vec F S512x2048 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xg ∗ owns (c : Thread nD τ) arg7 fullShare xwo ∗ owns (c : Thread nD τ) arg8 fullShare xbo
        ∗ owns (c : Thread nD τ) arg9 fullShare xo ∗ owns (c : Thread nD τ) arg10 fullShare acc
        ∗ (iprop(owns (c : Thread nD τ) arg3 fullShare xq ∗ owns (c : Thread nD τ) arg4 fullShare xk ∗ owns (c : Thread nD τ) arg5 fullShare xv
            ∗ owns (c : Thread nD τ) arg6 fullShare xg ∗ owns (c : Thread nD τ) arg7 fullShare xwo ∗ owns (c : Thread nD τ) arg8 fullShare xbo
            ∗ owns (c : Thread nD τ) arg9 fullShare (k1_pay3 (accStep i xq xk xv acc) xg xwo xbo)
            ∗ owns (c : Thread nD τ) arg10 fullShare (accStep i xq xk xv acc)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K := by
  have h7 : (i 2).val = 7 := (cond1_3_iff i).mp h3
  have h0 : (i 2).val ≠ 0 := by rw [h7]; exact Nat.succ_ne_zero 6
  have h1 : ¬cond1_1 i := fun h => h0 ((cond1_1_iff i).mp h)
  by_cases h2 : cond1_2 i
  · rw [accStep_add i xq xk xv acc h0 ((cond1_2_iff i).mp h2)]
    exact run1_add_out c i arg3 harg3 arg4 harg4 arg5 harg5 arg6 harg6 arg7 harg7 arg8 harg8 arg9 harg9 arg10 harg10 h1 h2 h3 xq xk xv xg xwo xbo xo acc E K
  · rw [accStep_skip i xq xk xv acc h0 (fun h => h2 ((cond1_2_iff i).mpr h))]
    exact run1_skip_out c i arg3 harg3 arg4 harg4 arg5 harg5 arg6 harg6 arg7 harg7 arg8 harg8 arg9 harg9 arg10 harg10 h1 h2 h3 xq xk xv xg xwo xbo xo acc E K

/-! ## The schedule: where the conditions hold on the grid, and where the output window is idle -/

/-- The last key block is the points ≡ 7 (mod 8) — decided over the grid. -/
theorem hcond1_3 : ∀ t : Fin cfg1.N, cond1_3 (grid1.coords t) ↔ t.val % 8 = 7 :=
  (by decide +kernel : ∀ t : Fin grid1.N, cond1_3 (grid1.coords t) ↔ t.val % 8 = 7)
/-- The grid's first point is at key block 0. -/
theorem coords1_first : ∀ t : Fin cfg1.N, t.val = 0 → ((grid1.coords t) 2).val = 0 :=
  (by decide +kernel : ∀ t : Fin grid1.N, t.val = 0 → ((grid1.coords t) 2).val = 0)
/-- Off the last key block the output window is idle, -/
theorem idleAt1_6 (i : grid1.Coords) (h : ¬cond1_3 i) : cfg1.idle 6 i = true := by
  show (!(k1_cond3 i == 1#1)) = true
  rw [Bool.not_eq_true', beq_eq_false_iff_ne]; exact h
/-- and not written back; -/
theorem noFlush1_6 (t : Fin cfg1.N) (h : ¬cond1_3 (grid1.coords t)) : (cfg1.win 6).flush t = false :=
  Bool.eq_false_iff.mpr fun hf => h ((hcond1_3 t).mpr ((flush1_6 t).mp hf))
/-- at it, live. -/
theorem liveAt1_6 (i : grid1.Coords) (h : cond1_3 i) : cfg1.idle 6 i = false := by
  show (!(k1_cond3 i == 1#1)) = false
  rw [show k1_cond3 i = 1#1 from h]; rfl

/-! ## The staging memrefs the body is called with -/

abbrev ms1_0 (t : Fin cfg1.N) : Memref sig .tc .vmem S1x512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x2048 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x2048 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x1024 .f32 := win1_6.stage (cfg1.slots t 6)
abbrev hs1_6 (t : Fin cfg1.N) : (ms1_6 t).IsWhole := hstage1_6 ((cfg1.slots t 6).cast nbuf1_6)
/-- The scratch accumulator: a whole scoped buffer of the kernel's own, passed beside the windows. -/
abbrev scM1 : Memref sig .tc .vmem S512x2048 .f32 := Memref.whole cc1_scratch0

/-! ## The inputs' buffers hold their blocks at every point -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

theorem leaves1_0 (c : Dev nD) (t : Fin cfg1.N) :
    (dat1 V c).leavesExact 0 t = owns (c : Thread nD τ) (ms1_0 t) fullShare (iblk1 V c 0 t) := by
  unfold Dat.leavesExact; rw [show cfg1.idle 0 (grid1.coords t) = false from rfl, after1_0]
theorem leaves1_1 (c : Dev nD) (t : Fin cfg1.N) :
    (dat1 V c).leavesExact 1 t = owns (c : Thread nD τ) (ms1_1 t) fullShare (iblk1 V c 1 t) := by
  unfold Dat.leavesExact; rw [show cfg1.idle 1 (grid1.coords t) = false from rfl, after1_1]
theorem leaves1_2 (c : Dev nD) (t : Fin cfg1.N) :
    (dat1 V c).leavesExact 2 t = owns (c : Thread nD τ) (ms1_2 t) fullShare (iblk1 V c 2 t) := by
  unfold Dat.leavesExact; rw [show cfg1.idle 2 (grid1.coords t) = false from rfl, after1_2]
theorem leaves1_3 (c : Dev nD) (t : Fin cfg1.N) :
    (dat1 V c).leavesExact 3 t = owns (c : Thread nD τ) (ms1_3 t) fullShare (iblk1 V c 3 t) := by
  unfold Dat.leavesExact; rw [show cfg1.idle 3 (grid1.coords t) = false from rfl, after1_3]
theorem leaves1_4 (c : Dev nD) (t : Fin cfg1.N) :
    (dat1 V c).leavesExact 4 t = owns (c : Thread nD τ) (ms1_4 t) fullShare (iblk1 V c 4 t) := by
  unfold Dat.leavesExact; rw [show cfg1.idle 4 (grid1.coords t) = false from rfl, after1_4]
theorem leaves1_5 (c : Dev nD) (t : Fin cfg1.N) :
    (dat1 V c).leavesExact 5 t = owns (c : Thread nD τ) (ms1_5 t) fullShare (iblk1 V c 5 t) := by
  unfold Dat.leavesExact; rw [show cfg1.idle 5 (grid1.coords t) = false from rfl, after1_5]

/-! ## The invariant's forms -/

/-- The launch's invariant with the scratch accumulator split off the scoped rest, at some contents. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [bigSepL_singleton, scM1, owns_whole]; try rfl

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scM1 fullShare (accAt1 V c n hn) ∗ Pipeline.scopedRestBut (Ix := Unit) (Name := ℕ) (U := UR sig nD τ) (Lvl := ℕ) (Val := Elt F) spec1 c [cc1_scratch0] ∗ (∃ r, prngReg c r)) := rfl

theorem Phi1_pos (c : Dev nD) (n : ℕ) (h : n ≤ cfg1.N) (hz : n ≠ 0) :
    Phi1 V c n h = iprop(owns (c : Thread nD τ) scM1 fullShare (accAt1 V c (n - 1) (by omega)) ∗ Pipeline.scopedRestBut (Ix := Unit) (Name := ℕ) (U := UR sig nD τ) (Lvl := ℕ) (Val := Elt F) spec1 c [cc1_scratch0] ∗ (∃ r, prngReg c r)) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

/-- The accumulator after the first point: one step from zero. -/
theorem accAt1_first (c : Dev nD) (t : Fin cfg1.N) (hz : t.val = 0) :
    accAt1 V c t.val t.isLt = accStep (grid1.coords t) (iblk1 V c 0 t) (iblk1 V c 1 t) (iblk1 V c 2 t) k1_pay1 := by
  obtain ⟨n, hn⟩ := t
  cases n with
  | zero => rfl
  | succ n => exact absurd hz (Nat.succ_ne_zero n)

/-- The accumulator after a later point: one step from what the point before left. -/
theorem accAt1_pos (c : Dev nD) (t : Fin cfg1.N) (hz : t.val ≠ 0) :
    accAt1 V c t.val t.isLt = accStep (grid1.coords t) (iblk1 V c 0 t) (iblk1 V c 1 t) (iblk1 V c 2 t)
      (accAt1 V c (t.val - 1) (Nat.lt_of_le_of_lt (Nat.sub_le _ _) t.isLt)) := by
  obtain ⟨n, hn⟩ := t
  cases n with
  | zero => exact absurd rfl hz
  | succ n => rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' buffers hold their blocks; the invariant hands the body the accumulator at
    what the point before left (at anything before the first point, which is at key block 0 and resets it) and takes it
    back one step on; off the last key block the output's buffer comes back as found, at it the output block is stored
    from the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) t.isLt from rfl, Phi1_succ]
  rw [leaves1_0 V c t, leaves1_1 V c t, leaves1_2 V c t, leaves1_3 V c t, leaves1_4 V c t, leaves1_5 V c t]
  by_cases h3 : cond1_3 (grid1.coords t)
  · have hz : t.val ≠ 0 := fun hz => by have := (hcond1_3 t).mp h3; omega
    rw [show (dat1 V c).leavesExact 6 t = owns (c : Thread nD τ) (ms1_6 t) fullShare ((dat1 V c).after 6 t) from by
      unfold Dat.leavesExact; rw [liveAt1_6 _ h3], after1_6]
    rw [accAt1_pos V c t hz, Phi1_castSucc V c t, Phi1_pos V c _ _ hz]
    unfold out1_6
    iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
    iapply (run1_last c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) h3 (iblk1 V c 0 t) (iblk1 V c 1 t) (iblk1 V c 2 t) (iblk1 V c 3 t) (iblk1 V c 4 t) (iblk1 V c 5 t) ((dat1 V c).before 6 t d6)
      (accAt1 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat1 V c) 6 t (idleAt1_6 _ h3) (noFlush1_6 t h3)]
    by_cases hz : t.val = 0
    · rw [accAt1_first V c t hz, Phi1_castSucc V c t, Phi1_zero V c _ _ hz, PhiA1_eq]
      iintro ⟨⟨⟨⟨%ds, HS⟩, Hr⟩, Hg⟩, Ho, ⟨%d0, H0⟩, ⟨%d1, H1⟩, ⟨%d2, H2⟩, ⟨%d3, H3⟩, ⟨%d4, H4⟩, ⟨%d5, H5⟩, ⟨%d6, H6⟩⟩
      rw [accStep_of_first (grid1.coords t) (iblk1 V c 0 t) (iblk1 V c 1 t) (iblk1 V c 2 t) k1_pay1 ds (coords1_first t hz)]
      iapply (run1_inner c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) h3 (iblk1 V c 0 t) (iblk1 V c 1 t) (iblk1 V c 2 t) (iblk1 V c 3 t) (iblk1 V c 4 t) (iblk1 V c 5 t) ((dat1 V c).before 6 t d6) ds Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [accAt1_pos V c t hz, Phi1_castSucc V c t, Phi1_pos V c _ _ hz]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
      iapply (run1_inner c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) h3 (iblk1 V c 0 t) (iblk1 V c 1 t) (iblk1 V c 2 t) (iblk1 V c 3 t) (iblk1 V c 4 t) (iblk1 V c 5 t) ((dat1 V c).before 6 t d6)
        (accAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation for the second region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class's back: the scratch's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 128 := N_1; omega), PhiA1_eq]
  iintro ⟨HS, Hr, Hg⟩
  isplitl [HS Hr]
  · isplitl [HS]
    · iexists _; iexact HS
    iexact Hr
  iexact Hg

end Cert.KernelIdeal.Fr

end
-- ==== Proof.KI.Run.lean ====
/-
  The run of the whole program: the host stretch, then the two kernel regions in order. The buffer contents at each
  boundary are a fold from the launch memory: after the host stretch; after the first region (its four result arrays at
  what the pipeline's write-backs leave); after the second (the program's result array likewise). Every weakly fair
  execution terminates, and in every final memory each unscoped buffer holds the last boundary's contents; the argument
  arrays read back through the fold to their launch contents.
-/
import proofs.«110127_j80247168959185_1_alg».proof.Proof.KI.R0
import proofs.«110127_j80247168959185_1_alg».proof.Proof.KI.R1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m ((c : Dev nD), b)
/-- After the host stretch (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The program's result array at the end: what the second pipeline's write-backs leave in it. -/
theorem W3_result (c : Dev nD) : W3 m c (Proc.devRef .tc main_v13) = (dat1 (V2 m) c).arrAt 6 cfg1.N :=
  W3_arr m c 6

/-- The buffers the host stretch writes. -/
abbrev hostW : List (Ref sig .tc) := [main_v0, main_v1, main_v2, main_v3, main_v4, main_v5, main_v6, main_v7, main_v8, main_v9, main_v10, main_v11]

/-- The host stretch leaves every buffer it does not write as launched. -/
theorem W1_of_arg (c : Dev nD) (b : Ref sig .tc) (hb : ∀ r ∈ hostW, r ≠ b) :
    W1 m c (Proc.devRef .tc b) = W0 m c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    exact ⟨StableHlo.devRef_ne_of_ne (hb main_v0 (by decide)).symm,
      StableHlo.devRef_ne_of_ne (hb main_v1 (by decide)).symm,
      StableHlo.devRef_ne_of_ne (hb main_v2 (by decide)).symm,
      StableHlo.devRef_ne_of_ne (hb main_v3 (by decide)).symm,
      StableHlo.devRef_ne_of_ne (hb main_v4 (by decide)).symm,
      StableHlo.devRef_ne_of_ne (hb main_v5 (by decide)).symm,
      StableHlo.devRef_ne_of_ne (hb main_v6 (by decide)).symm,
      StableHlo.devRef_ne_of_ne (hb main_v7 (by decide)).symm,
      StableHlo.devRef_ne_of_ne (hb main_v8 (by decide)).symm,
      StableHlo.devRef_ne_of_ne (hb main_v9 (by decide)).symm,
      StableHlo.devRef_ne_of_ne (hb main_v10 (by decide)).symm,
      StableHlo.devRef_ne_of_ne (hb main_v11 (by decide)).symm⟩))

/-- An argument array that the second region does not stage, and the first neither, holds its launch contents at the end. -/
theorem W3_arg (c : Dev nD) (b : Ref sig .tc)
    (h1 : ∀ w, Pipeline.arrRef spec1 w ≠ b) (h0 : ∀ w, Pipeline.arrRef spec0 w ≠ b) (hb : ∀ r ∈ hostW, r ≠ b) :
    W3 m c (Proc.devRef .tc b) = m ((c : Thread nD τ).loc b) :=
  (W3_of_ne m c b h1).trans <| (W2_of_ne m c b h0).trans <| (W1_of_arg m c b hb).trans rfl

/-- The first argument is the first region's input window 0: it reads back through that window's array. -/
theorem W3_main_arg0 (c : Dev nD) : W3 m c (Proc.devRef .tc main_arg0) = m ((c : Thread nD τ).loc main_arg0) :=
  (W3_of_ne m c main_arg0 (by decide)).trans <| (W2_arr m c 0).trans <|
    (((dat0 (V1 m) c).arrAt_in 0 rfl _).trans (A_eq0 (V1 m) c 0)).trans <| (W1_of_arg m c main_arg0 (by decide)).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem hostOps0_fresh : (hostOps0 : List (HloOp τ sig (Elt F))).Forall fun op => op.fresh = ∅ := by
  simp only [List.Forall]; repeat' constructor
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

set_option backward.isDefEq.respectTransparency.types false in
/-- The first region over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. Its invariant
    tracks the scratch accumulator; it is entered from, and returns to, the scoped rest at anything. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
          ∗ Pipeline.scopedRest (Pipeline.pin (pcfgs (F := F)) adm 1).spec c)
        ⊢ (Pipeline.ΦA spec1 c : sProp 𝕄) := by
      unfold Pipeline.ΦA
      iintro ⟨Hp, -, Hr⟩
      isplitl [Hr]; · iexact Hr
      iexact Hp
    exact h.trans (hin1 (V2 m) c)
  hout c := by
    rw [Pipeline.ownSems0_none]
    have h : (Pipeline.ΦA spec1 c : sProp 𝕄)
        ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V2 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's three segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and in
    every final memory each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Fr

end
-- ==== Proof.Spec.lean ====
/-
  The function both programs compute, index by index over the extended reals, and the laws that join their two
  arrangements of it.

  With silu z = z · logistic z:
    v(b,n,i)    = silu (∑ₑ x(b,n,e)·Wv(e,i) + bv(i)),   gate likewise with Wg, bg,
    u(b,n,h)    = silu (∑ₑ x(b,n,e)·Wi(e,h) + bi(h)),   q = u·γq + βq,   k = u·γk + βk,
    s(b,n,m)    = ∑ₕ q(b,n,h)·k(b,m,h),
    a(b,n,m)    = (max (if m ≤ n then s·c else 0) 0)²   (causal, squared relu; c the reciprocal of the scale),
    o(b,n,i)    = (∑ₘ a(b,n,m)·v(b,m,i)) · gate(b,n,i),
    out(b,n,e)  = ∑ᵢ o(b,n,i)·Wo(i,e) + bo(e).
  One program sums the 4096 key positions in one sweep and divides the score by the scale; the other sums them in eight
  blocks of 512, leaves out the blocks wholly above the diagonal, and multiplies by the named reciprocal of the scale.
-/
import Idealize.ShloMosaic.Lib.ValueIdx
import Idealize.ShloMosaic.PureOps.Ideal
import Idealize.ShloMosaic.PureOps.Ideal.Laws

noncomputable section

namespace Cert.Spec

open Idealize.ShloMosaic Idealize.ShloMosaic.ValueIdx

/-- The reciprocal of the scale, as a real: 262144 / 11863283. -/
def cR : ℝ := 262144 / 11863283
/-- The same as an extended real. -/
def cE : EReal := ((262144 / 11863283 : ℝ) : EReal)

/-- The scale's float pattern denotes 11863283 / 262144. -/
theorem ofBits_scale : Ideal.ofBits .f32 0x423504F3#32 = ((11863283 / 262144 : ℝ) : EReal) := by
  simp [Ideal.ofBits, Ideal.ieee, -EReal.coe_mul]; norm_num

/-- The pattern of one. -/
theorem ofBits_one : Ideal.ofBits .f32 0x3F800000#32 = 1 := by
  simp [Ideal.ofBits, Ideal.ieee, -EReal.coe_mul]; norm_num

/-- The pattern of zero. -/
theorem ofBits_zero : Ideal.ofBits .f32 0#32 = 0 := by
  simp [Ideal.ofBits, Ideal.ieee]

/-- Dividing by the scale is multiplying by its reciprocal, on every extended real. -/
theorem div_scale (s : EReal) : Ideal.div s (Ideal.ofBits .f32 0x423504F3#32) = s * cE := by
  rw [ofBits_scale, Ideal.div_coe (by norm_num : (11863283 / 262144 : ℝ) ≠ 0)]
  unfold cE
  congr 2
  norm_num

/-- silu. -/
def silu (z : EReal) : EReal := z * Ideal.logistic z

/-- A row of `x` against a column of a weight matrix, plus a bias entry, through silu. -/
def proj {I : Nat} (x : (⟨3, ![2, 4096, 1024]⟩ : Shape).Idx → EReal) (W : (⟨2, ![1024, I]⟩ : Shape).Idx → EReal)
    (b : Fin I → EReal) (p : Fin 2) (n : Fin 4096) (i : Fin I) : EReal :=
  silu ((∑ e : Fin 1024, x (ix3 p n e) * W (ix2 e i)) + b i)

/-- q and k: the shared projection scaled and shifted per feature. -/
def qk (x : (⟨3, ![2, 4096, 1024]⟩ : Shape).Idx → EReal) (Wi : (⟨2, ![1024, 128]⟩ : Shape).Idx → EReal)
    (bi g β : Fin 128 → EReal) (p : Fin 2) (n : Fin 4096) (h : Fin 128) : EReal :=
  proj x Wi bi p n h * g h + β h

/-- The causal squared-relu weight of a score `s` at query position `n`, key position `m`. -/
def attn (s : EReal) (n m : ℕ) : EReal :=
  max (if m ≤ n then s * cE else 0) 0 * max (if m ≤ n then s * cE else 0) 0

theorem attn_of_lt (s : EReal) {n m : ℕ} (h : n < m) : attn s n m = 0 := by
  unfold attn; rw [if_neg (by omega)]; simp

section
variable (Q K : Fin 2 → Fin 4096 → Fin 128 → EReal) (Vv G : Fin 2 → Fin 4096 → Fin 2048 → EReal)
  (Wo : (⟨2, ![2048, 1024]⟩ : Shape).Idx → EReal) (bo : Fin 1024 → EReal)

/-- The score of query position `n` against key position `m`, of any q and k. -/
def scoreOf (p : Fin 2) (n m : Fin 4096) : EReal := ∑ h : Fin 128, Q p n h * K p m h

/-- The weighted sum of the values over every key position (those after the query weigh zero). -/
def ctxOf (p : Fin 2) (n : Fin 4096) (i : Fin 2048) : EReal :=
  ∑ m : Fin 4096, attn (scoreOf Q K p n m) n.val m.val * Vv p m i

/-- The result at batch `p`, position `n`, feature `e`, of any q, k, v and gate. -/
def outOf (p : Fin 2) (n : Fin 4096) (e : Fin 1024) : EReal :=
  (∑ i : Fin 2048, (ctxOf Q K Vv p n i * G p n i) * Wo (ix2 i e)) + bo e

end

section
variable (x : (⟨3, ![2, 4096, 1024]⟩ : Shape).Idx → EReal)
  (Wv : (⟨2, ![1024, 2048]⟩ : Shape).Idx → EReal) (bv : Fin 2048 → EReal)
  (Wg : (⟨2, ![1024, 2048]⟩ : Shape).Idx → EReal) (bg : Fin 2048 → EReal)
  (Wi : (⟨2, ![1024, 128]⟩ : Shape).Idx → EReal) (bi gq bq gk bk : Fin 128 → EReal)
  (Wo : (⟨2, ![2048, 1024]⟩ : Shape).Idx → EReal) (bo : Fin 1024 → EReal)

/-- The result, at batch `p`, position `n`, feature `e`, of the thirteen argument arrays. -/
def out (p : Fin 2) (n : Fin 4096) (e : Fin 1024) : EReal :=
  outOf (qk x Wi bi gq bq) (qk x Wi bi gk bk) (proj x Wv bv) (proj x Wg bg) Wo bo p n e

/-- The result array. -/
def outArr : (⟨3, ![2, 4096, 1024]⟩ : Shape).Idx → EReal :=
  fun j => out x Wv bv Wg bg Wi bi gq bq gk bk Wo bo (j 0) (j 1) (j 2)

end

/-- A sum over 4096 positions, in eight blocks of 512. -/
theorem sum_blocks (f : Fin 4096 → EReal) :
    ∑ m : Fin 4096, f m = ∑ kb : Fin 8, ∑ j : Fin 512, f ⟨j.val + 512 * kb.val, by omega⟩ := by
  rw [← Equiv.sum_comp (finProdFinEquiv (m := 8) (n := 512)) f, Fintype.sum_prod_type]
  rfl

/-- A block of key positions wholly after the query block weighs zero. -/
theorem block_zero (g : Fin 4096 → EReal) (w : Fin 4096 → EReal) (n : ℕ) (kb : Fin 8) (hq : n < 512 * kb.val)
    (hg : ∀ m : Fin 4096, n < m.val → g m = 0) :
    ∑ j : Fin 512, g ⟨j.val + 512 * kb.val, by omega⟩ * w ⟨j.val + 512 * kb.val, by omega⟩ = 0 := by
  refine Finset.sum_eq_zero fun j _ => ?_
  rw [hg _ (by show n < j.val + 512 * kb.val; omega), zero_mul]

end Cert.Spec

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.KI.Val0.lean ====
/-
  What the first region leaves in its four result arrays, over the extended reals: each array is one function of the
  arrays the region was entered with, index by index. A block of 512 rows of v is silu of those rows of x against Wv plus
  the bias row; the sixteen blocks (two batches, eight row blocks) tile the array.
-/
import proofs.«110127_j80247168959185_1_alg».proof.Proof.KI.R0
import proofs.«110127_j80247168959185_1_alg».proof.Proof.Spec
import proofs.«110127_j80247168959185_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

namespace Proj

/-! ## A block's payload at a row and a feature -/

/-- The two products' dimension numbers are the plain ones: rows by columns, no batch axis. -/
theorem dot2048_plain : dot_S512x1024_S1024x2048_S512x2048_1_0_0_1_n_n = DotDims.plain 512 1024 2048 := rfl
theorem dot128_plain : dot_S512x1024_S1024x128_S512x128_1_0_0_1_n_n = DotDims.plain 512 1024 128 := rfl

/-- The logistic of a vector, read at an index. -/
theorem logistic_apply {s : Shape} {φ : FTy} (a : FVec Ideal s φ) (i : s.Idx) : logistic a i = Ideal.logistic (a i) := rfl

/-- The v block at row `y`, feature `i`: silu of the row of x against column `i` of the weights plus the bias entry
    (the casts between [1,512,·] and [512,·] and the narrowing to bf16 change no value over the extended reals). -/
theorem proj_block_apply (x0 : Vec Ideal S1x512x1024 .f32) (w : Vec Ideal S1024x2048 .bf16) (b : Vec Ideal S1x2048 .f32)
    (u : Fin 1) (y : Fin 512) (i : Fin 2048) :
    k0_pay1 (k0_pay6 x0 w b) (ix3 u y i) = Spec.silu ((∑ e : Fin 1024, x0 (ix3 0 y e) * w (ix2 e i)) + b (ix2 0 i)) := by
  unfold k0_pay1 k0_pay6 k0_pay5
  rw [shapeCast_ab_1ab_apply]
  simp only [shapeCast_self, matmul]
  rw [truncf_apply, mulf_apply, logistic_apply, addf_apply, dot2048_plain, Cert.Lib.PlainDot.matmul_zero_apply, broadcastTo_1b_ab_apply]
  simp only [truncf_apply, shapeCast_1ab_ab_apply]
  rfl

/-- The gate block, likewise. -/
theorem gate_block_apply (x0 : Vec Ideal S1x512x1024 .f32) (w : Vec Ideal S1024x2048 .bf16) (b : Vec Ideal S1x2048 .f32)
    (u : Fin 1) (y : Fin 512) (i : Fin 2048) :
    k0_pay2 (k0_pay7 x0 w b) (ix3 u y i) = Spec.silu ((∑ e : Fin 1024, x0 (ix3 0 y e) * w (ix2 e i)) + b (ix2 0 i)) := by
  unfold k0_pay2 k0_pay7 k0_pay5
  rw [shapeCast_ab_1ab_apply]
  simp only [shapeCast_self, matmul]
  rw [truncf_apply, mulf_apply, logistic_apply, addf_apply, dot2048_plain, Cert.Lib.PlainDot.matmul_zero_apply, broadcastTo_1b_ab_apply]
  simp only [truncf_apply, shapeCast_1ab_ab_apply]
  rfl

/-- The shared projection of q and k at a row and a feature. -/
theorem u_block_apply (x0 : Vec Ideal S1x512x1024 .f32) (w : Vec Ideal S1024x128 .bf16) (b : Vec Ideal S1x128 .f32)
    (y : Fin 512) (i : Fin 128) :
    k0_pay8 x0 w b (ix2 y i) = Spec.silu ((∑ e : Fin 1024, x0 (ix3 0 y e) * w (ix2 e i)) + b (ix2 0 i)) := by
  unfold k0_pay8 k0_pay5
  simp only [shapeCast_self, matmul]
  rw [mulf_apply, logistic_apply, addf_apply, dot128_plain, Cert.Lib.PlainDot.matmul_zero_apply, broadcastTo_1b_ab_apply]
  simp only [truncf_apply, shapeCast_1ab_ab_apply]
  rfl

/-- The q block at row `y`, feature `i`: the shared projection times gamma plus beta. -/
theorem q_block_apply (x0 : Vec Ideal S1x512x1024 .f32) (w : Vec Ideal S1024x128 .bf16) (b g β : Vec Ideal S1x128 .f32)
    (u : Fin 1) (y : Fin 512) (i : Fin 128) :
    k0_pay3 (k0_pay9 x0 w b g) (k0_pay10 β) (ix3 u y i)
      = Spec.silu ((∑ e : Fin 1024, x0 (ix3 0 y e) * w (ix2 e i)) + b (ix2 0 i)) * g (ix2 0 i) + β (ix2 0 i) := by
  unfold k0_pay3 k0_pay9 k0_pay10
  rw [shapeCast_ab_1ab_apply]
  simp only [shapeCast_self]
  rw [truncf_apply, addf_apply, mulf_apply, u_block_apply, broadcastTo_1b_ab_apply, broadcastTo_1b_ab_apply]

/-- The k block, likewise. -/
theorem k_block_apply (x0 : Vec Ideal S1x512x1024 .f32) (w : Vec Ideal S1024x128 .bf16) (b g β : Vec Ideal S1x128 .f32)
    (u : Fin 1) (y : Fin 512) (i : Fin 128) :
    k0_pay4 (k0_pay8 x0 w b) g β (ix3 u y i)
      = Spec.silu ((∑ e : Fin 1024, x0 (ix3 0 y e) * w (ix2 e i)) + b (ix2 0 i)) * g (ix2 0 i) + β (ix2 0 i) := by
  unfold k0_pay4
  rw [shapeCast_ab_1ab_apply]
  simp only [shapeCast_self]
  rw [truncf_apply, addf_apply, mulf_apply, u_block_apply, broadcastTo_1b_ab_apply, broadcastTo_1b_ab_apply]

/-- The scaled and shifted projection, from its four parts. -/
theorem qk_congr {S S' B B' G G' T T' : EReal} (hS : S = S') (hB : B = B') (hG : G = G') (hT : T = T') :
    Spec.silu (S + B) * G + T = Spec.silu (S' + B') * G' + T' := by rw [hS, hB, hG, hT]

/-! ## Where each window's block sits -/

/-- The index maps over the sixteen points: point `t` is batch `t / 8`, row block `t % 8` for the x window and the
    four result windows; the weight and row windows stay at block zero. -/
theorem idx_facts : ∀ t : Fin cfg0.N,
    (win0_0.index t (0 : Fin 3) = t.val / 8 ∧ win0_0.index t (1 : Fin 3) = t.val % 8 ∧ win0_0.index t (2 : Fin 3) = 0)
    ∧ (win0_11.index t (0 : Fin 3) = t.val / 8 ∧ win0_11.index t (1 : Fin 3) = t.val % 8 ∧ win0_11.index t (2 : Fin 3) = 0)
    ∧ (win0_12.index t (0 : Fin 3) = t.val / 8 ∧ win0_12.index t (1 : Fin 3) = t.val % 8 ∧ win0_12.index t (2 : Fin 3) = 0)
    ∧ (win0_13.index t (0 : Fin 3) = t.val / 8 ∧ win0_13.index t (1 : Fin 3) = t.val % 8 ∧ win0_13.index t (2 : Fin 3) = 0)
    ∧ (win0_14.index t (0 : Fin 3) = t.val / 8 ∧ win0_14.index t (1 : Fin 3) = t.val % 8 ∧ win0_14.index t (2 : Fin 3) = 0) :=
  (by decide +kernel : ∀ t : Fin grid0.N, _)

/-- The weight and row windows stay at block zero. -/
theorem idx_const : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- The x window's block at point `t` is rows `512 (t % 8) …` of batch `t / 8` of x. -/
theorem x_blk_apply (c : Dev nD) (t : Fin cfg0.N) (y : S1x512x1024.Idx) (k : S2x4096x1024.Idx)
    (hk0 : (k 0).val = t.val / 8) (hk1 : (k 1).val = 512 * (t.val % 8) + (y 1).val) (hk2 : (k 2).val = (y 2).val) :
    (iblk0 V c 0 t : Vec Ideal S1x512x1024 .f32) y = (V c main_arg0 : S2x4096x1024.Idx → EReal) k := by
  obtain ⟨⟨e0, e1, e2⟩, -⟩ := idx_facts t
  have hy0 : (y 0).val < 1 := (y 0).isLt
  unfold iblk0
  rw [View.read_apply]
  show V c main_arg0 _ = V c main_arg0 _
  congr 1
  funext a
  apply Fin.ext
  match a with
  | ⟨0, _⟩ => show win0_0.index t (0 : Fin 3) * 1 + 1 * (y 0).val = (k 0).val; rw [e0, hk0]; omega
  | ⟨1, _⟩ => show win0_0.index t (1 : Fin 3) * 512 + 1 * (y 1).val = (k 1).val; rw [e1, hk1]; omega
  | ⟨2, _⟩ => show win0_0.index t (2 : Fin 3) * 1024 + 1 * (y 2).val = (k 2).val; rw [e2, hk2]; omega

/-- Window 1's block at every point is its whole array. -/
theorem blk1_apply (c : Dev nD) (t : Fin cfg0.N) (y : S1024x2048.Idx) :
    (iblk0 V c 1 t : Vec Ideal S1024x2048 .bf16) y = (V c main_v0 : S1024x2048.Idx → EReal) y := by
  obtain ⟨⟨e0, e1⟩, -, -, -, -, -, -, -, -, -⟩ := idx_const t
  unfold iblk0
  rw [View.read_apply]
  show V c main_v0 _ = V c main_v0 _
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 2048 + 1 * (y 1).val = (y 1).val; rw [e1]; omega

/-- Window 2's block at every point is its whole array. -/
theorem blk2_apply (c : Dev nD) (t : Fin cfg0.N) (y : S1x2048.Idx) :
    (iblk0 V c 2 t : Vec Ideal S1x2048 .f32) y = (V c main_v4 : S1x2048.Idx → EReal) y := by
  obtain ⟨-, ⟨e0, e1⟩, -, -, -, -, -, -, -, -⟩ := idx_const t
  unfold iblk0
  rw [View.read_apply]
  show V c main_v4 _ = V c main_v4 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 2048 + 1 * (y 1).val = (y 1).val; rw [e1]; omega

/-- Window 3's block at every point is its whole array. -/
theorem blk3_apply (c : Dev nD) (t : Fin cfg0.N) (y : S1024x2048.Idx) :
    (iblk0 V c 3 t : Vec Ideal S1024x2048 .bf16) y = (V c main_v1 : S1024x2048.Idx → EReal) y := by
  obtain ⟨-, -, ⟨e0, e1⟩, -, -, -, -, -, -, -⟩ := idx_const t
  unfold iblk0
  rw [View.read_apply]
  show V c main_v1 _ = V c main_v1 _
  congr 1
  funext a
  apply Fin.ext
  match a with
  | ⟨0, _⟩ => show win0_3.index t (0 : Fin 2) * 1024 + 1 * (y 0).val = (y 0).val; rw [e0]; omega
  | ⟨1, _⟩ => show win0_3.index t (1 : Fin 2) * 2048 + 1 * (y 1).val = (y 1).val; rw [e1]; omega

/-- Window 4's block at every point is its whole array. -/
theorem blk4_apply (c : Dev nD) (t : Fin cfg0.N) (y : S1x2048.Idx) :
    (iblk0 V c 4 t : Vec Ideal S1x2048 .f32) y = (V c main_v5 : S1x2048.Idx → EReal) y := by
  obtain ⟨-, -, -, ⟨e0, e1⟩, -, -, -, -, -, -⟩ := idx_const t
  unfold iblk0
  rw [View.read_apply]
  show V c main_v5 _ = V c main_v5 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 2048 + 1 * (y 1).val = (y 1).val; rw [e1]; omega

/-- Window 5's block at every point is its whole array. -/
theorem blk5_apply (c : Dev nD) (t : Fin cfg0.N) (y : S1024x128.Idx) :
    (iblk0 V c 5 t : Vec Ideal S1024x128 .bf16) y = (V c main_v2 : S1024x128.Idx → EReal) y := by
  obtain ⟨-, -, -, -, ⟨e0, e1⟩, -, -, -, -, -⟩ := idx_const t
  unfold iblk0
  rw [View.read_apply]
  show V c main_v2 _ = V c main_v2 _
  congr 1
  funext a
  apply Fin.ext
  match a with
  | ⟨0, _⟩ => show win0_5.index t (0 : Fin 2) * 1024 + 1 * (y 0).val = (y 0).val; rw [e0]; omega
  | ⟨1, _⟩ => show win0_5.index t (1 : Fin 2) * 128 + 1 * (y 1).val = (y 1).val; rw [e1]; omega

/-- Window 6's block at every point is its whole array. -/
theorem blk6_apply (c : Dev nD) (t : Fin cfg0.N) (y : S1x128.Idx) :
    (iblk0 V c 6 t : Vec Ideal S1x128 .f32) y = (V c main_v6 : S1x128.Idx → EReal) y := by
  obtain ⟨-, -, -, -, -, ⟨e0, e1⟩, -, -, -, -⟩ := idx_const t
  unfold iblk0
  rw [View.read_apply]
  show V c main_v6 _ = V c main_v6 _
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- Window 7's block at every point is its whole array. -/
theorem blk7_apply (c : Dev nD) (t : Fin cfg0.N) (y : S1x128.Idx) :
    (iblk0 V c 7 t : Vec Ideal S1x128 .f32) y = (V c main_v7 : S1x128.Idx → EReal) y := by
  obtain ⟨-, -, -, -, -, -, ⟨e0, e1⟩, -, -, -⟩ := idx_const t
  unfold iblk0
  rw [View.read_apply]
  show V c main_v7 _ = V c main_v7 _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-- Window 8's block at every point is its whole array. -/
theorem blk8_apply (c : Dev nD) (t : Fin cfg0.N) (y : S1x128.Idx) :
    (iblk0 V c 8 t : Vec Ideal S1x128 .f32) y = (V c main_v8 : S1x128.Idx → EReal) y := by
  obtain ⟨-, -, -, -, -, -, -, ⟨e0, e1⟩, -, -⟩ := idx_const t
  unfold iblk0
  rw [View.read_apply]
  show V c main_v8 _ = V c main_v8 _
  congr 1
  funext a
  apply Fin.ext
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega

/-- Window 9's block at every point is its whole array. -/
theorem blk9_apply (c : Dev nD) (t : Fin cfg0.N) (y : S1x128.Idx) :
    (iblk0 V c 9 t : Vec Ideal S1x128 .f32) y = (V c main_v9 : S1x128.Idx → EReal) y := by
  obtain ⟨-, -, -, -, -, -, -, -, ⟨e0, e1⟩, -⟩ := idx_const t
  unfold iblk0
  rw [View.read_apply]
  show V c main_v9 _ = V c main_v9 _
  congr 1
  funext a
  apply Fin.ext
  match a with
  | ⟨0, _⟩ => show win0_9.index t (0 : Fin 2) * 1 + 1 * (y 0).val = (y 0).val; rw [e0]; omega
  | ⟨1, _⟩ => show win0_9.index t (1 : Fin 2) * 128 + 1 * (y 1).val = (y 1).val; rw [e1]; omega

/-- Window 10's block at every point is its whole array. -/
theorem blk10_apply (c : Dev nD) (t : Fin cfg0.N) (y : S1x128.Idx) :
    (iblk0 V c 10 t : Vec Ideal S1x128 .f32) y = (V c main_v10 : S1x128.Idx → EReal) y := by
  obtain ⟨-, -, -, -, -, -, -, -, -, ⟨e0, e1⟩⟩ := idx_const t
  unfold iblk0
  rw [View.read_apply]
  show V c main_v10 _ = V c main_v10 _
  congr 1
  funext a
  apply Fin.ext
  match a with
  | ⟨0, _⟩ => show win0_10.index t (0 : Fin 2) * 1 + 1 * (y 0).val = (y 0).val; rw [e0]; omega
  | ⟨1, _⟩ => show win0_10.index t (1 : Fin 2) * 128 + 1 * (y 1).val = (y 1).val; rw [e1]; omega

/-! ## The v array -/

/-- What point `t` leaves in the v window, at row `y`, feature `i` of the block: the projection at the array's row. -/
theorem v_point (c : Dev nD) (x : S2x4096x1024.Idx → EReal) (W : S1024x2048.Idx → EReal) (b : Fin 2048 → EReal)
    (hx : (V c main_arg0 : S2x4096x1024.Idx → EReal) = x) (hW : (V c main_v0 : S1024x2048.Idx → EReal) = W)
    (hb : ∀ i : Fin 2048, (V c main_v4 : S1x2048.Idx → EReal) (ix2 0 i) = b i)
    (t : Fin cfg0.N) (u : Fin 1) (y : Fin 512) (i : Fin 2048) (p : Fin 2) (n : Fin 4096) (i' : Fin 2048)
    (hp : p.val = t.val / 8) (hn : n.val = 512 * (t.val % 8) + y.val) (hi : i'.val = i.val) :
    out0_11 (iblk0 V c 0 t) (iblk0 V c 1 t) (iblk0 V c 2 t) (ix3 u y i) = Spec.proj x W b p n i' := by
  obtain rfl : i = i' := (Fin.ext hi).symm
  unfold out0_11
  refine (proj_block_apply _ _ _ u y i).trans ?_
  unfold Spec.proj
  congr 2
  · refine Finset.sum_congr rfl fun e _ => ?_
    rw [x_blk_apply V c t (ix3 0 y e) (ix3 p n e) hp hn rfl, blk1_apply, hx, hW]
  · rw [blk2_apply, hb]

/-- An index of the v array is in point `t`'s block iff each coordinate is in the block's range on its axis. -/
theorem mem_blk11 (t : Fin cfg0.N) (i : S2x4096x2048.Idx) :
    i ∈ ((cfg0.win 11).blk t).view.set ↔ ∀ a : Fin 3, win0_11.index t a * S1x512x2048.size a ≤ (i a).val ∧ (i a).val < win0_11.index t a * S1x512x2048.size a + S1x512x2048.size a := by
  show i ∈ ((View.whole main_v12_0).slice (win0_11.rect t)).set ↔ _
  rw [View.set_slice_whole, Rect.mem_set_unit]
  exact Iff.rfl

/-- What point `t` writes back to the v array is block `t` of the projection. -/
theorem v_flushed (c : Dev nD) (x : S2x4096x1024.Idx → EReal) (W : S1024x2048.Idx → EReal) (b : Fin 2048 → EReal)
    (hx : (V c main_arg0 : S2x4096x1024.Idx → EReal) = x) (hW : (V c main_v0 : S1024x2048.Idx → EReal) = W)
    (hb : ∀ i : Fin 2048, (V c main_v4 : S1x2048.Idx → EReal) (ix2 0 i) = b i) (t : Fin cfg0.N) :
    (dat0 V c).flushed 11 t = ((cfg0.win 11).blk t).view.read (Elt Ideal) (fun j : S2x4096x2048.Idx => Spec.proj x W b (j 0) (j 1) (j 2)) := by
  show (cfg0.win 11).cut (grid0.coords t) ((dat0 V c).after 11 t) = _
  rw [after0_11]
  obtain ⟨-, ⟨e0, e1, e2⟩, -⟩ := idx_facts t
  refine funext fun (j : S1x512x2048.Idx) => ?_
  obtain ⟨u, y, i, rfl⟩ : ∃ (u : Fin 1) (y : Fin 512) (i : Fin 2048), j = ix3 u y i := ⟨j 0, j 1, j 2, eq_ix3 j⟩
  rw [View.read_apply]
  refine v_point V c x W b hx hW hb t u y i _ _ _ ?_ ?_ ?_
  · show win0_11.index t (0 : Fin 3) * 1 + 1 * u.val = t.val / 8; rw [e0]; omega
  · show win0_11.index t (1 : Fin 3) * 512 + 1 * y.val = 512 * (t.val % 8) + y.val; rw [e1]; omega
  · show win0_11.index t (2 : Fin 3) * 2048 + 1 * i.val = i.val; rw [e2]; omega

/-- The sixteen blocks tile the v array: row `r` of batch `p` is in the block of point `8 p + r / 512`. -/
theorem v_cover (i : S2x4096x2048.Idx) : ∃ t : Fin cfg0.N, (cfg0.win 11).flush t = true ∧ i ∈ ((cfg0.win 11).blk t).view.set := by
  have h0 : (i 0).val < 2 := (i 0).isLt
  have h1 : (i 1).val < 4096 := (i 1).isLt
  have h2 : (i 2).val < 2048 := (i 2).isLt
  have hN : cfg0.N = 16 := N_0
  refine ⟨⟨8 * (i 0).val + (i 1).val / 512, by rw [hN]; omega⟩, flush0_11 _, ?_⟩
  obtain ⟨-, ⟨e0, e1, e2⟩, -⟩ := idx_facts ⟨8 * (i 0).val + (i 1).val / 512, by rw [hN]; omega⟩
  rw [mem_blk11]
  intro a
  match a with
  | ⟨0, _⟩ => show win0_11.index _ (0 : Fin 3) * 1 ≤ (i 0).val ∧ (i 0).val < win0_11.index _ (0 : Fin 3) * 1 + 1; rw [e0]; show (8 * (i 0).val + (i 1).val / 512) / 8 * 1 ≤ (i 0).val ∧ (i 0).val < (8 * (i 0).val + (i 1).val / 512) / 8 * 1 + 1; omega
  | ⟨1, _⟩ => show win0_11.index _ (1 : Fin 3) * 512 ≤ (i 1).val ∧ (i 1).val < win0_11.index _ (1 : Fin 3) * 512 + 512; rw [e1]; show (8 * (i 0).val + (i 1).val / 512) % 8 * 512 ≤ (i 1).val ∧ (i 1).val < (8 * (i 0).val + (i 1).val / 512) % 8 * 512 + 512; omega
  | ⟨2, _⟩ => show win0_11.index _ (2 : Fin 3) * 2048 ≤ (i 2).val ∧ (i 2).val < win0_11.index _ (2 : Fin 3) * 2048 + 2048; rw [e2]; omega

/-! ## The gate array -/

/-- What point `t` leaves in the gate window, at row `y`, feature `i` of the block: the projection at the array's row. -/
theorem gate_point (c : Dev nD) (x : S2x4096x1024.Idx → EReal) (W : S1024x2048.Idx → EReal) (b : Fin 2048 → EReal)
    (hx : (V c main_arg0 : S2x4096x1024.Idx → EReal) = x) (hW : (V c main_v1 : S1024x2048.Idx → EReal) = W)
    (hb : ∀ i : Fin 2048, (V c main_v5 : S1x2048.Idx → EReal) (ix2 0 i) = b i)
    (t : Fin cfg0.N) (u : Fin 1) (y : Fin 512) (i : Fin 2048) (p : Fin 2) (n : Fin 4096) (i' : Fin 2048)
    (hp : p.val = t.val / 8) (hn : n.val = 512 * (t.val % 8) + y.val) (hi : i'.val = i.val) :
    out0_12 (iblk0 V c 0 t) (iblk0 V c 3 t) (iblk0 V c 4 t) (ix3 u y i) = Spec.proj x W b p n i' := by
  obtain rfl : i = i' := (Fin.ext hi).symm
  unfold out0_12
  refine (gate_block_apply _ _ _ u y i).trans ?_
  unfold Spec.proj
  congr 2
  · refine Finset.sum_congr rfl fun e _ => ?_
    rw [x_blk_apply V c t (ix3 0 y e) (ix3 p n e) hp hn rfl, blk3_apply, hx, hW]
  · rw [blk4_apply, hb]

/-- An index of the gate array is in point `t`'s block iff each coordinate is in the block's range on its axis. -/
theorem mem_blk12 (t : Fin cfg0.N) (i : S2x4096x2048.Idx) :
    i ∈ ((cfg0.win 12).blk t).view.set ↔ ∀ a : Fin 3, win0_12.index t a * S1x512x2048.size a ≤ (i a).val ∧ (i a).val < win0_12.index t a * S1x512x2048.size a + S1x512x2048.size a := by
  show i ∈ ((View.whole main_v12_1).slice (win0_12.rect t)).set ↔ _
  rw [View.set_slice_whole, Rect.mem_set_unit]
  exact Iff.rfl

/-- What point `t` writes back to the gate array is block `t` of the projection. -/
theorem gate_flushed (c : Dev nD) (x : S2x4096x1024.Idx → EReal) (W : S1024x2048.Idx → EReal) (b : Fin 2048 → EReal)
    (hx : (V c main_arg0 : S2x4096x1024.Idx → EReal) = x) (hW : (V c main_v1 : S1024x2048.Idx → EReal) = W)
    (hb : ∀ i : Fin 2048, (V c main_v5 : S1x2048.Idx → EReal) (ix2 0 i) = b i) (t : Fin cfg0.N) :
    (dat0 V c).flushed 12 t = ((cfg0.win 12).blk t).view.read (Elt Ideal) (fun j : S2x4096x2048.Idx => Spec.proj x W b (j 0) (j 1) (j 2)) := by
  show (cfg0.win 12).cut (grid0.coords t) ((dat0 V c).after 12 t) = _
  rw [after0_12]
  obtain ⟨-, -, ⟨e0, e1, e2⟩, -⟩ := idx_facts t
  refine funext fun (j : S1x512x2048.Idx) => ?_
  obtain ⟨u, y, i, rfl⟩ : ∃ (u : Fin 1) (y : Fin 512) (i : Fin 2048), j = ix3 u y i := ⟨j 0, j 1, j 2, eq_ix3 j⟩
  rw [View.read_apply]
  refine gate_point V c x W b hx hW hb t u y i _ _ _ ?_ ?_ ?_
  · show win0_12.index t (0 : Fin 3) * 1 + 1 * u.val = t.val / 8; rw [e0]; omega
  · show win0_12.index t (1 : Fin 3) * 512 + 1 * y.val = 512 * (t.val % 8) + y.val; rw [e1]; omega
  · show win0_12.index t (2 : Fin 3) * 2048 + 1 * i.val = i.val; rw [e2]; omega

/-- The sixteen blocks tile the gate array: row `r` of batch `p` is in the block of point `8 p + r / 512`. -/
theorem gate_cover (i : S2x4096x2048.Idx) : ∃ t : Fin cfg0.N, (cfg0.win 12).flush t = true ∧ i ∈ ((cfg0.win 12).blk t).view.set := by
  have h0 : (i 0).val < 2 := (i 0).isLt
  have h1 : (i 1).val < 4096 := (i 1).isLt
  have h2 : (i 2).val < 2048 := (i 2).isLt
  have hN : cfg0.N = 16 := N_0
  refine ⟨⟨8 * (i 0).val + (i 1).val / 512, by rw [hN]; omega⟩, flush0_12 _, ?_⟩
  obtain ⟨-, -, ⟨e0, e1, e2⟩, -⟩ := idx_facts ⟨8 * (i 0).val + (i 1).val / 512, by rw [hN]; omega⟩
  rw [mem_blk12]
  intro a
  match a with
  | ⟨0, _⟩ => show win0_12.index _ (0 : Fin 3) * 1 ≤ (i 0).val ∧ (i 0).val < win0_12.index _ (0 : Fin 3) * 1 + 1; rw [e0]; show (8 * (i 0).val + (i 1).val / 512) / 8 * 1 ≤ (i 0).val ∧ (i 0).val < (8 * (i 0).val + (i 1).val / 512) / 8 * 1 + 1; omega
  | ⟨1, _⟩ => show win0_12.index _ (1 : Fin 3) * 512 ≤ (i 1).val ∧ (i 1).val < win0_12.index _ (1 : Fin 3) * 512 + 512; rw [e1]; show (8 * (i 0).val + (i 1).val / 512) % 8 * 512 ≤ (i 1).val ∧ (i 1).val < (8 * (i 0).val + (i 1).val / 512) % 8 * 512 + 512; omega
  | ⟨2, _⟩ => show win0_12.index _ (2 : Fin 3) * 2048 ≤ (i 2).val ∧ (i 2).val < win0_12.index _ (2 : Fin 3) * 2048 + 2048; rw [e2]; omega

/-! ## The q array -/

/-- What point `t` leaves in the q window, at row `y`, feature `i` of the block: the shared projection at the array's
    row, scaled and shifted per feature. -/
theorem q_point (c : Dev nD) (x : S2x4096x1024.Idx → EReal) (W : S1024x128.Idx → EReal) (bi g β : Fin 128 → EReal)
    (hx : (V c main_arg0 : S2x4096x1024.Idx → EReal) = x) (hW : (V c main_v2 : S1024x128.Idx → EReal) = W)
    (hbi : ∀ i : Fin 128, (V c main_v6 : S1x128.Idx → EReal) (ix2 0 i) = bi i)
    (hg : ∀ i : Fin 128, (V c main_v7 : S1x128.Idx → EReal) (ix2 0 i) = g i)
    (hβ : ∀ i : Fin 128, (V c main_v8 : S1x128.Idx → EReal) (ix2 0 i) = β i)
    (t : Fin cfg0.N) (u : Fin 1) (y : Fin 512) (i : Fin 128) (p : Fin 2) (n : Fin 4096) (i' : Fin 128)
    (hp : p.val = t.val / 8) (hn : n.val = 512 * (t.val % 8) + y.val) (hi : i'.val = i.val) :
    out0_13 (iblk0 V c 0 t) (iblk0 V c 5 t) (iblk0 V c 6 t) (iblk0 V c 7 t) (iblk0 V c 8 t) (ix3 u y i) = Spec.qk x W bi g β p n i' := by
  obtain rfl : i = i' := (Fin.ext hi).symm
  unfold out0_13
  refine (q_block_apply _ _ _ _ _ u y i).trans ?_
  unfold Spec.qk Spec.proj
  refine qk_congr (Finset.sum_congr rfl fun e _ => ?_) ?_ ?_ ?_
  · rw [x_blk_apply V c t (ix3 0 y e) (ix3 p n e) hp hn rfl, blk5_apply, hx, hW]
  · rw [blk6_apply, hbi]
  · rw [blk7_apply, hg]
  · rw [blk8_apply, hβ]

/-- An index of the q array is in point `t`'s block iff each coordinate is in the block's range on its axis. -/
theorem mem_blk13 (t : Fin cfg0.N) (i : S2x4096x128.Idx) :
    i ∈ ((cfg0.win 13).blk t).view.set ↔ ∀ a : Fin 3, win0_13.index t a * S1x512x128.size a ≤ (i a).val ∧ (i a).val < win0_13.index t a * S1x512x128.size a + S1x512x128.size a := by
  show i ∈ ((View.whole main_v12_2).slice (win0_13.rect t)).set ↔ _
  rw [View.set_slice_whole, Rect.mem_set_unit]
  exact Iff.rfl

/-- What point `t` writes back to the q array is block `t` of that function. -/
theorem q_flushed (c : Dev nD) (x : S2x4096x1024.Idx → EReal) (W : S1024x128.Idx → EReal) (bi g β : Fin 128 → EReal)
    (hx : (V c main_arg0 : S2x4096x1024.Idx → EReal) = x) (hW : (V c main_v2 : S1024x128.Idx → EReal) = W)
    (hbi : ∀ i : Fin 128, (V c main_v6 : S1x128.Idx → EReal) (ix2 0 i) = bi i)
    (hg : ∀ i : Fin 128, (V c main_v7 : S1x128.Idx → EReal) (ix2 0 i) = g i)
    (hβ : ∀ i : Fin 128, (V c main_v8 : S1x128.Idx → EReal) (ix2 0 i) = β i) (t : Fin cfg0.N) :
    (dat0 V c).flushed 13 t = ((cfg0.win 13).blk t).view.read (Elt Ideal) (fun j : S2x4096x128.Idx => Spec.qk x W bi g β (j 0) (j 1) (j 2)) := by
  show (cfg0.win 13).cut (grid0.coords t) ((dat0 V c).after 13 t) = _
  rw [after0_13]
  obtain ⟨-, -, -, ⟨e0, e1, e2⟩, -⟩ := idx_facts t
  refine funext fun (j : S1x512x128.Idx) => ?_
  obtain ⟨u, y, i, rfl⟩ : ∃ (u : Fin 1) (y : Fin 512) (i : Fin 128), j = ix3 u y i := ⟨j 0, j 1, j 2, eq_ix3 j⟩
  rw [View.read_apply]
  refine q_point V c x W bi g β hx hW hbi hg hβ t u y i _ _ _ ?_ ?_ ?_
  · show win0_13.index t (0 : Fin 3) * 1 + 1 * u.val = t.val / 8; rw [e0]; omega
  · show win0_13.index t (1 : Fin 3) * 512 + 1 * y.val = 512 * (t.val % 8) + y.val; rw [e1]; omega
  · show win0_13.index t (2 : Fin 3) * 128 + 1 * i.val = i.val; rw [e2]; omega

/-- The sixteen blocks tile the q array: row `r` of batch `p` is in the block of point `8 p + r / 512`. -/
theorem q_cover (i : S2x4096x128.Idx) : ∃ t : Fin cfg0.N, (cfg0.win 13).flush t = true ∧ i ∈ ((cfg0.win 13).blk t).view.set := by
  have h0 : (i 0).val < 2 := (i 0).isLt
  have h1 : (i 1).val < 4096 := (i 1).isLt
  have h2 : (i 2).val < 128 := (i 2).isLt
  have hN : cfg0.N = 16 := N_0
  refine ⟨⟨8 * (i 0).val + (i 1).val / 512, by rw [hN]; omega⟩, flush0_13 _, ?_⟩
  obtain ⟨-, -, -, ⟨e0, e1, e2⟩, -⟩ := idx_facts ⟨8 * (i 0).val + (i 1).val / 512, by rw [hN]; omega⟩
  rw [mem_blk13]
  intro a
  match a with
  | ⟨0, _⟩ => show win0_13.index _ (0 : Fin 3) * 1 ≤ (i 0).val ∧ (i 0).val < win0_13.index _ (0 : Fin 3) * 1 + 1; rw [e0]; show (8 * (i 0).val + (i 1).val / 512) / 8 * 1 ≤ (i 0).val ∧ (i 0).val < (8 * (i 0).val + (i 1).val / 512) / 8 * 1 + 1; omega
  | ⟨1, _⟩ => show win0_13.index _ (1 : Fin 3) * 512 ≤ (i 1).val ∧ (i 1).val < win0_13.index _ (1 : Fin 3) * 512 + 512; rw [e1]; show (8 * (i 0).val + (i 1).val / 512) % 8 * 512 ≤ (i 1).val ∧ (i 1).val < (8 * (i 0).val + (i 1).val / 512) % 8 * 512 + 512; omega
  | ⟨2, _⟩ => show win0_13.index _ (2 : Fin 3) * 128 ≤ (i 2).val ∧ (i 2).val < win0_13.index _ (2 : Fin 3) * 128 + 128; rw [e2]; omega

/-! ## The k array -/

/-- What point `t` leaves in the k window, at row `y`, feature `i` of the block: the shared projection at the array's
    row, scaled and shifted per feature. -/
theorem k_point (c : Dev nD) (x : S2x4096x1024.Idx → EReal) (W : S1024x128.Idx → EReal) (bi g β : Fin 128 → EReal)
    (hx : (V c main_arg0 : S2x4096x1024.Idx → EReal) = x) (hW : (V c main_v2 : S1024x128.Idx → EReal) = W)
    (hbi : ∀ i : Fin 128, (V c main_v6 : S1x128.Idx → EReal) (ix2 0 i) = bi i)
    (hg : ∀ i : Fin 128, (V c main_v9 : S1x128.Idx → EReal) (ix2 0 i) = g i)
    (hβ : ∀ i : Fin 128, (V c main_v10 : S1x128.Idx → EReal) (ix2 0 i) = β i)
    (t : Fin cfg0.N) (u : Fin 1) (y : Fin 512) (i : Fin 128) (p : Fin 2) (n : Fin 4096) (i' : Fin 128)
    (hp : p.val = t.val / 8) (hn : n.val = 512 * (t.val % 8) + y.val) (hi : i'.val = i.val) :
    out0_14 (iblk0 V c 0 t) (iblk0 V c 5 t) (iblk0 V c 6 t) (iblk0 V c 9 t) (iblk0 V c 10 t) (ix3 u y i) = Spec.qk x W bi g β p n i' := by
  obtain rfl : i = i' := (Fin.ext hi).symm
  unfold out0_14
  refine (k_block_apply _ _ _ _ _ u y i).trans ?_
  unfold Spec.qk Spec.proj
  refine qk_congr (Finset.sum_congr rfl fun e _ => ?_) ?_ ?_ ?_
  · rw [x_blk_apply V c t (ix3 0 y e) (ix3 p n e) hp hn rfl, blk5_apply, hx, hW]
  · rw [blk6_apply, hbi]
  · rw [blk9_apply, hg]
  · rw [blk10_apply, hβ]

/-- An index of the k array is in point `t`'s block iff each coordinate is in the block's range on its axis. -/
theorem mem_blk14 (t : Fin cfg0.N) (i : S2x4096x128.Idx) :
    i ∈ ((cfg0.win 14).blk t).view.set ↔ ∀ a : Fin 3, win0_14.index t a * S1x512x128.size a ≤ (i a).val ∧ (i a).val < win0_14.index t a * S1x512x128.size a + S1x512x128.size a := by
  show i ∈ ((View.whole main_v12_3).slice (win0_14.rect t)).set ↔ _
  rw [View.set_slice_whole, Rect.mem_set_unit]
  exact Iff.rfl

/-- What point `t` writes back to the k array is block `t` of that function. -/
theorem k_flushed (c : Dev nD) (x : S2x4096x1024.Idx → EReal) (W : S1024x128.Idx → EReal) (bi g β : Fin 128 → EReal)
    (hx : (V c main_arg0 : S2x4096x1024.Idx → EReal) = x) (hW : (V c main_v2 : S1024x128.Idx → EReal) = W)
    (hbi : ∀ i : Fin 128, (V c main_v6 : S1x128.Idx → EReal) (ix2 0 i) = bi i)
    (hg : ∀ i : Fin 128, (V c main_v9 : S1x128.Idx → EReal) (ix2 0 i) = g i)
    (hβ : ∀ i : Fin 128, (V c main_v10 : S1x128.Idx → EReal) (ix2 0 i) = β i) (t : Fin cfg0.N) :
    (dat0 V c).flushed 14 t = ((cfg0.win 14).blk t).view.read (Elt Ideal) (fun j : S2x4096x128.Idx => Spec.qk x W bi g β (j 0) (j 1) (j 2)) := by
  show (cfg0.win 14).cut (grid0.coords t) ((dat0 V c).after 14 t) = _
  rw [after0_14]
  obtain ⟨-, -, -, -, ⟨e0, e1, e2⟩⟩ := idx_facts t
  refine funext fun (j : S1x512x128.Idx) => ?_
  obtain ⟨u, y, i, rfl⟩ : ∃ (u : Fin 1) (y : Fin 512) (i : Fin 128), j = ix3 u y i := ⟨j 0, j 1, j 2, eq_ix3 j⟩
  rw [View.read_apply]
  refine k_point V c x W bi g β hx hW hbi hg hβ t u y i _ _ _ ?_ ?_ ?_
  · show win0_14.index t (0 : Fin 3) * 1 + 1 * u.val = t.val / 8; rw [e0]; omega
  · show win0_14.index t (1 : Fin 3) * 512 + 1 * y.val = 512 * (t.val % 8) + y.val; rw [e1]; omega
  · show win0_14.index t (2 : Fin 3) * 128 + 1 * i.val = i.val; rw [e2]; omega

/-- The sixteen blocks tile the k array: row `r` of batch `p` is in the block of point `8 p + r / 512`. -/
theorem k_cover (i : S2x4096x128.Idx) : ∃ t : Fin cfg0.N, (cfg0.win 14).flush t = true ∧ i ∈ ((cfg0.win 14).blk t).view.set := by
  have h0 : (i 0).val < 2 := (i 0).isLt
  have h1 : (i 1).val < 4096 := (i 1).isLt
  have h2 : (i 2).val < 128 := (i 2).isLt
  have hN : cfg0.N = 16 := N_0
  refine ⟨⟨8 * (i 0).val + (i 1).val / 512, by rw [hN]; omega⟩, flush0_14 _, ?_⟩
  obtain ⟨-, -, -, -, ⟨e0, e1, e2⟩⟩ := idx_facts ⟨8 * (i 0).val + (i 1).val / 512, by rw [hN]; omega⟩
  rw [mem_blk14]
  intro a
  match a with
  | ⟨0, _⟩ => show win0_14.index _ (0 : Fin 3) * 1 ≤ (i 0).val ∧ (i 0).val < win0_14.index _ (0 : Fin 3) * 1 + 1; rw [e0]; show (8 * (i 0).val + (i 1).val / 512) / 8 * 1 ≤ (i 0).val ∧ (i 0).val < (8 * (i 0).val + (i 1).val / 512) / 8 * 1 + 1; omega
  | ⟨1, _⟩ => show win0_14.index _ (1 : Fin 3) * 512 ≤ (i 1).val ∧ (i 1).val < win0_14.index _ (1 : Fin 3) * 512 + 512; rw [e1]; show (8 * (i 0).val + (i 1).val / 512) % 8 * 512 ≤ (i 1).val ∧ (i 1).val < (8 * (i 0).val + (i 1).val / 512) % 8 * 512 + 512; omega
  | ⟨2, _⟩ => show win0_14.index _ (2 : Fin 3) * 128 ≤ (i 2).val ∧ (i 2).val < win0_14.index _ (2 : Fin 3) * 128 + 128; rw [e2]; omega

end Proj

open Proj

/-! ## The four arrays -/

/-- The v array after the first region. -/
theorem v_arr_of (c : Dev nD) (x : S2x4096x1024.Idx → EReal) (W : S1024x2048.Idx → EReal) (b : Fin 2048 → EReal)
    (hx : (V c main_arg0 : S2x4096x1024.Idx → EReal) = x) (hW : (V c main_v0 : S1024x2048.Idx → EReal) = W)
    (hb : ∀ i : Fin 2048, (V c main_v4 : S1x2048.Idx → EReal) (ix2 0 i) = b i) :
    ((dat0 V c).arrAt 11 cfg0.N : S2x4096x2048.Idx → EReal) = fun j => Spec.proj x W b (j 0) (j 1) (j 2) :=
  (dat0 V c).arrAt_eq_of_cover 11 (fun j : S2x4096x2048.Idx => Spec.proj x W b (j 0) (j 1) (j 2))
    (fun t _ => v_flushed V c x W b hx hW hb t) v_cover

/-- The gate array after the first region. -/
theorem gate_arr_of (c : Dev nD) (x : S2x4096x1024.Idx → EReal) (W : S1024x2048.Idx → EReal) (b : Fin 2048 → EReal)
    (hx : (V c main_arg0 : S2x4096x1024.Idx → EReal) = x) (hW : (V c main_v1 : S1024x2048.Idx → EReal) = W)
    (hb : ∀ i : Fin 2048, (V c main_v5 : S1x2048.Idx → EReal) (ix2 0 i) = b i) :
    ((dat0 V c).arrAt 12 cfg0.N : S2x4096x2048.Idx → EReal) = fun j => Spec.proj x W b (j 0) (j 1) (j 2) :=
  (dat0 V c).arrAt_eq_of_cover 12 (fun j : S2x4096x2048.Idx => Spec.proj x W b (j 0) (j 1) (j 2))
    (fun t _ => gate_flushed V c x W b hx hW hb t) gate_cover

/-- The q array after the first region. -/
theorem q_arr_of (c : Dev nD) (x : S2x4096x1024.Idx → EReal) (W : S1024x128.Idx → EReal) (bi g β : Fin 128 → EReal)
    (hx : (V c main_arg0 : S2x4096x1024.Idx → EReal) = x) (hW : (V c main_v2 : S1024x128.Idx → EReal) = W)
    (hbi : ∀ i : Fin 128, (V c main_v6 : S1x128.Idx → EReal) (ix2 0 i) = bi i)
    (hg : ∀ i : Fin 128, (V c main_v7 : S1x128.Idx → EReal) (ix2 0 i) = g i)
    (hβ : ∀ i : Fin 128, (V c main_v8 : S1x128.Idx → EReal) (ix2 0 i) = β i) :
    ((dat0 V c).arrAt 13 cfg0.N : S2x4096x128.Idx → EReal) = fun j => Spec.qk x W bi g β (j 0) (j 1) (j 2) :=
  (dat0 V c).arrAt_eq_of_cover 13 (fun j : S2x4096x128.Idx => Spec.qk x W bi g β (j 0) (j 1) (j 2))
    (fun t _ => q_flushed V c x W bi g β hx hW hbi hg hβ t) q_cover

/-- The k array after the first region. -/
theorem k_arr_of (c : Dev nD) (x : S2x4096x1024.Idx → EReal) (W : S1024x128.Idx → EReal) (bi g β : Fin 128 → EReal)
    (hx : (V c main_arg0 : S2x4096x1024.Idx → EReal) = x) (hW : (V c main_v2 : S1024x128.Idx → EReal) = W)
    (hbi : ∀ i : Fin 128, (V c main_v6 : S1x128.Idx → EReal) (ix2 0 i) = bi i)
    (hg : ∀ i : Fin 128, (V c main_v9 : S1x128.Idx → EReal) (ix2 0 i) = g i)
    (hβ : ∀ i : Fin 128, (V c main_v10 : S1x128.Idx → EReal) (ix2 0 i) = β i) :
    ((dat0 V c).arrAt 14 cfg0.N : S2x4096x128.Idx → EReal) = fun j => Spec.qk x W bi g β (j 0) (j 1) (j 2) :=
  (dat0 V c).arrAt_eq_of_cover 14 (fun j : S2x4096x128.Idx => Spec.qk x W bi g β (j 0) (j 1) (j 2))
    (fun t _ => k_flushed V c x W bi g β hx hW hbi hg hβ t) k_cover

end Cert.KernelIdeal.Val

end
-- ==== Proof.KI.Pay1.lean ====
/-
  The second region's first two stored values, read at an index over the extended reals, as functions of the blocks the body
  loads: the zero reset; the accumulator plus the key block's causal squared-relu weights against the value block.
-/
import proofs.«110127_j80247168959185_1_alg».proof.Proof.Gen.KernelIdeal.Skeleton
import proofs.«110127_j80247168959185_1_alg».proof.Proof.Spec
import proofs.«110127_j80247168959185_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules
import Idealize.ShloMosaic.Lib.StableHlo.Predicate

set_option maxRecDepth 16384

noncomputable section

namespace Cert.KernelIdeal.Val

open Idealize.ShloMosaic Idealize.ShloMosaic.TcCoe Idealize.ShloMosaic.ValueIdx
open Cert.KernelIdeal Cert.KernelIdeal.Gen

/-- The named reciprocal of the scale denotes 262144 / 11863283. -/
theorem inv_scale_eq : Named.named (F := Ideal) Cert.KernelIdeal.κ "inv_scale" (φ := .f32) 0x3CB504F3#32 = Spec.cE := by
  unfold Spec.cE
  exact IdealRules.named_const.ideal_named_scalar _ _ _ _ rfl

/-- The reset value is zero everywhere. -/
theorem pay1_apply (j : S512x2048.Idx) : (k1_pay1 (F := Ideal) : S512x2048.Idx → EReal) j = 0 := by
  unfold k1_pay1
  rw [shapeCast_self]
  show Ideal.ofBits .f32 0#32 = 0
  exact Spec.ofBits_zero

/-- The position of row y of block a, as a 32-bit word: 512 · a + y. -/
theorem pay2_word (a : Nat) (ha : a < 8) (y : Fin 512) :
    IntOp.addi (Scalar.muli (BitVec.ofNat 32 a) 512#32) (BitVec.ofNat 32 y.val) = BitVec.ofNat 32 (512 * a + y.val) := by
  apply BitVec.eq_of_toNat_eq
  show ((BitVec.ofNat 32 a) * 512#32 + BitVec.ofNat 32 y.val).toNat = _
  simp only [BitVec.toNat_add, BitVec.toNat_mul, BitVec.toNat_ofNat, Nat.reducePow, Nat.reduceMod]
  have := y.isLt
  omega

/-- Two positions below 4096 compare as signed words the way they compare as numbers. -/
theorem pay2_sge (N M : Nat) (hN : N < 4096) (hM : M < 4096) :
    IntOp.cmpi .sge (BitVec.ofNat 32 N) (BitVec.ofNat 32 M) = if M ≤ N then 1#1 else 0#1 := by
  have tN : (BitVec.ofNat 32 N).toNat = N := by rw [BitVec.toNat_ofNat]; exact Nat.mod_eq_of_lt (by omega)
  have tM : (BitVec.ofNat 32 M).toNat = M := by rw [BitVec.toNat_ofNat]; exact Nat.mod_eq_of_lt (by omega)
  have hc := StableHlo.Predicate.sge_iff_toNat (a := BitVec.ofNat 32 N) (b := BitVec.ofNat 32 M) (by rw [tN]; omega) (by rw [tM]; omega)
  rw [tN, tM] at hc
  by_cases h : M ≤ N
  · rw [if_pos h, hc.mpr h]
  · rw [if_neg h, eq_zero_of_ne_one (fun e => h (hc.mp e))]

/-- The score of query row y against key row j of the two blocks. -/
theorem pay2_score (xq xk : Vec Ideal S1x512x128 .bf16) (y j : Fin 512) :
    (matmul (F := Ideal) (φ₁ := .bf16) (φ₂ := .bf16) dot_S512x128_S128x512_S512x512_1_0_0_1_n_n none
        (shapeCast S512x128 xq shapeCasts_S1x512x128_S512x128)
        (transpose S128x512 [1, 0] (shapeCast S512x128 xk shapeCasts_S1x512x128_S512x128) transposes_S512x128_p1_0_S128x512)
        (constant S512x512 .f32 0x00000000#32) : S512x512.Idx → EReal) (ix2 y j)
      = ∑ h : Fin 128, (xq : S1x512x128.Idx → EReal) (ix3 0 y h) * (xk : S1x512x128.Idx → EReal) (ix3 0 j h) := by
  refine (Cert.Lib.PlainDot.matmul_zero_apply (M := 512) (K := 128) (N := 512) none _ _ y j).trans ?_
  refine Finset.sum_congr rfl fun h _ => ?_
  rw [shapeCast_1ab_ab_apply, transpose_ix2_apply, shapeCast_1ab_ab_apply]

/-- The mask bit at (y, j): set when the key position is not after the query position. -/
theorem pay2_mask (i : grid1.Coords) (y j : Fin 512) :
    (cmpi .sge (addi (broadcast S512x512 (Scalar.muli (BitVec.ofNat 32 (i 1).val) 512#32)) (iota .tc S512x512 32 [0] iota_S512x512_d0_w32))
       (addi (broadcast S512x512 (Scalar.muli (BitVec.ofNat 32 (i 2).val) 512#32)) (iota .tc S512x512 32 [1] iota_S512x512_d1_w32)) : IVec S512x512 1) (ix2 y j)
      = if 512 * (i 2).val + j.val ≤ 512 * (i 1).val + y.val then 1#1 else 0#1 := by
  have h1 : (i 1).val < 8 := (i 1).isLt
  have h2 : (i 2).val < 8 := (i 2).isLt
  show IntOp.cmpi .sge (IntOp.addi (Scalar.muli (BitVec.ofNat 32 (i 1).val) 512#32) (iota .tc S512x512 32 [0] iota_S512x512_d0_w32 (ix2 y j)))
      (IntOp.addi (Scalar.muli (BitVec.ofNat 32 (i 2).val) 512#32) (iota .tc S512x512 32 [1] iota_S512x512_d1_w32 (ix2 y j))) = _
  rw [iota_single_apply, iota_single_apply]
  show IntOp.cmpi .sge (IntOp.addi (Scalar.muli (BitVec.ofNat 32 (i 1).val) 512#32) (BitVec.ofNat 32 y.val))
      (IntOp.addi (Scalar.muli (BitVec.ofNat 32 (i 2).val) 512#32) (BitVec.ofNat 32 j.val)) = _
  rw [pay2_word _ h1, pay2_word _ h2]
  exact pay2_sge _ _ (by have := y.isLt; omega) (by have := j.isLt; omega)

/-- The accumulator's update at row `y`, column `col`: the old entry plus, over the 512 key rows of the block, the
    causal squared-relu weight of the score of query row `y` against key row `j`, times the value entry. -/
theorem pay2_apply (i : grid1.Coords) (xq xk : Vec Ideal S1x512x128 .bf16) (acc : Vec Ideal S512x2048 .f32)
    (xv : Vec Ideal S1x512x2048 .bf16) (y : Fin 512) (col : Fin 2048) :
    (k1_pay2 (F := Ideal) i xq xk acc xv : S512x2048.Idx → EReal) (ix2 y col)
      = (acc : S512x2048.Idx → EReal) (ix2 y col)
        + ∑ j : Fin 512, Spec.attn (∑ h : Fin 128, (xq : S1x512x128.Idx → EReal) (ix3 0 y h) * (xk : S1x512x128.Idx → EReal) (ix3 0 j h))
            (512 * (i 1).val + y.val) (512 * (i 2).val + j.val) * (xv : S1x512x2048.Idx → EReal) (ix3 0 j col) := by
  unfold k1_pay2
  rw [shapeCast_self, addf_apply]
  congr 1
  refine (Cert.Lib.PlainDot.matmul_zero_apply (M := 512) (K := 512) (N := 2048) none _ _ y col).trans ?_
  refine Finset.sum_congr rfl fun j _ => ?_
  rw [shapeCast_1ab_ab_apply]
  congr 1
  rw [truncf_apply, mulf_apply, maximumf_apply, select_apply, pay2_mask, mulf_apply, pay2_score, broadcast_apply, broadcast_apply,
    inv_scale_eq, Ideal.ofBits_def, Spec.ofBits_zero]
  unfold Spec.attn
  by_cases h : 512 * (i 2).val + j.val ≤ 512 * (i 1).val + y.val
  · rw [if_pos h, if_pos h, select_one]
  · rw [if_neg h, if_neg h, select_zero]

end Cert.KernelIdeal.Val

end
-- ==== Proof.KI.Pay3.lean ====
/-
  The second region's output block, read at an index over the extended reals, as a function of the blocks the body
  loads: the gated accumulator against Wo plus the bias row.
-/
import proofs.«110127_j80247168959185_1_alg».proof.Proof.Gen.KernelIdeal.Skeleton
import proofs.«110127_j80247168959185_1_alg».proof.Proof.Spec
import proofs.«110127_j80247168959185_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

namespace Cert.KernelIdeal.Val

open Idealize.ShloMosaic Idealize.ShloMosaic.TcCoe Idealize.ShloMosaic.ValueIdx
open Cert.KernelIdeal Cert.KernelIdeal.Gen

/-- The printed dimension numbers of the product against Wo are the plain ones of a 512×2048 by 2048×1024 product. -/
theorem dims_Wo_eq : dot_S512x2048_S2048x1024_S512x1024_1_0_0_1_n_n = DotDims.plain 512 2048 1024 := rfl

/-- The gated accumulator at `(y, col)`: the accumulator times the gate block's entry there (the change of float
    format in and out is the identity over the extended reals). -/
theorem gated_apply (acc : Vec Ideal S512x2048 .f32) (xg : Vec Ideal S1x512x2048 .bf16) (y : Fin 512) (col : Fin 2048) :
    (truncf (F := Ideal) .bf16 (mulf (acc : FVec Ideal S512x2048 .f32)
        (extf .f32 (shapeCast S512x2048 (xg : FVec Ideal S1x512x2048 .bf16) shapeCasts_S1x512x2048_S512x2048) bitsLt_bf16_f32)) bitsLt_bf16_f32
      : S512x2048.Idx → EReal) (ix2 y col)
      = (acc : S512x2048.Idx → EReal) (ix2 y col) * (xg : S1x512x2048.Idx → EReal) (ix3 0 y col) :=
  congrArg ((acc : S512x2048.Idx → EReal) (ix2 y col) * ·)
    (shapeCast_1ab_ab_apply (xg : S1x512x2048.Idx → EReal) shapeCasts_S1x512x2048_S512x2048 y col)

/-- The bias row broadcast over the 512 rows, at `(y, e)`: the row's entry `e`. -/
theorem bias_apply (xbo : Vec Ideal S1x1024 .f32) (y : Fin 512) (e : Fin 1024) :
    (broadcastTo S512x1024 (shapeCast S1x1024 (xbo : FVec Ideal S1x1024 .f32) shapeCasts_S1x1024_S1x1024) broadcasts_S1x1024_S512x1024
      : S512x1024.Idx → EReal) (ix2 y e) = (xbo : S1x1024.Idx → EReal) (ix2 0 e) :=
  (broadcastTo_1b_ab_apply _ broadcasts_S1x1024_S512x1024 y e).trans
    (congrFun (shapeCast_self (xbo : S1x1024.Idx → EReal) shapeCasts_S1x1024_S1x1024) (ix2 0 e))

/-- The output block at row `y`, feature `e`: the gated accumulator row against column `e` of Wo, plus the bias. -/
theorem pay3_apply (acc : Vec Ideal S512x2048 .f32) (xg : Vec Ideal S1x512x2048 .bf16) (xwo : Vec Ideal S2048x1024 .bf16)
    (xbo : Vec Ideal S1x1024 .f32) (y : Fin 512) (e : Fin 1024) :
    (k1_pay3 (F := Ideal) acc xg xwo xbo : S1x512x1024.Idx → EReal) (ix3 0 y e)
      = (∑ col : Fin 2048, ((acc : S512x2048.Idx → EReal) (ix2 y col) * (xg : S1x512x2048.Idx → EReal) (ix3 0 y col))
            * (xwo : S2048x1024.Idx → EReal) (ix2 col e))
        + (xbo : S1x1024.Idx → EReal) (ix2 0 e) := by
  unfold k1_pay3
  refine (shapeCast_ab_1ab_apply _ shapeCasts_S512x1024_S1x512x1024 0 y e).trans ?_
  refine congrArg₂ (· + ·) ?_ (bias_apply xbo y e)
  refine (Cert.Lib.PlainDot.matmul_zero_apply (M := 512) (K := 2048) (N := 1024) none _ _ y e).trans ?_
  refine Finset.sum_congr rfl fun col _ => ?_
  exact congrArg₂ (· * ·) (gated_apply acc xg y col)
    (congrFun (shapeCast_self (xwo : S2048x1024.Idx → EReal) shapeCasts_S2048x1024_S2048x1024) (ix2 col e))

end Cert.KernelIdeal.Val

end
-- ==== Proof.KI.Val1.lean ====
/-
  What the second region leaves in the program's result array, over the extended reals, as a function of the arrays it
  was entered with (q, k, v, gate, Wo and the bias row). For a query block the scratch accumulator after key block ki
  holds the sum, over the key blocks up to min(ki, query block), of the causal squared-relu weights against the values;
  the blocks above the query block weigh zero, so after the last key block it is the sum over all 4096 key positions.
-/
import proofs.«110127_j80247168959185_1_alg».proof.Proof.KI.R1
import proofs.«110127_j80247168959185_1_alg».proof.Proof.Spec
import proofs.«110127_j80247168959185_1_alg».proof.Proof.LibPlainDot
import proofs.«110127_j80247168959185_1_alg».proof.Proof.KI.Pay1
import proofs.«110127_j80247168959185_1_alg».proof.Proof.KI.Pay3
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

namespace Attn

/-! ## The grid: a point's coordinates and the windows' block indices, from the point's position -/

theorem N_eq : cfg1.N = 128 := rfl

/-- Position n is batch n / 64, query block n / 8 % 8, key block n % 8. -/
theorem coords_val : ∀ t : Fin cfg1.N, (grid1.coords t 0).val = t.val / 64 ∧ (grid1.coords t 1).val = t.val / 8 % 8
    ∧ (grid1.coords t 2).val = t.val % 8 :=
  (by decide +kernel : ∀ t : Fin grid1.N, _)

/-- The block indices of the seven windows at a point. -/
theorem idx_facts : ∀ t : Fin cfg1.N,
    (win1_0.index t (0 : Fin 3) = t.val / 64 ∧ win1_0.index t (1 : Fin 3) = t.val / 8 % 8 ∧ win1_0.index t (2 : Fin 3) = 0)
    ∧ (win1_1.index t (0 : Fin 3) = t.val / 64 ∧ win1_1.index t (1 : Fin 3) = t.val % 8 ∧ win1_1.index t (2 : Fin 3) = 0)
    ∧ (win1_2.index t (0 : Fin 3) = t.val / 64 ∧ win1_2.index t (1 : Fin 3) = t.val % 8 ∧ win1_2.index t (2 : Fin 3) = 0)
    ∧ (win1_3.index t (0 : Fin 3) = t.val / 64 ∧ win1_3.index t (1 : Fin 3) = t.val / 8 % 8 ∧ win1_3.index t (2 : Fin 3) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 3) = t.val / 64 ∧ win1_6.index t (1 : Fin 3) = t.val / 8 % 8 ∧ win1_6.index t (2 : Fin 3) = 0) :=
  (by decide +kernel : ∀ t : Fin grid1.N, _)

/-- The batch of the point at position n. -/
abbrev bat (n : ℕ) (hn : n < cfg1.N) : Fin 2 := ⟨n / 64, by have := N_eq; omega⟩
/-- Row y of the 512-row block b, as a position among the 4096. -/
abbrev pos (b : ℕ) (hb : b < 8) (y : Fin 512) : Fin 4096 := ⟨y.val + 512 * b, by omega⟩

/-! ## The blocks the body loads, and their entries -/

abbrev qblk (c : Dev nD) (t : Fin cfg1.N) : Vec Ideal S1x512x128 .bf16 := iblk1 V c 0 t
abbrev kblk (c : Dev nD) (t : Fin cfg1.N) : Vec Ideal S1x512x128 .bf16 := iblk1 V c 1 t
abbrev vblk (c : Dev nD) (t : Fin cfg1.N) : Vec Ideal S1x512x2048 .bf16 := iblk1 V c 2 t
abbrev gblk (c : Dev nD) (t : Fin cfg1.N) : Vec Ideal S1x512x2048 .bf16 := iblk1 V c 3 t
abbrev woblk (c : Dev nD) (t : Fin cfg1.N) : Vec Ideal S2048x1024 .bf16 := iblk1 V c 4 t
abbrev boblk (c : Dev nD) (t : Fin cfg1.N) : Vec Ideal S1x1024 .f32 := iblk1 V c 5 t

/-- The query block's entry (y, h) is q at the point's batch and query block. -/
theorem qblk_apply (c : Dev nD) (t : Fin cfg1.N) (u : Fin 1) (y : Fin 512) (h : Fin 128) :
    (qblk V c t : S1x512x128.Idx → EReal) (ix3 u y h)
      = (V c main_v12_2 : S2x4096x128.Idx → EReal) (ix3 (bat t.val t.isLt) (pos (t.val / 8 % 8) (by omega) y) h) := by
  obtain ⟨⟨e0, e1, e2⟩, -⟩ := idx_facts t
  unfold qblk iblk1
  rw [View.read_apply]
  show (V c main_v12_2 : S2x4096x128.Idx → EReal) (((cfg1.win 0).blk t).view.emb (ix3 u y h)) = _
  refine congrArg _ (funext fun a => Fin.ext ?_)
  match a with
  | ⟨0, _⟩ => show win1_0.index t (0 : Fin 3) * 1 + 1 * u.val = t.val / 64; omega
  | ⟨1, _⟩ => show win1_0.index t (1 : Fin 3) * 512 + 1 * y.val = y.val + 512 * (t.val / 8 % 8); omega
  | ⟨2, _⟩ => show win1_0.index t (2 : Fin 3) * 128 + 1 * h.val = h.val; omega

/-- The key block's entry (j, h) is k at the point's batch and key block. -/
theorem kblk_apply (c : Dev nD) (t : Fin cfg1.N) (u : Fin 1) (j : Fin 512) (h : Fin 128) :
    (kblk V c t : S1x512x128.Idx → EReal) (ix3 u j h)
      = (V c main_v12_3 : S2x4096x128.Idx → EReal) (ix3 (bat t.val t.isLt) (pos (t.val % 8) (by omega) j) h) := by
  obtain ⟨-, ⟨e0, e1, e2⟩, -⟩ := idx_facts t
  unfold kblk iblk1
  rw [View.read_apply]
  show (V c main_v12_3 : S2x4096x128.Idx → EReal) (((cfg1.win 1).blk t).view.emb (ix3 u j h)) = _
  refine congrArg _ (funext fun a => Fin.ext ?_)
  match a with
  | ⟨0, _⟩ => show win1_1.index t (0 : Fin 3) * 1 + 1 * u.val = t.val / 64; omega
  | ⟨1, _⟩ => show win1_1.index t (1 : Fin 3) * 512 + 1 * j.val = j.val + 512 * (t.val % 8); omega
  | ⟨2, _⟩ => show win1_1.index t (2 : Fin 3) * 128 + 1 * h.val = h.val; omega

/-- The value block's entry (j, col) is v at the point's batch and key block. -/
theorem vblk_apply (c : Dev nD) (t : Fin cfg1.N) (u : Fin 1) (j : Fin 512) (col : Fin 2048) :
    (vblk V c t : S1x512x2048.Idx → EReal) (ix3 u j col)
      = (V c main_v12_0 : S2x4096x2048.Idx → EReal) (ix3 (bat t.val t.isLt) (pos (t.val % 8) (by omega) j) col) := by
  obtain ⟨-, -, ⟨e0, e1, e2⟩, -⟩ := idx_facts t
  unfold vblk iblk1
  rw [View.read_apply]
  show (V c main_v12_0 : S2x4096x2048.Idx → EReal) (((cfg1.win 2).blk t).view.emb (ix3 u j col)) = _
  refine congrArg _ (funext fun a => Fin.ext ?_)
  match a with
  | ⟨0, _⟩ => show win1_2.index t (0 : Fin 3) * 1 + 1 * u.val = t.val / 64; omega
  | ⟨1, _⟩ => show win1_2.index t (1 : Fin 3) * 512 + 1 * j.val = j.val + 512 * (t.val % 8); omega
  | ⟨2, _⟩ => show win1_2.index t (2 : Fin 3) * 2048 + 1 * col.val = col.val; omega

/-- The gate block's entry (y, col) is the gate at the point's batch and query block. -/
theorem gblk_apply (c : Dev nD) (t : Fin cfg1.N) (u : Fin 1) (y : Fin 512) (col : Fin 2048) :
    (gblk V c t : S1x512x2048.Idx → EReal) (ix3 u y col)
      = (V c main_v12_1 : S2x4096x2048.Idx → EReal) (ix3 (bat t.val t.isLt) (pos (t.val / 8 % 8) (by omega) y) col) := by
  obtain ⟨-, -, -, ⟨e0, e1, e2⟩, -⟩ := idx_facts t
  unfold gblk iblk1
  rw [View.read_apply]
  show (V c main_v12_1 : S2x4096x2048.Idx → EReal) (((cfg1.win 3).blk t).view.emb (ix3 u y col)) = _
  refine congrArg _ (funext fun a => Fin.ext ?_)
  match a with
  | ⟨0, _⟩ => show win1_3.index t (0 : Fin 3) * 1 + 1 * u.val = t.val / 64; omega
  | ⟨1, _⟩ => show win1_3.index t (1 : Fin 3) * 512 + 1 * y.val = y.val + 512 * (t.val / 8 % 8); omega
  | ⟨2, _⟩ => show win1_3.index t (2 : Fin 3) * 2048 + 1 * col.val = col.val; omega

/-- The Wo block is the whole of Wo. -/
theorem woblk_apply (c : Dev nD) (t : Fin cfg1.N) (col : Fin 2048) (e : Fin 1024) :
    (woblk V c t : S2048x1024.Idx → EReal) (ix2 col e) = (V c main_v3 : S2048x1024.Idx → EReal) (ix2 col e) := by
  obtain ⟨-, -, -, -, ⟨e0, e1⟩, -⟩ := idx_facts t
  unfold woblk iblk1
  rw [View.read_apply]
  show (V c main_v3 : S2048x1024.Idx → EReal) (((cfg1.win 4).blk t).view.emb (ix2 col e)) = _
  refine congrArg _ (funext fun a => Fin.ext ?_)
  match a with
  | ⟨0, _⟩ => show win1_4.index t (0 : Fin 2) * 2048 + 1 * col.val = col.val; omega
  | ⟨1, _⟩ => show win1_4.index t (1 : Fin 2) * 1024 + 1 * e.val = e.val; omega

/-- The bias block is the whole bias row. -/
theorem boblk_apply (c : Dev nD) (t : Fin cfg1.N) (u : Fin 1) (e : Fin 1024) :
    (boblk V c t : S1x1024.Idx → EReal) (ix2 u e) = (V c main_v11 : S1x1024.Idx → EReal) (ix2 0 e) := by
  obtain ⟨-, -, -, -, -, ⟨e0, e1⟩, -⟩ := idx_facts t
  unfold boblk iblk1
  rw [View.read_apply]
  show (V c main_v11 : S1x1024.Idx → EReal) (((cfg1.win 5).blk t).view.emb (ix2 u e)) = _
  refine congrArg _ (funext fun a => Fin.ext ?_)
  match a with
  | ⟨0, _⟩ => show win1_5.index t (0 : Fin 2) * 1 + 1 * u.val = 0; omega
  | ⟨1, _⟩ => show win1_5.index t (1 : Fin 2) * 1024 + 1 * e.val = e.val; omega

/-! ## The accumulator's mathematics: one key block's contribution, and the sum of the blocks so far -/

section Blocks
variable (Q K : Fin 2 → Fin 4096 → Fin 128 → EReal) (Vv : Fin 2 → Fin 4096 → Fin 2048 → EReal)

/-- Key block kb's contribution to the weighted sum of query position n at value column col. -/
def blkTerm (p : Fin 2) (n : Fin 4096) (col : Fin 2048) (kb : Fin 8) : EReal :=
  ∑ j : Fin 512, Spec.attn (Spec.scoreOf Q K p n ⟨j.val + 512 * kb.val, by omega⟩) n.val (j.val + 512 * kb.val)
    * Vv p ⟨j.val + 512 * kb.val, by omega⟩ col

/-- A key block wholly after the query position contributes zero. -/
theorem blkTerm_zero (p : Fin 2) (n : Fin 4096) (col : Fin 2048) (kb : Fin 8) (h : n.val < 512 * kb.val) :
    blkTerm Q K Vv p n col kb = 0 := by
  unfold blkTerm
  refine Finset.sum_eq_zero fun j _ => ?_
  rw [Spec.attn_of_lt _ (by omega), zero_mul]

/-- The weighted sum over all 4096 key positions is the sum of the eight blocks' contributions. -/
theorem ctxOf_eq_blocks (p : Fin 2) (n : Fin 4096) (col : Fin 2048) :
    Spec.ctxOf Q K Vv p n col = ∑ kb : Fin 8, blkTerm Q K Vv p n col kb := by
  unfold Spec.ctxOf
  rw [Spec.sum_blocks]
  rfl

end Blocks

/-- The blocks up to k: those before k, and block k. -/
theorem sum_le_eq_sum_lt_add (f : Fin 8 → EReal) (k : Fin 8) :
    (∑ kb : Fin 8, if kb.val ≤ k.val then f kb else 0) = (∑ kb : Fin 8, if kb.val < k.val then f kb else 0) + f k := by
  have hk : f k = ∑ kb : Fin 8, if kb = k then f kb else 0 := by
    rw [Finset.sum_ite_eq' Finset.univ k f, if_pos (Finset.mem_univ k)]
  rw [hk, ← Finset.sum_add_distrib]
  refine Finset.sum_congr rfl fun kb _ => ?_
  by_cases h1 : kb.val < k.val
  · rw [if_pos h1, if_pos (Nat.le_of_lt h1), if_neg (fun e => by rw [e] at h1; exact Nat.lt_irrefl _ h1), add_zero]
  · by_cases h2 : kb = k
    · rw [if_neg h1, if_pos h2, if_pos (by rw [h2]), zero_add]
    · rw [if_neg h1, if_neg h2, if_neg (fun h3 => h2 (Fin.ext (by omega))), add_zero]

/-- Every block is at most block 7. -/
theorem sum_le_seven (f : Fin 8 → EReal) : (∑ kb : Fin 8, if kb.val ≤ 7 then f kb else 0) = ∑ kb : Fin 8, f kb :=
  Finset.sum_congr rfl fun kb _ => if_pos (by omega)

/-! ## One point's update at an index -/

section Step
variable (Q K : Fin 2 → Fin 4096 → Fin 128 → EReal) (Vv : Fin 2 → Fin 4096 → Fin 2048 → EReal)

/-- The accumulating store at row y, column col: the old entry plus the key block's contribution. -/
theorem step_apply (i : grid1.Coords) (xq xk : Vec Ideal S1x512x128 .bf16) (xv : Vec Ideal S1x512x2048 .bf16)
    (base : Vec Ideal S512x2048 .f32) (p : Fin 2) (n : Fin 4096) (kb : Fin 8) (y : Fin 512) (col : Fin 2048)
    (hi1 : 512 * (i 1).val + y.val = n.val) (hi2 : (i 2).val = kb.val)
    (hxq : ∀ h : Fin 128, (xq : S1x512x128.Idx → EReal) (ix3 0 y h) = Q p n h)
    (hxk : ∀ (j : Fin 512) (h : Fin 128), (xk : S1x512x128.Idx → EReal) (ix3 0 j h) = K p ⟨j.val + 512 * kb.val, by omega⟩ h)
    (hxv : ∀ j : Fin 512, (xv : S1x512x2048.Idx → EReal) (ix3 0 j col) = Vv p ⟨j.val + 512 * kb.val, by omega⟩ col) :
    (k1_pay2 (F := Ideal) i xq xk base xv : S512x2048.Idx → EReal) (ix2 y col)
      = (base : S512x2048.Idx → EReal) (ix2 y col) + blkTerm Q K Vv p n col kb := by
  rw [pay2_apply]
  refine congrArg (_ + ·) ?_
  unfold blkTerm
  refine Finset.sum_congr rfl fun j _ => ?_
  rw [hxv j]
  refine congrArg (· * _) ?_
  have hs : (∑ h : Fin 128, (xq : S1x512x128.Idx → EReal) (ix3 0 y h) * (xk : S1x512x128.Idx → EReal) (ix3 0 j h))
      = Spec.scoreOf Q K p n ⟨j.val + 512 * kb.val, by omega⟩ := by
    unfold Spec.scoreOf
    exact Finset.sum_congr rfl fun h _ => by rw [hxq h, hxk j h]
  rw [hs, hi1, hi2, Nat.add_comm (512 * kb.val) j.val]

/-- One point's update at row y, column col: what was there (zero at key block 0) plus the key block's contribution,
    which is zero when the key block is above the query block. -/
theorem accStep_apply (i : grid1.Coords) (xq xk : Vec Ideal S1x512x128 .bf16) (xv : Vec Ideal S1x512x2048 .bf16)
    (prev : Vec Ideal S512x2048 .f32) (p : Fin 2) (n : Fin 4096) (kb : Fin 8) (y : Fin 512) (col : Fin 2048) (S : EReal)
    (hi1 : 512 * (i 1).val + y.val = n.val) (hi2 : (i 2).val = kb.val)
    (hxq : ∀ h : Fin 128, (xq : S1x512x128.Idx → EReal) (ix3 0 y h) = Q p n h)
    (hxk : ∀ (j : Fin 512) (h : Fin 128), (xk : S1x512x128.Idx → EReal) (ix3 0 j h) = K p ⟨j.val + 512 * kb.val, by omega⟩ h)
    (hxv : ∀ j : Fin 512, (xv : S1x512x2048.Idx → EReal) (ix3 0 j col) = Vv p ⟨j.val + 512 * kb.val, by omega⟩ col)
    (h0 : (i 2).val = 0 → S = 0) (h1 : (i 2).val ≠ 0 → (prev : S512x2048.Idx → EReal) (ix2 y col) = S) :
    (accStep i xq xk xv prev : S512x2048.Idx → EReal) (ix2 y col) = S + blkTerm Q K Vv p n col kb := by
  have hb : ((if (i 2).val = 0 then (k1_pay1 (F := Ideal)) else prev) : S512x2048.Idx → EReal) (ix2 y col) = S := by
    by_cases h : (i 2).val = 0
    · rw [if_pos h, pay1_apply, h0 h]
    · rw [if_neg h, h1 h]
  unfold accStep
  by_cases hle : (i 2).val ≤ (i 1).val
  · rw [if_pos hle, step_apply Q K Vv i xq xk xv _ p n kb y col hi1 hi2 hxq hxk hxv, hb]
  · rw [if_neg hle, hb, blkTerm_zero Q K Vv p n col kb (by have := y.isLt; omega), add_zero]

end Step

/-! ## The accumulator after every point -/

section Inv
variable (Q K : Fin 2 → Fin 4096 → Fin 128 → EReal) (Vv : Fin 2 → Fin 4096 → Fin 2048 → EReal)

/-- The blocks' contributions to row y of the point at position n. -/
abbrev termAt (n : ℕ) (hn : n < cfg1.N) (y : Fin 512) (col : Fin 2048) : Fin 8 → EReal :=
  blkTerm Q K Vv (bat n hn) (pos (n / 8 % 8) (by omega) y) col

/-- One point's update over the window blocks at position n: from a sum S of the blocks before the key block, the sum of
    the blocks up to it. -/
theorem point_apply (c : Dev nD)
    (hq : (V c main_v12_2 : S2x4096x128.Idx → EReal) = fun j => Q (j 0) (j 1) (j 2))
    (hk : (V c main_v12_3 : S2x4096x128.Idx → EReal) = fun j => K (j 0) (j 1) (j 2))
    (hv : (V c main_v12_0 : S2x4096x2048.Idx → EReal) = fun j => Vv (j 0) (j 1) (j 2))
    (n : ℕ) (hn : n < cfg1.N) (prev : Vec Ideal S512x2048 .f32) (y : Fin 512) (col : Fin 2048)
    (h1 : n % 8 ≠ 0 → (prev : S512x2048.Idx → EReal) (ix2 y col)
      = ∑ kb : Fin 8, if kb.val < n % 8 then termAt Q K Vv n hn y col kb else 0) :
    (accStep (grid1.coords ⟨n, hn⟩) (qblk V c ⟨n, hn⟩) (kblk V c ⟨n, hn⟩) (vblk V c ⟨n, hn⟩) prev : S512x2048.Idx → EReal) (ix2 y col)
      = ∑ kb : Fin 8, if kb.val ≤ n % 8 then termAt Q K Vv n hn y col kb else 0 := by
  obtain ⟨c0, c1, c2⟩ := coords_val ⟨n, hn⟩
  have c1' : (grid1.coords ⟨n, hn⟩ 1).val = n / 8 % 8 := c1
  have c2' : (grid1.coords ⟨n, hn⟩ 2).val = n % 8 := c2
  refine Eq.trans ?_ (sum_le_eq_sum_lt_add (termAt Q K Vv n hn y col) ⟨n % 8, by omega⟩).symm
  refine accStep_apply Q K Vv (grid1.coords ⟨n, hn⟩) (qblk V c ⟨n, hn⟩) (kblk V c ⟨n, hn⟩) (vblk V c ⟨n, hn⟩) prev
    (bat n hn) (pos (n / 8 % 8) (by omega) y) ⟨n % 8, by omega⟩ y col _ ?_ c2' ?_ ?_ ?_ ?_ ?_
  · show 512 * (grid1.coords ⟨n, hn⟩ 1).val + y.val = y.val + 512 * (n / 8 % 8)
    rw [c1']; omega
  · intro h
    exact (qblk_apply V c ⟨n, hn⟩ 0 y h).trans (congrFun hq _)
  · intro j h
    exact (kblk_apply V c ⟨n, hn⟩ 0 j h).trans (congrFun hk _)
  · intro j
    exact (vblk_apply V c ⟨n, hn⟩ 0 j col).trans (congrFun hv _)
  · intro h
    have h' : n % 8 = 0 := c2'.symm.trans h
    exact Finset.sum_eq_zero fun kb _ => if_neg (by show ¬kb.val < n % 8; omega)
  · intro h
    exact h1 (fun e => h (c2'.trans e))

/-- After the point at position n the accumulator's row y holds the sum of the key blocks' contributions up to the
    point's key block (those above the query block contribute zero). -/
theorem acc_inv (c : Dev nD)
    (hq : (V c main_v12_2 : S2x4096x128.Idx → EReal) = fun j => Q (j 0) (j 1) (j 2))
    (hk : (V c main_v12_3 : S2x4096x128.Idx → EReal) = fun j => K (j 0) (j 1) (j 2))
    (hv : (V c main_v12_0 : S2x4096x2048.Idx → EReal) = fun j => Vv (j 0) (j 1) (j 2)) :
    ∀ (n : ℕ) (hn : n < cfg1.N) (y : Fin 512) (col : Fin 2048),
      (accAt1 V c n hn : S512x2048.Idx → EReal) (ix2 y col)
        = ∑ kb : Fin 8, if kb.val ≤ n % 8 then termAt Q K Vv n hn y col kb else 0
  | 0, hn, y, col => by
    rw [accAt1_zero]
    exact point_apply V Q K Vv c hq hk hv 0 hn _ y col (fun h => absurd rfl h)
  | n + 1, hn, y, col => by
    rw [accAt1_succ]
    refine point_apply V Q K Vv c hq hk hv (n + 1) hn _ y col fun hne => ?_
    have hN := N_eq
    rw [acc_inv c hq hk hv n (Nat.lt_of_succ_lt hn) y col]
    have e1 : bat n (Nat.lt_of_succ_lt hn) = bat (n + 1) hn := Fin.ext (by show n / 64 = (n + 1) / 64; omega)
    have e2 : pos (n / 8 % 8) (by omega) y = pos ((n + 1) / 8 % 8) (by omega) y :=
      Fin.ext (by show y.val + 512 * (n / 8 % 8) = y.val + 512 * ((n + 1) / 8 % 8); omega)
    refine Finset.sum_congr rfl fun kb _ => ?_
    show (if kb.val ≤ n % 8 then blkTerm Q K Vv (bat n _) (pos (n / 8 % 8) _ y) col kb else 0)
      = if kb.val < (n + 1) % 8 then blkTerm Q K Vv (bat (n + 1) hn) (pos ((n + 1) / 8 % 8) _ y) col kb else 0
    rw [e1, e2]
    exact if_congr (by omega) rfl rfl

end Inv

/-! ## The output block, the blocks' cover of the result array, and the array -/

section Out
variable (Q K : Fin 2 → Fin 4096 → Fin 128 → EReal) (Vv G : Fin 2 → Fin 4096 → Fin 2048 → EReal)
  (Wo : S2048x1024.Idx → EReal) (bo : Fin 1024 → EReal)

/-- The result array: the specification's output at every index. -/
abbrev outArr : S2x4096x1024.Idx → EReal := fun j => Spec.outOf Q K Vv G Wo bo (j 0) (j 1) (j 2)

/-- At a point of the last key block the stored block's entry (y, e) is the specification's output at the point's batch
    and query block. -/
theorem out_block_apply (c : Dev nD)
    (hq : (V c main_v12_2 : S2x4096x128.Idx → EReal) = fun j => Q (j 0) (j 1) (j 2))
    (hk : (V c main_v12_3 : S2x4096x128.Idx → EReal) = fun j => K (j 0) (j 1) (j 2))
    (hv : (V c main_v12_0 : S2x4096x2048.Idx → EReal) = fun j => Vv (j 0) (j 1) (j 2))
    (hg : (V c main_v12_1 : S2x4096x2048.Idx → EReal) = fun j => G (j 0) (j 1) (j 2))
    (hwo : (V c main_v3 : S2048x1024.Idx → EReal) = Wo)
    (hbo : ∀ e : Fin 1024, (V c main_v11 : S1x1024.Idx → EReal) (ix2 0 e) = bo e)
    (t : Fin cfg1.N) (ht : t.val % 8 = 7) (u : Fin 1) (y : Fin 512) (e : Fin 1024) :
    (out1_6 (accAt1 V c t.val t.isLt) (gblk V c t) (woblk V c t) (boblk V c t) : S1x512x1024.Idx → EReal) (ix3 u y e)
      = Spec.outOf Q K Vv G Wo bo (bat t.val t.isLt) (pos (t.val / 8 % 8) (by omega) y) e := by
  obtain rfl : u = 0 := Subsingleton.elim _ _
  unfold out1_6
  rw [pay3_apply]
  unfold Spec.outOf
  refine congrArg₂ (· + ·) (Finset.sum_congr rfl fun col _ => ?_) ?_
  · have eg : (V c main_v12_1 : S2x4096x2048.Idx → EReal) (ix3 (bat t.val t.isLt) (pos (t.val / 8 % 8) (by omega) y) col)
        = G (bat t.val t.isLt) (pos (t.val / 8 % 8) (by omega) y) col := congrFun hg _
    have ew : (V c main_v3 : S2048x1024.Idx → EReal) (ix2 col e) = Wo (ix2 col e) := congrFun hwo _
    rw [acc_inv V Q K Vv c hq hk hv t.val t.isLt y col, ht, sum_le_seven, ← ctxOf_eq_blocks, gblk_apply, woblk_apply, eg, ew]
  · rw [boblk_apply]; exact hbo e

/-- What a flushing point writes back is its block of the result array. -/
theorem flushed_eq (c : Dev nD)
    (hq : (V c main_v12_2 : S2x4096x128.Idx → EReal) = fun j => Q (j 0) (j 1) (j 2))
    (hk : (V c main_v12_3 : S2x4096x128.Idx → EReal) = fun j => K (j 0) (j 1) (j 2))
    (hv : (V c main_v12_0 : S2x4096x2048.Idx → EReal) = fun j => Vv (j 0) (j 1) (j 2))
    (hg : (V c main_v12_1 : S2x4096x2048.Idx → EReal) = fun j => G (j 0) (j 1) (j 2))
    (hwo : (V c main_v3 : S2048x1024.Idx → EReal) = Wo)
    (hbo : ∀ e : Fin 1024, (V c main_v11 : S1x1024.Idx → EReal) (ix2 0 e) = bo e)
    (t : Fin cfg1.N) (hf : (cfg1.win 6).flush t = true) :
    (dat1 V c).flushed 6 t = ((cfg1.win 6).blk t).view.read (Elt Ideal) (outArr Q K Vv G Wo bo) := by
  have ht : t.val % 8 = 7 := (flush1_6 t).mp hf
  obtain ⟨-, -, -, -, -, -, ⟨e0, e1, e2⟩⟩ := idx_facts t
  have key : ∀ j : S1x512x1024.Idx,
      (out1_6 (accAt1 V c t.val t.isLt) (gblk V c t) (woblk V c t) (boblk V c t) : S1x512x1024.Idx → EReal) j
        = outArr Q K Vv G Wo bo (((cfg1.win 6).blk t).view.emb j) := by
    intro j
    obtain ⟨u, y, e, rfl⟩ : ∃ (u : Fin 1) (y : Fin 512) (e : Fin 1024), j = ix3 u y e := ⟨j 0, j 1, j 2, eq_ix3 j⟩
    rw [out_block_apply V Q K Vv G Wo bo c hq hk hv hg hwo hbo t ht u y e]
    show Spec.outOf Q K Vv G Wo bo _ _ _ = Spec.outOf Q K Vv G Wo bo (((cfg1.win 6).blk t).view.emb (ix3 u y e) 0)
      (((cfg1.win 6).blk t).view.emb (ix3 u y e) 1) (((cfg1.win 6).blk t).view.emb (ix3 u y e) 2)
    have a0 : bat t.val t.isLt = ((cfg1.win 6).blk t).view.emb (ix3 u y e) 0 :=
      Fin.ext (by show t.val / 64 = win1_6.index t (0 : Fin 3) * 1 + 1 * u.val; omega)
    have a1 : pos (t.val / 8 % 8) (by omega) y = ((cfg1.win 6).blk t).view.emb (ix3 u y e) 1 :=
      Fin.ext (by show y.val + 512 * (t.val / 8 % 8) = win1_6.index t (1 : Fin 3) * 512 + 1 * y.val; omega)
    have a2 : e = ((cfg1.win 6).blk t).view.emb (ix3 u y e) 2 :=
      Fin.ext (by show e.val = win1_6.index t (2 : Fin 3) * 1024 + 1 * e.val; omega)
    rw [← a0, ← a1, ← a2]
  show (cfg1.win 6).cut (grid1.coords t) ((dat1 V c).after 6 t) = _
  rw [after1_6]
  funext j
  exact key j

/-- Every index of the result array is in the block of the last-key-block point of its batch and query block. -/
theorem cover (i : S2x4096x1024.Idx) :
    ∃ t : Fin cfg1.N, (cfg1.win 6).flush t = true ∧ i ∈ ((cfg1.win 6).blk t).view.set := by
  have h0 : (i 0).val < 2 := (i 0).isLt
  have h1 : (i 1).val < 4096 := (i 1).isLt
  have h2 : (i 2).val < 1024 := (i 2).isLt
  have hN := N_eq
  obtain ⟨t, tv⟩ : ∃ t : Fin cfg1.N, t.val = 64 * (i 0).val + 8 * ((i 1).val / 512) + 7 := ⟨⟨_, by omega⟩, rfl⟩
  obtain ⟨-, -, -, -, -, -, ⟨e0, e1, e2⟩⟩ := idx_facts t
  refine ⟨t, (flush1_6 t).mpr (by omega), ?_⟩
  show i ∈ ((View.whole main_v13).slice (win1_6.rect t)).set
  rw [View.set_slice_whole, Rect.mem_set_unit]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 512 ≤ (i 1).val ∧ (i 1).val < win1_6.index t (1 : Fin 3) * 512 + 512; omega
  | ⟨2, _⟩ => show win1_6.index t (2 : Fin 3) * 1024 ≤ (i 2).val ∧ (i 2).val < win1_6.index t (2 : Fin 3) * 1024 + 1024; omega

end Out

end Attn

/-- The result array after the second region, of any q, k, v, gate arrays it was entered with. -/
theorem out_arr_of (c : Dev nD) (Q K : Fin 2 → Fin 4096 → Fin 128 → EReal) (Vv G : Fin 2 → Fin 4096 → Fin 2048 → EReal)
    (Wo : S2048x1024.Idx → EReal) (bo : Fin 1024 → EReal)
    (hq : (V c main_v12_2 : S2x4096x128.Idx → EReal) = fun j => Q (j 0) (j 1) (j 2))
    (hk : (V c main_v12_3 : S2x4096x128.Idx → EReal) = fun j => K (j 0) (j 1) (j 2))
    (hv : (V c main_v12_0 : S2x4096x2048.Idx → EReal) = fun j => Vv (j 0) (j 1) (j 2))
    (hg : (V c main_v12_1 : S2x4096x2048.Idx → EReal) = fun j => G (j 0) (j 1) (j 2))
    (hwo : (V c main_v3 : S2048x1024.Idx → EReal) = Wo)
    (hbo : ∀ e : Fin 1024, (V c main_v11 : S1x1024.Idx → EReal) (ix2 0 e) = bo e) :
    ((dat1 V c).arrAt 6 cfg1.N : S2x4096x1024.Idx → EReal) = fun j => Spec.outOf Q K Vv G Wo bo (j 0) (j 1) (j 2) :=
  (dat1 V c).arrAt_eq_of_cover 6 (Attn.outArr Q K Vv G Wo bo)
    (fun t hf => Attn.flushed_eq V Q K Vv G Wo bo c hq hk hv hg hwo hbo t hf) Attn.cover

end Cert.KernelIdeal.Val

end
-- ==== Proof.KI.Bridge.lean ====
/-
  The program's result array over the extended reals: the arrays the host stretch hands the first region are the
  arguments themselves (a change of float format is the identity; a reshape of a vector to one row reads the same
  entries), the first region's four results are v, gate, q and k of the arguments, and the second region's result is
  the specification's function of them.
-/
import proofs.«110127_j80247168959185_1_alg».proof.Proof.KI.Run
import proofs.«110127_j80247168959185_1_alg».proof.Proof.KI.Val0
import proofs.«110127_j80247168959185_1_alg».proof.Proof.KI.Val1
import proofs.«110127_j80247168959185_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem Idealize.ShloMosaic.StableHlo
open Cert.KernelIdeal Cert.KernelIdeal.Gen Cert.KernelIdeal.Fr

variable (m : (ℓ : Loc nD τ sig) → Buf (Elt Ideal) ℓ)

/-- The host stretch does not write the first argument. -/
theorem V1_arg0 (c : Dev nD) : (V1 m c main_arg0 : S2x4096x1024.Idx → EReal) = (m ((c : Thread nD τ).loc main_arg0)) :=
  W1_of_arg m c main_arg0 (by decide)

/-- `main_v0` is argument 1 in the narrower float format: the same extended reals. -/
theorem V1_v0 (c : Dev nD) : (V1 m c main_v0 : S1024x2048.Idx → EReal) = ((m ((c : Thread nD τ).loc main_arg1)) : S1024x2048.Idx → EReal) := by
  have e : (V1 m c main_v0 : S1024x2048.Idx → EReal)
      = (truncf .bf16 ((m ((c : Thread nD τ).loc main_arg1)) : FVec Ideal S1024x2048 .f32) bitsLt_bf16_f32 : FVec Ideal S1024x2048 .bf16) := by
    show StableHlo.after hostOps0 (fun b => m (c, b)) (Proc.devRef .tc main_v0) = _
    after_results <;> rfl
  rw [e]; rfl

/-- `main_v1` is argument 3 in the narrower float format: the same extended reals. -/
theorem V1_v1 (c : Dev nD) : (V1 m c main_v1 : S1024x2048.Idx → EReal) = ((m ((c : Thread nD τ).loc main_arg3)) : S1024x2048.Idx → EReal) := by
  have e : (V1 m c main_v1 : S1024x2048.Idx → EReal)
      = (truncf .bf16 ((m ((c : Thread nD τ).loc main_arg3)) : FVec Ideal S1024x2048 .f32) bitsLt_bf16_f32 : FVec Ideal S1024x2048 .bf16) := by
    show StableHlo.after hostOps0 (fun b => m (c, b)) (Proc.devRef .tc main_v1) = _
    after_results <;> rfl
  rw [e]; rfl

/-- `main_v2` is argument 5 in the narrower float format: the same extended reals. -/
theorem V1_v2 (c : Dev nD) : (V1 m c main_v2 : S1024x128.Idx → EReal) = ((m ((c : Thread nD τ).loc main_arg5)) : S1024x128.Idx → EReal) := by
  have e : (V1 m c main_v2 : S1024x128.Idx → EReal)
      = (truncf .bf16 ((m ((c : Thread nD τ).loc main_arg5)) : FVec Ideal S1024x128 .f32) bitsLt_bf16_f32 : FVec Ideal S1024x128 .bf16) := by
    show StableHlo.after hostOps0 (fun b => m (c, b)) (Proc.devRef .tc main_v2) = _
    after_results <;> rfl
  rw [e]; rfl

/-- `main_v3` is argument 11 in the narrower float format: the same extended reals. -/
theorem V1_v3 (c : Dev nD) : (V1 m c main_v3 : S2048x1024.Idx → EReal) = ((m ((c : Thread nD τ).loc main_arg11)) : S2048x1024.Idx → EReal) := by
  have e : (V1 m c main_v3 : S2048x1024.Idx → EReal)
      = (truncf .bf16 ((m ((c : Thread nD τ).loc main_arg11)) : FVec Ideal S2048x1024 .f32) bitsLt_bf16_f32 : FVec Ideal S2048x1024 .bf16) := by
    show StableHlo.after hostOps0 (fun b => m (c, b)) (Proc.devRef .tc main_v3) = _
    after_results <;> rfl
  rw [e]; rfl

/-- `main_v4` is argument 2 as one row. -/
theorem V1_v4 (c : Dev nD) (i : Fin 2048) :
    (V1 m c main_v4 : S1x2048.Idx → EReal) (ix2 0 i) = ((m ((c : Thread nD τ).loc main_arg2)) : S2048.Idx → EReal) (ix1 i) := by
  have e : (V1 m c main_v4 : S1x2048.Idx → EReal)
      = shapeCast S1x2048 ((m ((c : Thread nD τ).loc main_arg2)) : Vec Ideal S2048 .f32) shapeCasts_S2048_S1x2048 := by
    show StableHlo.after hostOps0 (fun b => m (c, b)) (Proc.devRef .tc main_v4) = _
    after_results <;> rfl
  rw [e]
  exact shapeCast_a_1a_apply _ _ 0 i

/-- `main_v5` is argument 4 as one row. -/
theorem V1_v5 (c : Dev nD) (i : Fin 2048) :
    (V1 m c main_v5 : S1x2048.Idx → EReal) (ix2 0 i) = ((m ((c : Thread nD τ).loc main_arg4)) : S2048.Idx → EReal) (ix1 i) := by
  have e : (V1 m c main_v5 : S1x2048.Idx → EReal)
      = shapeCast S1x2048 ((m ((c : Thread nD τ).loc main_arg4)) : Vec Ideal S2048 .f32) shapeCasts_S2048_S1x2048 := by
    show StableHlo.after hostOps0 (fun b => m (c, b)) (Proc.devRef .tc main_v5) = _
    after_results <;> rfl
  rw [e]
  exact shapeCast_a_1a_apply _ _ 0 i

/-- `main_v6` is argument 6 as one row. -/
theorem V1_v6 (c : Dev nD) (i : Fin 128) :
    (V1 m c main_v6 : S1x128.Idx → EReal) (ix2 0 i) = ((m ((c : Thread nD τ).loc main_arg6)) : S128.Idx → EReal) (ix1 i) := by
  have e : (V1 m c main_v6 : S1x128.Idx → EReal)
      = shapeCast S1x128 ((m ((c : Thread nD τ).loc main_arg6)) : Vec Ideal S128 .f32) shapeCasts_S128_S1x128 := by
    show StableHlo.after hostOps0 (fun b => m (c, b)) (Proc.devRef .tc main_v6) = _
    after_results <;> rfl
  rw [e]
  exact shapeCast_a_1a_apply _ _ 0 i

/-- `main_v7` is argument 7 as one row. -/
theorem V1_v7 (c : Dev nD) (i : Fin 128) :
    (V1 m c main_v7 : S1x128.Idx → EReal) (ix2 0 i) = ((m ((c : Thread nD τ).loc main_arg7)) : S128.Idx → EReal) (ix1 i) := by
  have e : (V1 m c main_v7 : S1x128.Idx → EReal)
      = shapeCast S1x128 ((m ((c : Thread nD τ).loc main_arg7)) : Vec Ideal S128 .f32) shapeCasts_S128_S1x128 := by
    show StableHlo.after hostOps0 (fun b => m (c, b)) (Proc.devRef .tc main_v7) = _
    after_results <;> rfl
  rw [e]
  exact shapeCast_a_1a_apply _ _ 0 i

/-- `main_v8` is argument 8 as one row. -/
theorem V1_v8 (c : Dev nD) (i : Fin 128) :
    (V1 m c main_v8 : S1x128.Idx → EReal) (ix2 0 i) = ((m ((c : Thread nD τ).loc main_arg8)) : S128.Idx → EReal) (ix1 i) := by
  have e : (V1 m c main_v8 : S1x128.Idx → EReal)
      = shapeCast S1x128 ((m ((c : Thread nD τ).loc main_arg8)) : Vec Ideal S128 .f32) shapeCasts_S128_S1x128 := by
    show StableHlo.after hostOps0 (fun b => m (c, b)) (Proc.devRef .tc main_v8) = _
    after_results <;> rfl
  rw [e]
  exact shapeCast_a_1a_apply _ _ 0 i

/-- `main_v9` is argument 9 as one row. -/
theorem V1_v9 (c : Dev nD) (i : Fin 128) :
    (V1 m c main_v9 : S1x128.Idx → EReal) (ix2 0 i) = ((m ((c : Thread nD τ).loc main_arg9)) : S128.Idx → EReal) (ix1 i) := by
  have e : (V1 m c main_v9 : S1x128.Idx → EReal)
      = shapeCast S1x128 ((m ((c : Thread nD τ).loc main_arg9)) : Vec Ideal S128 .f32) shapeCasts_S128_S1x128 := by
    show StableHlo.after hostOps0 (fun b => m (c, b)) (Proc.devRef .tc main_v9) = _
    after_results <;> rfl
  rw [e]
  exact shapeCast_a_1a_apply _ _ 0 i

/-- `main_v10` is argument 10 as one row. -/
theorem V1_v10 (c : Dev nD) (i : Fin 128) :
    (V1 m c main_v10 : S1x128.Idx → EReal) (ix2 0 i) = ((m ((c : Thread nD τ).loc main_arg10)) : S128.Idx → EReal) (ix1 i) := by
  have e : (V1 m c main_v10 : S1x128.Idx → EReal)
      = shapeCast S1x128 ((m ((c : Thread nD τ).loc main_arg10)) : Vec Ideal S128 .f32) shapeCasts_S128_S1x128 := by
    show StableHlo.after hostOps0 (fun b => m (c, b)) (Proc.devRef .tc main_v10) = _
    after_results <;> rfl
  rw [e]
  exact shapeCast_a_1a_apply _ _ 0 i

/-- `main_v11` is argument 12 as one row. -/
theorem V1_v11 (c : Dev nD) (i : Fin 1024) :
    (V1 m c main_v11 : S1x1024.Idx → EReal) (ix2 0 i) = ((m ((c : Thread nD τ).loc main_arg12)) : S1024.Idx → EReal) (ix1 i) := by
  have e : (V1 m c main_v11 : S1x1024.Idx → EReal)
      = shapeCast S1x1024 ((m ((c : Thread nD τ).loc main_arg12)) : Vec Ideal S1024 .f32) shapeCasts_S1024_S1x1024 := by
    show StableHlo.after hostOps0 (fun b => m (c, b)) (Proc.devRef .tc main_v11) = _
    after_results <;> rfl
  rw [e]
  exact shapeCast_a_1a_apply _ _ 0 i

/-- The program's result array is the specification's function of the thirteen arguments. -/
theorem kernel_value (c : Dev nD) :
    (W3 m c (Proc.devRef .tc main_v13) : S2x4096x1024.Idx → EReal)
      = Spec.outArr (m ((c : Thread nD τ).loc main_arg0)) (m ((c : Thread nD τ).loc main_arg1)) (fun i => ((m ((c : Thread nD τ).loc main_arg2)) : S2048.Idx → EReal) (ix1 i))
          (m ((c : Thread nD τ).loc main_arg3)) (fun i => ((m ((c : Thread nD τ).loc main_arg4)) : S2048.Idx → EReal) (ix1 i))
          (m ((c : Thread nD τ).loc main_arg5)) (fun i => ((m ((c : Thread nD τ).loc main_arg6)) : S128.Idx → EReal) (ix1 i)) (fun i => ((m ((c : Thread nD τ).loc main_arg7)) : S128.Idx → EReal) (ix1 i))
          (fun i => ((m ((c : Thread nD τ).loc main_arg8)) : S128.Idx → EReal) (ix1 i)) (fun i => ((m ((c : Thread nD τ).loc main_arg9)) : S128.Idx → EReal) (ix1 i))
          (fun i => ((m ((c : Thread nD τ).loc main_arg10)) : S128.Idx → EReal) (ix1 i)) (m ((c : Thread nD τ).loc main_arg11)) (fun i => ((m ((c : Thread nD τ).loc main_arg12)) : S1024.Idx → EReal) (ix1 i)) := by
  rw [W3_result]
  exact out_arr_of (V2 m) c _ _ _ _ _ _
    ((W2_arr m c 13).trans (q_arr_of (V1 m) c _ _ _ _ _ (V1_arg0 m c) (V1_v2 m c) (V1_v6 m c) (V1_v7 m c) (V1_v8 m c)))
    ((W2_arr m c 14).trans (k_arr_of (V1 m) c _ _ _ _ _ (V1_arg0 m c) (V1_v2 m c) (V1_v6 m c) (V1_v9 m c) (V1_v10 m c)))
    ((W2_arr m c 11).trans (v_arr_of (V1 m) c _ _ _ (V1_arg0 m c) (V1_v0 m c) (V1_v4 m c)))
    ((W2_arr m c 12).trans (gate_arr_of (V1 m) c _ _ _ (V1_arg0 m c) (V1_v1 m c) (V1_v5 m c)))
    ((W2_of_ne m c main_v3 (by decide)).trans (V1_v3 m c))
    (fun e => (congrFun (W2_of_ne m c main_v11 (by decide)) _).trans (V1_v11 m c e))

end Cert.KernelIdeal.Val

end
-- ==== Proof.Ref.lean ====
/-
  The reference program's result, over the extended reals, is the specification's function of the argument arrays, index
  by index: its matrix products are the sums over the contracted axis, its silu is the one function, its mask keeps the
  key positions not after the query, and its quotient by the scale is the product with the scale's reciprocal.

  One lemma per intermediate array, each read at an index given by its coordinates: the three projections (values, gate,
  and the shared projection of q and k), q and k, the score, the mask, the masked and scaled score, its squared relu, the
  weighted sum of the values, the gated context, and the output projection.
-/
import proofs.«110127_j80247168959185_1_alg».proof.Proof.Gen.ReferenceIdeal.Read
import proofs.«110127_j80247168959185_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

set_option maxRecDepth 16384

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read

/-! ## Words and the outlined silu -/

/-- A position below 4096, as a 32-bit word, has itself as value. -/
theorem toNat_word (n : Fin 4096) : (BitVec.ofNat 32 n.val).toNat = n.val := by
  rw [BitVec.toNat_ofNat]
  exact Nat.mod_eq_of_lt (by have := n.isLt; omega)

/-- The outlined silu, operation by operation (negate, exponential, one plus, one over, multiply), is z · logistic z. -/
theorem silu_ops (z : EReal) :
    FloatOps.mulf (F := Ideal) (φ := .f32) z (FloatOps.hostDivf (F := Ideal) (φ := .f32) (FloatOps.ofBits (F := Ideal) .f32 0x3F800000#32)
      (FloatOps.addf (F := Ideal) (φ := .f32) (FloatOps.ofBits (F := Ideal) .f32 0x3F800000#32)
        (FloatOps.hostUnary (F := Ideal) (φ := .f32) .exp (FloatOps.hostNegf (F := Ideal) (φ := .f32) z)))) = Spec.silu z := by
  simp only [Ideal.mulf_def, Ideal.hostDivf_def, Ideal.addf_def, Ideal.hostUnary_exp_def, Ideal.hostNegf_def, Ideal.negf_def,
    Ideal.ofBits_def, Spec.ofBits_one]
  rfl

section
variable (x0 : S2x4096x1024.Idx → EReal) (x1 : S1024x2048.Idx → EReal) (x2 : S2048.Idx → EReal)
  (x3 : S1024x2048.Idx → EReal) (x4 : S2048.Idx → EReal) (x5 : S1024x128.Idx → EReal)
  (x6 x7 x8 x9 x10 : S128.Idx → EReal) (x11 : S2048x1024.Idx → EReal) (x12 : S1024.Idx → EReal)

/-! ## The three projections -/

/-- v: row (p, n) of x against column i of the first weight matrix, plus the bias, through silu. -/
theorem v4_eq (p : Fin 2) (n : Fin 4096) (i : Fin 2048) :
    val_main_v4 (F := Ideal) x0 x1 x2 (ix3 p n i) = Spec.proj x0 x1 (fun i => x2 (ix1 i)) p n i := by
  rw [val_main_v4_apply, val_main_call0_v5_apply, val_main_call0_v4_apply, val_main_call0_cst_0_apply,
    val_main_call0_v3_apply, val_main_call0_v2_apply, val_main_call0_cst_apply, val_main_call0_v1_apply,
    val_main_call0_v0_apply, silu_ops, val_main_v3_apply, val_main_v0_apply, val_main_v2_apply, val_main_v1_apply]
  have el : ∀ k : Fin 1024, lidx_main_v0 (ix3 p n i) k = ix3 p n k := fun k => funext fun a => Fin.ext (by
    match a with | ⟨0, _⟩ => rfl | ⟨1, _⟩ => rfl | ⟨2, _⟩ => rfl)
  have er : ∀ k : Fin 1024, ridx_main_v0 (ix3 p n i) k = ix2 k i := fun k => funext fun a => Fin.ext (by
    match a with | ⟨0, _⟩ => rfl | ⟨1, _⟩ => rfl)
  have eb : idx_main_v1 (idx_main_v2 (ix3 p n i)) = ix1 i := funext fun a => Fin.ext (by
    match a with | ⟨0, _⟩ => rfl)
  simp only [el, er, eb, Ideal.addf_def]
  rfl

/-- The gate: the same with the second weight matrix and bias. -/
theorem v9_eq (p : Fin 2) (n : Fin 4096) (i : Fin 2048) :
    val_main_v9 (F := Ideal) x0 x3 x4 (ix3 p n i) = Spec.proj x0 x3 (fun i => x4 (ix1 i)) p n i := by
  rw [val_main_v9_apply, val_main_call1_v5_apply, val_main_call1_v4_apply, val_main_call1_cst_0_apply,
    val_main_call1_v3_apply, val_main_call1_v2_apply, val_main_call1_cst_apply, val_main_call1_v1_apply,
    val_main_call1_v0_apply, silu_ops, val_main_v8_apply, val_main_v5_apply, val_main_v7_apply, val_main_v6_apply]
  have el : ∀ k : Fin 1024, lidx_main_v5 (ix3 p n i) k = ix3 p n k := fun k => funext fun a => Fin.ext (by
    match a with | ⟨0, _⟩ => rfl | ⟨1, _⟩ => rfl | ⟨2, _⟩ => rfl)
  have er : ∀ k : Fin 1024, ridx_main_v5 (ix3 p n i) k = ix2 k i := fun k => funext fun a => Fin.ext (by
    match a with | ⟨0, _⟩ => rfl | ⟨1, _⟩ => rfl)
  have eb : idx_main_v6 (idx_main_v7 (ix3 p n i)) = ix1 i := funext fun a => Fin.ext (by
    match a with | ⟨0, _⟩ => rfl)
  simp only [el, er, eb, Ideal.addf_def]
  rfl

/-- The shared projection u of q and k. -/
theorem v14_eq (p : Fin 2) (n : Fin 4096) (h : Fin 128) :
    val_main_v14 (F := Ideal) x0 x5 x6 (ix3 p n h) = Spec.proj x0 x5 (fun i => x6 (ix1 i)) p n h := by
  rw [val_main_v14_apply, val_main_call2_v5_apply, val_main_call2_v4_apply, val_main_call2_cst_0_apply,
    val_main_call2_v3_apply, val_main_call2_v2_apply, val_main_call2_cst_apply, val_main_call2_v1_apply,
    val_main_call2_v0_apply, silu_ops, val_main_v13_apply, val_main_v10_apply, val_main_v12_apply, val_main_v11_apply]
  have el : ∀ k : Fin 1024, lidx_main_v10 (ix3 p n h) k = ix3 p n k := fun k => funext fun a => Fin.ext (by
    match a with | ⟨0, _⟩ => rfl | ⟨1, _⟩ => rfl | ⟨2, _⟩ => rfl)
  have er : ∀ k : Fin 1024, ridx_main_v10 (ix3 p n h) k = ix2 k h := fun k => funext fun a => Fin.ext (by
    match a with | ⟨0, _⟩ => rfl | ⟨1, _⟩ => rfl)
  have eb : idx_main_v11 (idx_main_v12 (ix3 p n h)) = ix1 h := funext fun a => Fin.ext (by
    match a with | ⟨0, _⟩ => rfl)
  simp only [el, er, eb, Ideal.addf_def]
  rfl

/-! ## q, k and the score -/

/-- q = u · γq + βq. -/
theorem v20_eq (p : Fin 2) (n : Fin 4096) (h : Fin 128) :
    val_main_v20 (F := Ideal) x0 x5 x6 x7 x8 (ix3 p n h)
      = Spec.qk x0 x5 (fun i => x6 (ix1 i)) (fun i => x7 (ix1 i)) (fun i => x8 (ix1 i)) p n h := by
  rw [val_main_v20_apply, val_main_v17_apply, v14_eq, val_main_v16_apply, val_main_v15_apply, val_main_v19_apply,
    val_main_v18_apply]
  have eg : idx_main_v15 (idx_main_v16 (ix3 p n h)) = ix1 h := funext fun a => Fin.ext (by
    match a with | ⟨0, _⟩ => rfl)
  have eb : idx_main_v18 (idx_main_v19 (ix3 p n h)) = ix1 h := funext fun a => Fin.ext (by
    match a with | ⟨0, _⟩ => rfl)
  simp only [eg, eb, Ideal.addf_def, Ideal.mulf_def]
  rfl

/-- k = u · γk + βk. -/
theorem v26_eq (p : Fin 2) (n : Fin 4096) (h : Fin 128) :
    val_main_v26 (F := Ideal) x0 x5 x6 x9 x10 (ix3 p n h)
      = Spec.qk x0 x5 (fun i => x6 (ix1 i)) (fun i => x9 (ix1 i)) (fun i => x10 (ix1 i)) p n h := by
  rw [val_main_v26_apply, val_main_v23_apply, v14_eq, val_main_v22_apply, val_main_v21_apply, val_main_v25_apply,
    val_main_v24_apply]
  have eg : idx_main_v21 (idx_main_v22 (ix3 p n h)) = ix1 h := funext fun a => Fin.ext (by
    match a with | ⟨0, _⟩ => rfl)
  have eb : idx_main_v24 (idx_main_v25 (ix3 p n h)) = ix1 h := funext fun a => Fin.ext (by
    match a with | ⟨0, _⟩ => rfl)
  simp only [eg, eb, Ideal.addf_def, Ideal.mulf_def]
  rfl

/-- The score of query position n against key position m: the sum over the 128 features of q(n) · k(m). -/
theorem v27_eq (p : Fin 2) (n m : Fin 4096) :
    val_main_v27 (F := Ideal) x0 x5 x6 x7 x8 x9 x10 (ix3 p n m)
      = Spec.scoreOf (Spec.qk x0 x5 (fun i => x6 (ix1 i)) (fun i => x7 (ix1 i)) (fun i => x8 (ix1 i)))
          (Spec.qk x0 x5 (fun i => x6 (ix1 i)) (fun i => x9 (ix1 i)) (fun i => x10 (ix1 i))) p n m := by
  rw [val_main_v27_apply]
  unfold Spec.scoreOf
  refine Finset.sum_congr rfl fun h _ => ?_
  have el : lidx_main_v27 (ix3 p n m) h = ix3 p n h := funext fun a => Fin.ext (by
    match a with | ⟨0, _⟩ => rfl | ⟨1, _⟩ => rfl | ⟨2, _⟩ => rfl)
  have er : ridx_main_v27 (ix3 p n m) h = ix3 p m h := funext fun a => Fin.ext (by
    match a with | ⟨0, _⟩ => rfl | ⟨1, _⟩ => rfl | ⟨2, _⟩ => rfl)
  rw [el, er, v20_eq, v26_eq]

end

/-! ## The mask -/

/-- The mask at (n, m) is set exactly when the key position m comes after the query position n: the row number plus zero
    is compared, as signed words, with the column number, and the select writes false where row ≥ column and true elsewhere. -/
theorem v31_eq (n m : Fin 4096) :
    val_main_v31 (F := Ideal) (ix2 n m) = if m.val ≤ n.val then 0#1 else 1#1 := by
  rw [val_main_v31_apply, val_main_call3_v4_apply, val_main_call3_v2_apply, val_main_call3_v0_apply,
    val_main_call3_v1_apply, val_main_call3_c_apply, val_main_call3_v3_apply, val_main_call3_v5_apply,
    val_main_call3_c_0_apply, val_main_v30_apply, val_main_c_apply]
  show Scalar.select (IntOp.cmpi .sge (IntOp.addi (BitVec.ofNat 32 n.val) 0#32) (BitVec.ofNat 32 m.val)) 0#1 1#1 = _
  have ha : IntOp.addi (BitVec.ofNat 32 n.val) 0#32 = BitVec.ofNat 32 n.val := BitVec.add_zero _
  have hn : (BitVec.ofNat 32 n.val).toNat < 2 ^ 31 := by rw [toNat_word]; have := n.isLt; omega
  have hm : (BitVec.ofNat 32 m.val).toNat < 2 ^ 31 := by rw [toNat_word]; have := m.isLt; omega
  have hc := StableHlo.Predicate.sge_iff_toNat hn hm
  rw [toNat_word, toNat_word] at hc
  rw [ha]
  by_cases h : m.val ≤ n.val
  · rw [if_pos h, hc.mpr h, select_one]
  · rw [if_neg h, eq_zero_of_ne_one (fun e => h (hc.mp e)), select_zero]

section
variable (x0 : S2x4096x1024.Idx → EReal) (x1 : S1024x2048.Idx → EReal) (x2 : S2048.Idx → EReal)
  (x3 : S1024x2048.Idx → EReal) (x4 : S2048.Idx → EReal) (x5 : S1024x128.Idx → EReal)
  (x6 x7 x8 x9 x10 : S128.Idx → EReal) (x11 : S2048x1024.Idx → EReal) (x12 : S1024.Idx → EReal)

/-! ## The masked, scaled score and its squared relu -/

/-- After the division by the scale and the where: the score times the scale's reciprocal at the key positions not after
    the query, zero at the others. -/
theorem v32_eq (p : Fin 2) (n m : Fin 4096) :
    val_main_v32 (F := Ideal) x0 x5 x6 x7 x8 x9 x10 (ix3 p n m)
      = if m.val ≤ n.val then
          Spec.scoreOf (Spec.qk x0 x5 (fun i => x6 (ix1 i)) (fun i => x7 (ix1 i)) (fun i => x8 (ix1 i)))
            (Spec.qk x0 x5 (fun i => x6 (ix1 i)) (fun i => x9 (ix1 i)) (fun i => x10 (ix1 i))) p n m * Spec.cE
        else 0 := by
  rw [val_main_v32_apply, val_main_call4_v0_apply, val_main_call4_v1_apply, val_main_cst_0_apply, val_main_v29_apply,
    val_main_v28_apply, val_main_cst_apply, v27_eq]
  have em : idx_main_call4_v0 (ix3 p n m) = ix2 n m := funext fun a => Fin.ext (by
    match a with | ⟨0, _⟩ => rfl | ⟨1, _⟩ => rfl)
  rw [em, v31_eq]
  simp only [Ideal.hostDivf_def, Ideal.ofBits_def, Spec.div_scale, Spec.ofBits_zero]
  by_cases h : m.val ≤ n.val
  · rw [if_pos h, if_pos h, select_zero]
  · rw [if_neg h, if_neg h, select_one]

/-- The attention weight: the squared relu of the masked, scaled score. -/
theorem v34_eq (p : Fin 2) (n m : Fin 4096) :
    val_main_v34 (F := Ideal) x0 x5 x6 x7 x8 x9 x10 (ix3 p n m)
      = Spec.attn (Spec.scoreOf (Spec.qk x0 x5 (fun i => x6 (ix1 i)) (fun i => x7 (ix1 i)) (fun i => x8 (ix1 i)))
          (Spec.qk x0 x5 (fun i => x6 (ix1 i)) (fun i => x9 (ix1 i)) (fun i => x10 (ix1 i))) p n m) n.val m.val := by
  rw [val_main_v34_apply, val_main_v33_apply, val_main_call5_v0_apply, val_main_call5_cst_apply, v32_eq]
  simp only [Ideal.mulf_def, Ideal.maximumf_def, Ideal.ofBits_def, Spec.ofBits_zero]
  rfl

/-! ## The context, the gate and the output projection -/

/-- The weighted sum of the values over all 4096 key positions. -/
theorem v35_eq (p : Fin 2) (n : Fin 4096) (i : Fin 2048) :
    val_main_v35 (F := Ideal) x0 x1 x2 x5 x6 x7 x8 x9 x10 (ix3 p n i)
      = Spec.ctxOf (Spec.qk x0 x5 (fun i => x6 (ix1 i)) (fun i => x7 (ix1 i)) (fun i => x8 (ix1 i)))
          (Spec.qk x0 x5 (fun i => x6 (ix1 i)) (fun i => x9 (ix1 i)) (fun i => x10 (ix1 i)))
          (Spec.proj x0 x1 (fun i => x2 (ix1 i))) p n i := by
  rw [val_main_v35_apply]
  unfold Spec.ctxOf
  refine Finset.sum_congr rfl fun m _ => ?_
  have el : lidx_main_v35 (ix3 p n i) m = ix3 p n m := funext fun a => Fin.ext (by
    match a with | ⟨0, _⟩ => rfl | ⟨1, _⟩ => rfl | ⟨2, _⟩ => rfl)
  have er : ridx_main_v35 (ix3 p n i) m = ix3 p m i := funext fun a => Fin.ext (by
    match a with | ⟨0, _⟩ => rfl | ⟨1, _⟩ => rfl | ⟨2, _⟩ => rfl)
  rw [el, er, v34_eq, v4_eq]

/-- The gated context. -/
theorem v36_eq (p : Fin 2) (n : Fin 4096) (i : Fin 2048) :
    val_main_v36 (F := Ideal) x0 x1 x2 x3 x4 x5 x6 x7 x8 x9 x10 (ix3 p n i)
      = Spec.ctxOf (Spec.qk x0 x5 (fun i => x6 (ix1 i)) (fun i => x7 (ix1 i)) (fun i => x8 (ix1 i)))
          (Spec.qk x0 x5 (fun i => x6 (ix1 i)) (fun i => x9 (ix1 i)) (fun i => x10 (ix1 i)))
          (Spec.proj x0 x1 (fun i => x2 (ix1 i))) p n i
        * Spec.proj x0 x3 (fun i => x4 (ix1 i)) p n i := by
  rw [val_main_v36_apply, v35_eq, v9_eq]
  rfl

/-- The result at (p, n, e): the gated context against column e of the output weights, plus the output bias. -/
theorem v40_eq (p : Fin 2) (n : Fin 4096) (e : Fin 1024) :
    val_main_v40 (F := Ideal) x0 x1 x2 x3 x4 x5 x6 x7 x8 x9 x10 x11 x12 (ix3 p n e)
      = Spec.out x0 x1 (fun i => x2 (ix1 i)) x3 (fun i => x4 (ix1 i)) x5 (fun i => x6 (ix1 i)) (fun i => x7 (ix1 i))
          (fun i => x8 (ix1 i)) (fun i => x9 (ix1 i)) (fun i => x10 (ix1 i)) x11 (fun i => x12 (ix1 i)) p n e := by
  rw [val_main_v40_apply, val_main_v37_apply, val_main_v39_apply, val_main_v38_apply]
  have eb : idx_main_v38 (idx_main_v39 (ix3 p n e)) = ix1 e := funext fun a => Fin.ext (by
    match a with | ⟨0, _⟩ => rfl)
  rw [eb, Ideal.addf_def]
  unfold Spec.out Spec.outOf
  congr 1
  refine Finset.sum_congr rfl fun i _ => ?_
  have el : lidx_main_v37 (ix3 p n e) i = ix3 p n i := funext fun a => Fin.ext (by
    match a with | ⟨0, _⟩ => rfl | ⟨1, _⟩ => rfl | ⟨2, _⟩ => rfl)
  have er : ridx_main_v37 (ix3 p n e) i = ix2 i e := funext fun a => Fin.ext (by
    match a with | ⟨0, _⟩ => rfl | ⟨1, _⟩ => rfl)
  rw [el, er, v36_eq]

end

/-- The reference's result term is the specification's function. -/
theorem ref_eq (x0 : S2x4096x1024.Idx → EReal) (x1 : S1024x2048.Idx → EReal) (x2 : S2048.Idx → EReal)
    (x3 : S1024x2048.Idx → EReal) (x4 : S2048.Idx → EReal) (x5 : S1024x128.Idx → EReal)
    (x6 x7 x8 x9 x10 : S128.Idx → EReal) (x11 : S2048x1024.Idx → EReal) (x12 : S1024.Idx → EReal) :
    (val_main_v40 (F := Ideal) x0 x1 x2 x3 x4 x5 x6 x7 x8 x9 x10 x11 x12 : S2x4096x1024.Idx → EReal)
      = Spec.outArr x0 x1 (fun i => x2 (ix1 i)) x3 (fun i => x4 (ix1 i)) x5 (fun i => x6 (ix1 i)) (fun i => x7 (ix1 i))
          (fun i => x8 (ix1 i)) (fun i => x9 (ix1 i)) (fun i => x10 (ix1 i)) x11 (fun i => x12 (ix1 i)) := by
  funext j
  obtain ⟨p, n, e, rfl⟩ : ∃ (p : Fin 2) (n : Fin 4096) (e : Fin 1024), j = ix3 p n e := ⟨j 0, j 1, j 2, eq_ix3 j⟩
  rw [v40_eq]
  rfl

end Cert.ReferenceIdeal.RefValue

end
-- ==== Proof.lean ====
/-
  The certificate. Both printed kernels run to the end, fault nowhere and leave their arguments as launched: the host
  stretch and the two pipelined regions are run in order, the second region's invariant carrying its scratch accumulator
  from grid point to grid point. The reference's frame is its run with the result dropped. The idealization names one
  constant, the reciprocal of the attention scale, whose statement is the rule's. Over the extended reals the kernel's
  result array is one function of the thirteen arguments — causal squared-relu attention over q and k, against v, gated,
  projected by Wo, plus bo — and the reference's result is the same function: the kernel sums the key positions in blocks
  of 512 and leaves out the blocks above the diagonal, which weigh zero; it multiplies by the scale's reciprocal where the
  reference divides by the scale.
-/
import proofs.«110127_j80247168959185_1_alg».proof.Defs
import proofs.«110127_j80247168959185_1_alg».proof.Proof.Gen.Kernel
import proofs.«110127_j80247168959185_1_alg».proof.Proof.Gen.KernelIdeal
import proofs.«110127_j80247168959185_1_alg».proof.Proof.Gen.ReferenceIdeal
import proofs.«110127_j80247168959185_1_alg».proof.Proof.Gen.Pre_finite_inputs
import proofs.«110127_j80247168959185_1_alg».proof.Proof.Gen.ReferenceIdeal.Run
import proofs.«110127_j80247168959185_1_alg».proof.Proof.Gen.ReferenceIdeal.Read
import proofs.«110127_j80247168959185_1_alg».proof.Proof.K.Run
import proofs.«110127_j80247168959185_1_alg».proof.Proof.KI.Run
import proofs.«110127_j80247168959185_1_alg».proof.Proof.KI.Bridge
import proofs.«110127_j80247168959185_1_alg».proof.Proof.Ref
import Idealize.ShloMosaic.PureOps.IdealRules
import Idealize.ShloMosaic.Adequacy
import Idealize.ShloMosaic.Init

set_option maxRecDepth 16384

noncomputable section

namespace Cert.Proof

open Idealize.ShloMosaic Idealize.ShloMosaic.TcCoe Idealize.SL.Sem

/-- The word-level kernel's frame. -/
theorem frame_k : Cert.frame_Kernel (hKernel := Cert.Kernel.Gen.facts) (hPre_finite_inputs := Cert.Pre_finite_inputs.Gen.facts) :=
  fun m g _ => (θ_run (Cert.Kernel.defs (F := Bits)) _ _).mono (fun r h c => ⟨
      (h c _ (Cert.Kernel.Fr.mem_uc Cert.Kernel.main_arg0 (by decide))).trans (Cert.Kernel.Fr.W3_main_arg0 m c),
      (h c _ (Cert.Kernel.Fr.mem_uc Cert.Kernel.main_arg1 (by decide))).trans (Cert.Kernel.Fr.W3_arg m c Cert.Kernel.main_arg1 (by decide) (by decide) (by decide)),
      (h c _ (Cert.Kernel.Fr.mem_uc Cert.Kernel.main_arg2 (by decide))).trans (Cert.Kernel.Fr.W3_arg m c Cert.Kernel.main_arg2 (by decide) (by decide) (by decide)),
      (h c _ (Cert.Kernel.Fr.mem_uc Cert.Kernel.main_arg3 (by decide))).trans (Cert.Kernel.Fr.W3_arg m c Cert.Kernel.main_arg3 (by decide) (by decide) (by decide)),
      (h c _ (Cert.Kernel.Fr.mem_uc Cert.Kernel.main_arg4 (by decide))).trans (Cert.Kernel.Fr.W3_arg m c Cert.Kernel.main_arg4 (by decide) (by decide) (by decide)),
      (h c _ (Cert.Kernel.Fr.mem_uc Cert.Kernel.main_arg5 (by decide))).trans (Cert.Kernel.Fr.W3_arg m c Cert.Kernel.main_arg5 (by decide) (by decide) (by decide)),
      (h c _ (Cert.Kernel.Fr.mem_uc Cert.Kernel.main_arg6 (by decide))).trans (Cert.Kernel.Fr.W3_arg m c Cert.Kernel.main_arg6 (by decide) (by decide) (by decide)),
      (h c _ (Cert.Kernel.Fr.mem_uc Cert.Kernel.main_arg7 (by decide))).trans (Cert.Kernel.Fr.W3_arg m c Cert.Kernel.main_arg7 (by decide) (by decide) (by decide)),
      (h c _ (Cert.Kernel.Fr.mem_uc Cert.Kernel.main_arg8 (by decide))).trans (Cert.Kernel.Fr.W3_arg m c Cert.Kernel.main_arg8 (by decide) (by decide) (by decide)),
      (h c _ (Cert.Kernel.Fr.mem_uc Cert.Kernel.main_arg9 (by decide))).trans (Cert.Kernel.Fr.W3_arg m c Cert.Kernel.main_arg9 (by decide) (by decide) (by decide)),
      (h c _ (Cert.Kernel.Fr.mem_uc Cert.Kernel.main_arg10 (by decide))).trans (Cert.Kernel.Fr.W3_arg m c Cert.Kernel.main_arg10 (by decide) (by decide) (by decide)),
      (h c _ (Cert.Kernel.Fr.mem_uc Cert.Kernel.main_arg11 (by decide))).trans (Cert.Kernel.Fr.W3_arg m c Cert.Kernel.main_arg11 (by decide) (by decide) (by decide)),
      (h c _ (Cert.Kernel.Fr.mem_uc Cert.Kernel.main_arg12 (by decide))).trans (Cert.Kernel.Fr.W3_arg m c Cert.Kernel.main_arg12 (by decide) (by decide) (by decide))⟩)
    (Cert.Kernel.Fr.run_all (F := Bits) m g)

/-- The idealized kernel's frame. -/
theorem frame_ki : Cert.frame_KernelIdeal (hKernelIdeal := Cert.KernelIdeal.Gen.facts) (hPre_finite_inputs := Cert.Pre_finite_inputs.Gen.facts) :=
  fun m g _ => (θ_run (Cert.KernelIdeal.defs (F := Ideal)) _ _).mono (fun r h c => ⟨
      (h c _ (Cert.KernelIdeal.Fr.mem_uc Cert.KernelIdeal.main_arg0 (by decide))).trans (Cert.KernelIdeal.Fr.W3_main_arg0 m c),
      (h c _ (Cert.KernelIdeal.Fr.mem_uc Cert.KernelIdeal.main_arg1 (by decide))).trans (Cert.KernelIdeal.Fr.W3_arg m c Cert.KernelIdeal.main_arg1 (by decide) (by decide) (by decide)),
      (h c _ (Cert.KernelIdeal.Fr.mem_uc Cert.KernelIdeal.main_arg2 (by decide))).trans (Cert.KernelIdeal.Fr.W3_arg m c Cert.KernelIdeal.main_arg2 (by decide) (by decide) (by decide)),
      (h c _ (Cert.KernelIdeal.Fr.mem_uc Cert.KernelIdeal.main_arg3 (by decide))).trans (Cert.KernelIdeal.Fr.W3_arg m c Cert.KernelIdeal.main_arg3 (by decide) (by decide) (by decide)),
      (h c _ (Cert.KernelIdeal.Fr.mem_uc Cert.KernelIdeal.main_arg4 (by decide))).trans (Cert.KernelIdeal.Fr.W3_arg m c Cert.KernelIdeal.main_arg4 (by decide) (by decide) (by decide)),
      (h c _ (Cert.KernelIdeal.Fr.mem_uc Cert.KernelIdeal.main_arg5 (by decide))).trans (Cert.KernelIdeal.Fr.W3_arg m c Cert.KernelIdeal.main_arg5 (by decide) (by decide) (by decide)),
      (h c _ (Cert.KernelIdeal.Fr.mem_uc Cert.KernelIdeal.main_arg6 (by decide))).trans (Cert.KernelIdeal.Fr.W3_arg m c Cert.KernelIdeal.main_arg6 (by decide) (by decide) (by decide)),
      (h c _ (Cert.KernelIdeal.Fr.mem_uc Cert.KernelIdeal.main_arg7 (by decide))).trans (Cert.KernelIdeal.Fr.W3_arg m c Cert.KernelIdeal.main_arg7 (by decide) (by decide) (by decide)),
      (h c _ (Cert.KernelIdeal.Fr.mem_uc Cert.KernelIdeal.main_arg8 (by decide))).trans (Cert.KernelIdeal.Fr.W3_arg m c Cert.KernelIdeal.main_arg8 (by decide) (by decide) (by decide)),
      (h c _ (Cert.KernelIdeal.Fr.mem_uc Cert.KernelIdeal.main_arg9 (by decide))).trans (Cert.KernelIdeal.Fr.W3_arg m c Cert.KernelIdeal.main_arg9 (by decide) (by decide) (by decide)),
      (h c _ (Cert.KernelIdeal.Fr.mem_uc Cert.KernelIdeal.main_arg10 (by decide))).trans (Cert.KernelIdeal.Fr.W3_arg m c Cert.KernelIdeal.main_arg10 (by decide) (by decide) (by decide)),
      (h c _ (Cert.KernelIdeal.Fr.mem_uc Cert.KernelIdeal.main_arg11 (by decide))).trans (Cert.KernelIdeal.Fr.W3_arg m c Cert.KernelIdeal.main_arg11 (by decide) (by decide) (by decide)),
      (h c _ (Cert.KernelIdeal.Fr.mem_uc Cert.KernelIdeal.main_arg12 (by decide))).trans (Cert.KernelIdeal.Fr.W3_arg m c Cert.KernelIdeal.main_arg12 (by decide) (by decide) (by decide))⟩)
    (Cert.KernelIdeal.Fr.run_all (F := Ideal) m g)

/-- The reference's frame: its run with the result dropped. -/
theorem frame_ri : Cert.frame_ReferenceIdeal (hReferenceIdeal := Cert.ReferenceIdeal.Gen.facts) (hPre_finite_inputs := Cert.Pre_finite_inputs.Gen.facts) :=
  fun m g _ => (θ_run Cert.ReferenceIdeal.defs _ _).mono (fun _ h c => (h c).2) (Cert.ReferenceIdeal.Value.run (F := Ideal) m g)

/-- The one named constant: the table gives it the reciprocal of the scale, and the printed constant is that value. -/
theorem preserves : Cert.preserves_Kernel_KernelIdeal :=
  IdealRules.named_const.statement Cert.KernelIdeal.κ "inv_scale" .f32 0x3CB504F3#32 ((262144 / 11863283 : ℝ) : EReal) rfl

/-- Both idealized programs end with the specification's function of the arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' _ hagree
  refine ⟨fun c => Cert.KernelIdeal.Fr.W3 m c (Proc.devRef .tc Cert.KernelIdeal.main_v13), ?_, ?_⟩
  · exact (θ_run (Cert.KernelIdeal.defs (F := Ideal)) _ _).mono (fun r h c => ⟨
      h c _ (Cert.KernelIdeal.Fr.mem_uc Cert.KernelIdeal.main_v13 (by decide)),
      (h c _ (Cert.KernelIdeal.Fr.mem_uc Cert.KernelIdeal.main_arg0 (by decide))).trans (Cert.KernelIdeal.Fr.W3_main_arg0 m c),
      (h c _ (Cert.KernelIdeal.Fr.mem_uc Cert.KernelIdeal.main_arg1 (by decide))).trans (Cert.KernelIdeal.Fr.W3_arg m c Cert.KernelIdeal.main_arg1 (by decide) (by decide) (by decide)),
      (h c _ (Cert.KernelIdeal.Fr.mem_uc Cert.KernelIdeal.main_arg2 (by decide))).trans (Cert.KernelIdeal.Fr.W3_arg m c Cert.KernelIdeal.main_arg2 (by decide) (by decide) (by decide)),
      (h c _ (Cert.KernelIdeal.Fr.mem_uc Cert.KernelIdeal.main_arg3 (by decide))).trans (Cert.KernelIdeal.Fr.W3_arg m c Cert.KernelIdeal.main_arg3 (by decide) (by decide) (by decide)),
      (h c _ (Cert.KernelIdeal.Fr.mem_uc Cert.KernelIdeal.main_arg4 (by decide))).trans (Cert.KernelIdeal.Fr.W3_arg m c Cert.KernelIdeal.main_arg4 (by decide) (by decide) (by decide)),
      (h c _ (Cert.KernelIdeal.Fr.mem_uc Cert.KernelIdeal.main_arg5 (by decide))).trans (Cert.KernelIdeal.Fr.W3_arg m c Cert.KernelIdeal.main_arg5 (by decide) (by decide) (by decide)),
      (h c _ (Cert.KernelIdeal.Fr.mem_uc Cert.KernelIdeal.main_arg6 (by decide))).trans (Cert.KernelIdeal.Fr.W3_arg m c Cert.KernelIdeal.main_arg6 (by decide) (by decide) (by decide)),
      (h c _ (Cert.KernelIdeal.Fr.mem_uc Cert.KernelIdeal.main_arg7 (by decide))).trans (Cert.KernelIdeal.Fr.W3_arg m c Cert.KernelIdeal.main_arg7 (by decide) (by decide) (by decide)),
      (h c _ (Cert.KernelIdeal.Fr.mem_uc Cert.KernelIdeal.main_arg8 (by decide))).trans (Cert.KernelIdeal.Fr.W3_arg m c Cert.KernelIdeal.main_arg8 (by decide) (by decide) (by decide)),
      (h c _ (Cert.KernelIdeal.Fr.mem_uc Cert.KernelIdeal.main_arg9 (by decide))).trans (Cert.KernelIdeal.Fr.W3_arg m c Cert.KernelIdeal.main_arg9 (by decide) (by decide) (by decide)),
      (h c _ (Cert.KernelIdeal.Fr.mem_uc Cert.KernelIdeal.main_arg10 (by decide))).trans (Cert.KernelIdeal.Fr.W3_arg m c Cert.KernelIdeal.main_arg10 (by decide) (by decide) (by decide)),
      (h c _ (Cert.KernelIdeal.Fr.mem_uc Cert.KernelIdeal.main_arg11 (by decide))).trans (Cert.KernelIdeal.Fr.W3_arg m c Cert.KernelIdeal.main_arg11 (by decide) (by decide) (by decide)),
      (h c _ (Cert.KernelIdeal.Fr.mem_uc Cert.KernelIdeal.main_arg12 (by decide))).trans (Cert.KernelIdeal.Fr.W3_arg m c Cert.KernelIdeal.main_arg12 (by decide) (by decide) (by decide))⟩)
      (Cert.KernelIdeal.Fr.run_all (F := Ideal) m g)
  · refine (θ_run Cert.ReferenceIdeal.defs _ _).mono (fun r h c => ⟨(h c).1.trans ?_, (h c).2⟩)
      (Cert.ReferenceIdeal.Value.run (F := Ideal) m' g')
    rw [Cert.ReferenceIdeal.Read.val_main_v40_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2.1, (hagree c).2.2.2.2.2.2.2.2.2.2.2.2]
    exact (Cert.ReferenceIdeal.RefValue.ref_eq _ _ _ _ _ _ _ _ _ _ _ _ _).trans (Cert.KernelIdeal.Val.kernel_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
